-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1433 : Shape := ⟨2, ![8192, 1433]⟩
abbrev S131072x2 : Shape := ⟨2, ![131072, 2]⟩
abbrev S8192 : Shape := ⟨1, ![8192]⟩
abbrev S1433x32 : Shape := ⟨2, ![1433, 32]⟩
abbrev S32x7 : Shape := ⟨2, ![32, 7]⟩
abbrev S_ : Shape := ⟨0, ![]⟩
abbrev S131072 : Shape := ⟨1, ![131072]⟩
abbrev S131072x1 : Shape := ⟨2, ![131072, 1]⟩
abbrev S8192x8192 : Shape := ⟨2, ![8192, 8192]⟩

class Facts : Prop where
  bcast_S_S131072 : S_.BroadcastsInDim S131072 (![] : Fin 0 → Fin S131072.rank)
  slices_S131072x2_S131072x1_0_0 : S131072x2.Slices ![0, 0] S131072x1
  shapeCasts_S131072x1_S131072 : S131072x1.ShapeCasts S131072
  bcast_S_S8192 : S_.BroadcastsInDim S8192 (![] : Fin 0 → Fin S8192.rank)
  bcast_S131072_S131072x1_0 : S131072.BroadcastsInDim S131072x1 (![0] : Fin 1 → Fin S131072x1.rank)
  slices_S131072x2_S131072x1_0_1 : S131072x2.Slices ![0, 1] S131072x1
  bcast_S_S8192x8192 : S_.BroadcastsInDim S8192x8192 (![] : Fin 0 → Fin S8192x8192.rank)
  bcast_S_S8192x1433 : S_.BroadcastsInDim S8192x1433 (![] : Fin 0 → Fin S8192x1433.rank)
  reducesTo_S8192x1433_S_d0_1 : S8192x1433.ReducesTo [0, 1] S_
  h_S_ : 0 < S_.numel
  bcast_S_S1433x32 : S_.BroadcastsInDim S1433x32 (![] : Fin 0 → Fin S1433x32.rank)
  reducesTo_S1433x32_S_d0_1 : S1433x32.ReducesTo [0, 1] S_
  bcast_S_S32x7 : S_.BroadcastsInDim S32x7 (![] : Fin 0 → Fin S32x7.rank)
  reducesTo_S32x7_S_d0_1 : S32x7.ReducesTo [0, 1] S_
  bcast_S_S131072x2 : S_.BroadcastsInDim S131072x2 (![] : Fin 0 → Fin S131072x2.rank)
  reducesTo_S131072x2_S_d0_1 : S131072x2.ReducesTo [0, 1] S_
  reducesTo_S8192_S_d0 : S8192.ReducesTo [0] S_
  reducesTo_S8192x8192_S_d0_1 : S8192x8192.ReducesTo [0, 1] S_
  scatter_S8192_S131072x1_S131072_n_0_0_1_wf : ScatterDims.WF S8192 S131072x1 S131072 [] [0] [0] 1
  scatter_S8192x8192_S131072x2_S131072_n_01_01_1_wf : ScatterDims.WF S8192x8192 S131072x2 S131072 [] [0, 1] [0, 1] 1

variable [Facts]

def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def fn_part3 {F : FTy → Type} [FloatOps F] (main_v12 : FVec F S8192x8192 .f32) (main_v48 : IVec S_ 1) (main_v50 : IVec S8192 1) : IVec S_ 1 :=
  let main_c_19 : IVec S_ 1 := constantI S_ 1 1#1
  let main_v51 : IVec S_ 1 := (fun x v => Host.reduce IntOp.andi x v reducesTo_S8192_S_d0 h_S_) main_v50 main_c_19
  let main_v52 : IVec S_ 1 := andi main_v48 main_v51
  let main_cst_20 : FVec F S_ .f32 := constant S_ .f32 0x3F800000#32
  let main_v53 : FVec F S8192x8192 .f32 := broadcastInDim S8192x8192 ![] bcast_S_S8192x8192 main_cst_20
  let main_v54 : IVec S8192x8192 1 := cmpf .ole main_v12 main_v53
  let main_c_21 : IVec S_ 1 := constantI S_ 1 1#1
  let main_v55 : IVec S_ 1 := (fun x v => Host.reduce IntOp.andi x v reducesTo_S8192x8192_S_d0_1 h_S_) main_v54 main_c_21
  let main_v56 : IVec S_ 1 := andi main_v52 main_v55
  main_v56

def fn_part2 {F : FTy → Type} [FloatOps F] (main_arg1 : IVec S131072x2 32) (main_v5 : FVec F S8192 .f32) (main_v10 : FVec F S8192 .f32) (main_v12 : FVec F S8192x8192 .f32) (main_v31 : IVec S_ 1) (main_v34 : IVec S32x7 1) : IVec S_ 1 :=
  let main_c_11 : IVec S_ 1 := constantI S_ 1 1#1
  let main_v35 : IVec S_ 1 := (fun x v => Host.reduce IntOp.andi x v reducesTo_S32x7_S_d0_1 h_S_) main_v34 main_c_11
  let main_v36 : IVec S_ 1 := andi main_v31 main_v35
  let main_c_12 : IVec S_ 32 := constantI S_ 32 0#32
  let main_v37 : IVec S131072x2 32 := broadcastInDim S131072x2 ![] bcast_S_S131072x2 main_c_12
  let main_v38 : IVec S131072x2 1 := cmpi .sge main_arg1 main_v37
  let main_c_13 : IVec S_ 1 := constantI S_ 1 1#1
  let main_v39 : IVec S_ 1 := (fun x v => Host.reduce IntOp.andi x v reducesTo_S131072x2_S_d0_1 h_S_) main_v38 main_c_13
  let main_v40 : IVec S_ 1 := andi main_v36 main_v39
  let main_c_14 : IVec S_ 32 := constantI S_ 32 8192#32
  let main_v41 : IVec S131072x2 32 := broadcastInDim S131072x2 ![] bcast_S_S131072x2 main_c_14
  let main_v42 : IVec S131072x2 1 := cmpi .slt main_arg1 main_v41
  let main_c_15 : IVec S_ 1 := constantI S_ 1 1#1
  let main_v43 : IVec S_ 1 := (fun x v => Host.reduce IntOp.andi x v reducesTo_S131072x2_S_d0_1 h_S_) main_v42 main_c_15
  let main_v44 : IVec S_ 1 := andi main_v40 main_v43
  let main_cst_16 : FVec F S_ .f32 := constant S_ .f32 0x00000000#32
  let main_v45 : FVec F S8192 .f32 := broadcastInDim S8192 ![] bcast_S_S8192 main_cst_16
  let main_v46 : IVec S8192 1 := cmpf .ogt main_v5 main_v45
  let main_c_17 : IVec S_ 1 := constantI S_ 1 1#1
  let main_v47 : IVec S_ 1 := (fun x v => Host.reduce IntOp.andi x v reducesTo_S8192_S_d0 h_S_) main_v46 main_c_17
  let main_v48 : IVec S_ 1 := andi main_v44 main_v47
  let main_cst_18 : FVec F S_ .f32 := constant S_ .f32 0x00000000#32
  let main_v49 : FVec F S8192 .f32 := broadcastInDim S8192 ![] bcast_S_S8192 main_cst_18
  let main_v50 : IVec S8192 1 := cmpf .ogt main_v10 main_v49
  fn_part3 (F := F) main_v12 main_v48 main_v50

def fn_part1 {F : FTy → Type} [FloatOps F] (main_arg1 : IVec S131072x2 32) (main_arg4 : FVec F S32x7 .f32) (main_arg5 : FVec F S1433x32 .f32) (main_arg6 : FVec F S32x7 .f32) (main_v5 : FVec F S8192 .f32) (main_v10 : FVec F S8192 .f32) (main_v12 : FVec F S8192x8192 .f32) (main_v16 : IVec S_ 1) (main_v17 : FVec F S1433x32 .f32) : IVec S_ 1 :=
  let main_cst_4 : FVec F S_ .f32 := constant S_ .f32 0x7F800000#32
  let main_v18 : FVec F S1433x32 .f32 := broadcastInDim S1433x32 ![] bcast_S_S1433x32 main_cst_4
  let main_v19 : IVec S1433x32 1 := cmpf .olt main_v17 main_v18
  let main_c_5 : IVec S_ 1 := constantI S_ 1 1#1
  let main_v20 : IVec S_ 1 := (fun x v => Host.reduce IntOp.andi x v reducesTo_S1433x32_S_d0_1 h_S_) main_v19 main_c_5
  let main_v21 : IVec S_ 1 := andi main_v16 main_v20
  let main_v22 : FVec F S32x7 .f32 := Host.absf main_arg4
  let main_cst_6 : FVec F S_ .f32 := constant S_ .f32 0x7F800000#32
  let main_v23 : FVec F S32x7 .f32 := broadcastInDim S32x7 ![] bcast_S_S32x7 main_cst_6
  let main_v24 : IVec S32x7 1 := cmpf .olt main_v22 main_v23
  let main_c_7 : IVec S_ 1 := constantI S_ 1 1#1
  let main_v25 : IVec S_ 1 := (fun x v => Host.reduce IntOp.andi x v reducesTo_S32x7_S_d0_1 h_S_) main_v24 main_c_7
  let main_v26 : IVec S_ 1 := andi main_v21 main_v25
  let main_v27 : FVec F S1433x32 .f32 := Host.absf main_arg5
  let main_cst_8 : FVec F S_ .f32 := constant S_ .f32 0x7F800000#32
  let main_v28 : FVec F S1433x32 .f32 := broadcastInDim S1433x32 ![] bcast_S_S1433x32 main_cst_8
  let main_v29 : IVec S1433x32 1 := cmpf .olt main_v27 main_v28
  let main_c_9 : IVec S_ 1 := constantI S_ 1 1#1
  let main_v30 : IVec S_ 1 := (fun x v => Host.reduce IntOp.andi x v reducesTo_S1433x32_S_d0_1 h_S_) main_v29 main_c_9
  let main_v31 : IVec S_ 1 := andi main_v26 main_v30
  let main_v32 : FVec F S32x7 .f32 := Host.absf main_arg6
  let main_cst_10 : FVec F S_ .f32 := constant S_ .f32 0x7F800000#32
  let main_v33 : FVec F S32x7 .f32 := broadcastInDim S32x7 ![] bcast_S_S32x7 main_cst_10
  let main_v34 : IVec S32x7 1 := cmpf .olt main_v32 main_v33
  fn_part2 (F := F) main_arg1 main_v5 main_v10 main_v12 main_v31 main_v34

def fn {F : FTy → Type} [FloatOps F] (main_arg0 : FVec F S8192x1433 .f32) (main_arg1 : IVec S131072x2 32) (main_arg2 : IVec S8192 32) (main_arg3 : FVec F S1433x32 .f32) (main_arg4 : FVec F S32x7 .f32) (main_arg5 : FVec F S1433x32 .f32) (main_arg6 : FVec F S32x7 .f32) : IVec S_ 1 :=
  let main_cst : FVec F S_ .f32 := constant S_ .f32 0x3F800000#32
  let main_v0 : FVec F S131072 .f32 := broadcastInDim S131072 ![] bcast_S_S131072 main_cst
  let main_v1 : IVec S131072x1 32 := (extractStridedSlice S131072x1 ![0, 0] · slices_S131072x2_S131072x1_0_0) main_arg1
  let main_v2 : IVec S131072 32 := shapeCast S131072 main_v1 shapeCasts_S131072x1_S131072
  let main_cst_0 : FVec F S_ .f32 := constant S_ .f32 0x00000000#32
  let main_v3 : FVec F S8192 .f32 := broadcastInDim S8192 ![] bcast_S_S8192 main_cst_0
  let main_v4 : IVec S131072x1 32 := broadcastInDim S131072x1 ![0] bcast_S131072_S131072x1_0 main_v2
  let main_v5 : FVec F S8192 .f32 := (fun x i u => Host.scatterAdd scatter_S8192_S131072x1_S131072_n_0_0_1 x i u) main_v3 main_v4 main_v0
  let main_v6 : IVec S131072x1 32 := (extractStridedSlice S131072x1 ![0, 1] · slices_S131072x2_S131072x1_0_1) main_arg1
  let main_v7 : IVec S131072 32 := shapeCast S131072 main_v6 shapeCasts_S131072x1_S131072
  let main_cst_1 : FVec F S_ .f32 := constant S_ .f32 0x00000000#32
  let main_v8 : FVec F S8192 .f32 := broadcastInDim S8192 ![] bcast_S_S8192 main_cst_1
  let main_v9 : IVec S131072x1 32 := broadcastInDim S131072x1 ![0] bcast_S131072_S131072x1_0 main_v7
  let main_v10 : FVec F S8192 .f32 := (fun x i u => Host.scatterAdd scatter_S8192_S131072x1_S131072_n_0_0_1 x i u) main_v8 main_v9 main_v0
  let main_cst_2 : FVec F S_ .f32 := constant S_ .f32 0x00000000#32
  let main_v11 : FVec F S8192x8192 .f32 := broadcastInDim S8192x8192 ![] bcast_S_S8192x8192 main_cst_2
  let main_v12 : FVec F S8192x8192 .f32 := (fun x i u => Host.scatterAdd scatter_S8192x8192_S131072x2_S131072_n_01_01_1 x i u) main_v11 main_arg1 main_v0
  let main_v13 : FVec F S8192x1433 .f32 := Host.absf main_arg0
  let main_cst_3 : FVec F S_ .f32 := constant S_ .f32 0x7F800000#32
  let main_v14 : FVec F S8192x1433 .f32 := broadcastInDim S8192x1433 ![] bcast_S_S8192x1433 main_cst_3
  let main_v15 : IVec S8192x1433 1 := cmpf .olt main_v13 main_v14
  let main_c : IVec S_ 1 := constantI S_ 1 1#1
  let main_v16 : IVec S_ 1 := (fun x v => Host.reduce IntOp.andi x v reducesTo_S8192x1433_S_d0_1 h_S_) main_v15 main_c
  let main_v17 : FVec F S1433x32 .f32 := Host.absf main_arg3
  fn_part1 (F := F) main_arg1 main_arg4 main_arg5 main_arg6 main_v5 main_v10 main_v12 main_v16 main_v17
-- ==== Kernel.lean ====
abbrev S8192x1433 : Shape := ⟨2, ![8192, 1433]⟩
abbrev S131072x2 : Shape := ⟨2, ![131072, 2]⟩
abbrev S8192 : Shape := ⟨1, ![8192]⟩
abbrev S1433x32 : Shape := ⟨2, ![1433, 32]⟩
abbrev S32x7 : Shape := ⟨2, ![32, 7]⟩
abbrev S131072x1 : Shape := ⟨2, ![131072, 1]⟩
abbrev S131072 : Shape := ⟨1, ![131072]⟩
abbrev S_ : Shape := ⟨0, ![]⟩
abbrev S8192x1 : Shape := ⟨2, ![8192, 1]⟩
abbrev S8192x8192 : Shape := ⟨2, ![8192, 8192]⟩
abbrev S1433x64 : Shape := ⟨2, ![1433, 64]⟩
abbrev S8192x64 : Shape := ⟨2, ![8192, 64]⟩
abbrev S1024x1433 : Shape := ⟨2, ![1024, 1433]⟩
abbrev S1024x64 : Shape := ⟨2, ![1024, 64]⟩
abbrev S8192x32 : Shape := ⟨2, ![8192, 32]⟩
abbrev S512x8192 : Shape := ⟨2, ![512, 8192]⟩
abbrev S512x1 : Shape := ⟨2, ![512, 1]⟩
abbrev S512x32 : Shape := ⟨2, ![512, 32]⟩
abbrev S8192x512 : Shape := ⟨2, ![8192, 512]⟩
abbrev S8192x7 : Shape := ⟨2, ![8192, 7]⟩
abbrev S512x7 : Shape := ⟨2, ![512, 7]⟩

abbrev nBuf : Space → Nat
  | .hbm => 69
  | .vmem => 33
  | .smem => 0
  | _ => 0

abbrev bufTy : (tb : Table) → Fin (tcTables nBuf tb) → BufTy
  | .hbm, ⟨0, _⟩ => ⟨S8192x1433, .f32⟩
  | .hbm, ⟨1, _⟩ => ⟨S131072x2, .i32⟩
  | .hbm, ⟨2, _⟩ => ⟨S8192, .i32⟩
  | .hbm, ⟨3, _⟩ => ⟨S1433x32, .f32⟩
  | .hbm, ⟨4, _⟩ => ⟨S32x7, .f32⟩
  | .hbm, ⟨5, _⟩ => ⟨S1433x32, .f32⟩
  | .hbm, ⟨6, _⟩ => ⟨S32x7, .f32⟩
  | .hbm, ⟨7, _⟩ => ⟨S131072x1, .i32⟩
  | .hbm, ⟨8, _⟩ => ⟨S131072, .i32⟩
  | .hbm, ⟨9, _⟩ => ⟨S131072x1, .i32⟩
  | .hbm, ⟨10, _⟩ => ⟨S131072, .i32⟩
  | .hbm, ⟨11, _⟩ => ⟨S_, .f32⟩
  | .hbm, ⟨12, _⟩ => ⟨S131072, .f32⟩
  | .hbm, ⟨13, _⟩ => ⟨S_, .f32⟩
  | .hbm, ⟨14, _⟩ => ⟨S8192, .f32⟩
  | .hbm, ⟨15, _⟩ => ⟨S131072x1, .i32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192, .f32⟩
  | .hbm, ⟨20, _⟩ => ⟨S131072x1, .i32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .bf16⟩
  | .hbm, ⟨30, _⟩ => ⟨S8192x8192, .bf16⟩
  | .hbm, ⟨31, _⟩ => ⟨S_, .i32⟩
  | .hbm, ⟨32, _⟩ => ⟨S131072, .i32⟩
  | .hbm, ⟨33, _⟩ => ⟨S131072, .i1⟩
  | .hbm, ⟨34, _⟩ => ⟨S_, .i32⟩
  | .hbm, ⟨35, _⟩ => ⟨S131072, .i32⟩
  | .hbm, ⟨36, _⟩ => ⟨S131072, .i32⟩
  | .hbm, ⟨37, _⟩ => ⟨S131072, .i32⟩
  | .hbm, ⟨38, _⟩ => ⟨S_, .i32⟩
  | .hbm, ⟨39, _⟩ => ⟨S131072, .i32⟩
  | .hbm, ⟨40, _⟩ => ⟨S131072, .i1⟩
  | .hbm, ⟨41, _⟩ => ⟨S_, .i32⟩
  | .hbm, ⟨42, _⟩ => ⟨S131072, .i32⟩
  | .hbm, ⟨43, _⟩ => ⟨S131072, .i32⟩
  | .hbm, ⟨44, _⟩ => ⟨S131072, .i32⟩
  | .hbm, ⟨45, _⟩ => ⟨S131072x1, .i32⟩
  | .hbm, ⟨46, _⟩ => ⟨S131072x1, .i32⟩
  | .hbm, ⟨47, _⟩ => ⟨S131072x2, .i32⟩
  | .hbm, ⟨48, _⟩ => ⟨S_, .bf16⟩
  | .hbm, ⟨49, _⟩ => ⟨S131072, .bf16⟩
  | .hbm, ⟨50, _⟩ => ⟨S8192x8192, .bf16⟩
  | .hbm, ⟨51, _⟩ => ⟨S1433x64, .f32⟩
  | .hbm, ⟨52, _⟩ => ⟨S8192x64, .bf16⟩
  | .hbm, ⟨53, _⟩ => ⟨S8192x32, .bf16⟩
  | .hbm, ⟨54, _⟩ => ⟨S8192x32, .bf16⟩
  | .hbm, ⟨55, _⟩ => ⟨S8192x32, .bf16⟩
  | .hbm, ⟨56, _⟩ => ⟨S8192x32, .bf16⟩
  | .hbm, ⟨57, _⟩ => ⟨S8192x32, .f32⟩
  | .hbm, ⟨58, _⟩ => ⟨S8192x7, .f32⟩
  | .hbm, ⟨59, _⟩ => ⟨S8192x7, .bf16⟩
  | .hbm, ⟨60, _⟩ => ⟨S8192x32, .f32⟩
  | .hbm, ⟨61, _⟩ => ⟨S8192x7, .f32⟩
  | .hbm, ⟨62, _⟩ => ⟨S8192x7, .bf16⟩
  | .hbm, ⟨63, _⟩ => ⟨S8192x7, .f32⟩
  | .hbm, ⟨64, _⟩ => ⟨S8192x7, .f32⟩
  | .hbm, ⟨65, _⟩ => ⟨S8192x7, .f32⟩
  | .hbm, ⟨66, _⟩ => ⟨S_, .f32⟩
  | .hbm, ⟨67, _⟩ => ⟨S8192x7, .f32⟩
  | .hbm, ⟨68, _⟩ => ⟨S8192x7, .f32⟩
  | .local _ .vmem, ⟨0, _⟩ => ⟨S1024x1433, .f32⟩
  | .local _ .vmem, ⟨1, _⟩ => ⟨S1024x1433, .f32⟩
  | .local _ .vmem, ⟨2, _⟩ => ⟨S1433x64, .f32⟩
  | .local _ .vmem, ⟨3, _⟩ => ⟨S1024x64, .bf16⟩
  | .local _ .vmem, ⟨4, _⟩ => ⟨S1024x64, .bf16⟩
  | .local _ .vmem, ⟨5, _⟩ => ⟨S512x8192, .bf16⟩
  | .local _ .vmem, ⟨6, _⟩ => ⟨S512x8192, .bf16⟩
  | .local _ .vmem, ⟨7, _⟩ => ⟨S8192x32, .bf16⟩
  | .local _ .vmem, ⟨8, _⟩ => ⟨S512x1, .f32⟩
  | .local _ .vmem, ⟨9, _⟩ => ⟨S512x1, .f32⟩
  | .local _ .vmem, ⟨10, _⟩ => ⟨S512x32, .bf16⟩
  | .local _ .vmem, ⟨11, _⟩ => ⟨S512x32, .bf16⟩
  | .local _ .vmem, ⟨12, _⟩ => ⟨S8192x512, .bf16⟩
  | .local _ .vmem, ⟨13, _⟩ => ⟨S8192x512, .bf16⟩
  | .local _ .vmem, ⟨14, _⟩ => ⟨S8192x32, .bf16⟩
  | .local _ .vmem, ⟨15, _⟩ => ⟨S512x1, .f32⟩
  | .local _ .vmem, ⟨16, _⟩ => ⟨S512x1, .f32⟩
  | .local _ .vmem, ⟨17, _⟩ => ⟨S512x32, .bf16⟩
  | .local _ .vmem, ⟨18, _⟩ => ⟨S512x32, .bf16⟩
  | .local _ .vmem, ⟨19, _⟩ => ⟨S512x8192, .bf16⟩
  | .local _ .vmem, ⟨20, _⟩ => ⟨S512x8192, .bf16⟩
  | .local _ .vmem, ⟨21, _⟩ => ⟨S8192x7, .bf16⟩
  | .local _ .vmem, ⟨22, _⟩ => ⟨S512x1, .f32⟩
  | .local _ .vmem, ⟨23, _⟩ => ⟨S512x1, .f32⟩
  | .local _ .vmem, ⟨24, _⟩ => ⟨S512x7, .f32⟩
  | .local _ .vmem, ⟨25, _⟩ => ⟨S512x7, .f32⟩
  | .local _ .vmem, ⟨26, _⟩ => ⟨S8192x512, .bf16⟩
  | .local _ .vmem, ⟨27, _⟩ => ⟨S8192x512, .bf16⟩
  | .local _ .vmem, ⟨28, _⟩ => ⟨S8192x7, .bf16⟩
  | .local _ .vmem, ⟨29, _⟩ => ⟨S512x1, .f32⟩
  | .local _ .vmem, ⟨30, _⟩ => ⟨S512x1, .f32⟩
  | .local _ .vmem, ⟨31, _⟩ => ⟨S512x7, .f32⟩
  | .local _ .vmem, ⟨32, _⟩ => ⟨S512x7, .f32⟩
  | _, _ => ⟨S8192x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc4_sem3_0 : DmaSem sig := 31
abbrev cc4_sem3_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x32 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x32 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x7 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x7 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x7 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x7 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S_S8192 : S_.BroadcastsInDim S8192 (![] : Fin 0 → Fin S8192.rank)
  bcast_S131072_S131072x1_0 : S131072.BroadcastsInDim S131072x1 (![0] : Fin 1 → Fin S131072x1.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S_S8192x8192 : S_.BroadcastsInDim S8192x8192 (![] : Fin 0 → Fin S8192x8192.rank)
  concatenates_S131072x1_S131072x1_S131072x2_d1 : Shape.Concatenates [S131072x1, S131072x1] S131072x2 1
  concatenates_S1433x32_S1433x32_S1433x64_d1 : Shape.Concatenates [S1433x32, S1433x32] S1433x64 1
  inb_S1024x1433_S1024x1433_0_0 : ∀ a, (![0, 0] : Fin 2 → Nat) a + S1024x1433.size a ≤ S1024x1433.size a
  h_S1024x1433 : 0 < S1024x1433.numel
  bitsLt_bf16_f32 : FTy.bits .bf16 < FTy.bits .f32
  inb_S1433x64_S1433x64_0_0 : ∀ a, (![0, 0] : Fin 2 → Nat) a + S1433x64.size a ≤ S1433x64.size a
  h_S1433x64 : 0 < S1433x64.numel
  shapeCasts_S1433x64_S1433x64 : S1433x64.ShapeCasts S1433x64
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  slices_S8192x64_S8192x32_0_0 : S8192x64.Slices ![0, 0] S8192x32
  slices_S8192x64_S8192x32_0_32 : S8192x64.Slices ![0, 32] S8192x32
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x32 : S512x1.Broadcasts S512x32
  inb_S512x32_S512x32_0_0 : ∀ a, (![0, 0] : Fin 2 → Nat) a + S512x32.size a ≤ S512x32.size a
  h_S512x32 : 0 < S512x32.numel
  packedbf16_S512x32_S512x32_0_0 : (Rect.unit (s := S512x32) ![0, 0] S512x32.size inb_S512x32_S512x32_0_0).PackedRows (EltTy.packing .bf16)
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  inb_S8192x7_S8192x7_0_0 : ∀ a, (![0, 0] : Fin 2 → Nat) a + S8192x7.size a ≤ S8192x7.size a
  h_S8192x7 : 0 < S8192x7.numel
  shapeCasts_S8192x7_S8192x7 : S8192x7.ShapeCasts S8192x7
  broadcasts_S512x1_S512x7 : S512x1.Broadcasts S512x7
  inb_S512x7_S512x7_0_0 : ∀ a, (![0, 0] : Fin 2 → Nat) a + S512x7.size a ≤ S512x7.size a
  h_S512x7 : 0 < S512x7.numel
  bcast_S_S8192x7 : S_.BroadcastsInDim S8192x7 (![] : Fin 0 → Fin S8192x7.rank)
  scatter_S8192_S131072x1_S131072_n_0_0_1_wf : ScatterDims.WF S8192 S131072x1 S131072 [] [0] [0] 1
  scatter_S8192x8192_S131072x2_S131072_n_01_01_1_wf : ScatterDims.WF S8192x8192 S131072x2 S131072 [] [0, 1] [0, 1] 1
  dot_S1024x1433_S1433x64_S1024x64_1_0_0_1_n_n_wf : DotDims.WF S1024x1433 S1433x64 S1024x64 [1] [0] [0] [1] [] []
  dot_S512x8192_S8192x32_S512x32_1_0_0_1_n_n_wf : DotDims.WF S512x8192 S8192x32 S512x32 [1] [0] [0] [1] [] []
  dot_S8192x512_S8192x32_S512x32_0_0_1_1_n_n_wf : DotDims.WF S8192x512 S8192x32 S512x32 [0] [0] [1] [1] [] []
  dot_S8192x32_S32x7_S8192x7_1_0_0_1_n_n_wf : DotDims.WF S8192x32 S32x7 S8192x7 [1] [0] [0] [1] [] []
  dot_S512x8192_S8192x7_S512x7_1_0_0_1_n_n_wf : DotDims.WF S512x8192 S8192x7 S512x7 [1] [0] [0] [1] [] []
  dot_S8192x512_S8192x7_S512x7_0_0_1_1_n_n_wf : DotDims.WF S8192x512 S8192x7 S512x7 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1433.size a ≤ S8192x1433.size a
  hwx0_0 : ∀ i : grid0.Coords, EltTy.bits .f32 = 32 ∨ (Rect.block (s := S8192x1433) S1024x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x64.size a ≤ S1433x64.size a
  hwx0_1 : ∀ i : grid0.Coords, EltTy.bits .f32 = 32 ∨ (Rect.block (s := S1433x64) S1433x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .bf16 = 32 ∨ (Rect.block (s := S8192x64) S1024x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .bf16 = 32 ∨ (Rect.block (s := S8192x8192) S512x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x32.size a ≤ S8192x32.size a
  hwx1_1 : ∀ i : grid1.Coords, EltTy.bits .bf16 = 32 ∨ (Rect.block (s := S8192x32) S8192x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x32.size a ≤ S8192x32.size a
  hwx1_3 : ∀ i : grid1.Coords, EltTy.bits .bf16 = 32 ∨ (Rect.block (s := S8192x32) S512x32.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x512.size a ≤ S8192x8192.size a
  hwx2_0 : ∀ i : grid2.Coords, EltTy.bits .bf16 = 32 ∨ (Rect.block (s := S8192x8192) S8192x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x32.size a ≤ S8192x32.size a
  hwx2_1 : ∀ i : grid2.Coords, EltTy.bits .bf16 = 32 ∨ (Rect.block (s := S8192x32) S8192x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x32.size a ≤ S8192x32.size a
  hwx2_3 : ∀ i : grid2.Coords, EltTy.bits .bf16 = 32 ∨ (Rect.block (s := S8192x32) S512x32.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x8192.size a ≤ S8192x8192.size a
  hwx3_0 : ∀ i : grid3.Coords, EltTy.bits .bf16 = 32 ∨ (Rect.block (s := S8192x8192) S512x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x7.size a ≤ S8192x7.size a
  hwx3_1 : ∀ i : grid3.Coords, EltTy.bits .bf16 = 32 ∨ (Rect.block (s := S8192x7) S8192x7.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1.size a ≤ S8192x1.size a
  hwx3_2 : ∀ i : grid3.Coords, EltTy.bits .f32 = 32 ∨ (Rect.block (s := S8192x1) S512x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x7.size a ≤ S8192x7.size a
  hwx3_3 : ∀ i : grid3.Coords, EltTy.bits .f32 = 32 ∨ (Rect.block (s := S8192x7) S512x7.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x512.size a ≤ S8192x8192.size a
  hwx4_0 : ∀ i : grid4.Coords, EltTy.bits .bf16 = 32 ∨ (Rect.block (s := S8192x8192) S8192x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x7.size a ≤ S8192x7.size a
  hwx4_1 : ∀ i : grid4.Coords, EltTy.bits .bf16 = 32 ∨ (Rect.block (s := S8192x7) S8192x7.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1.size a ≤ S8192x1.size a
  hwx4_2 : ∀ i : grid4.Coords, EltTy.bits .f32 = 32 ∨ (Rect.block (s := S8192x1) S512x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x7.size a ≤ S8192x7.size a
  hwx4_3 : ∀ i : grid4.Coords, EltTy.bits .f32 = 32 ∨ (Rect.block (s := S8192x7) S512x7.size (cc4_transform_3 i) (hinb4_3 i)).WholeWords (EltTy.packing .f32)

variable [Facts₀]

def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S1024x1433_S1433x64_S1024x64_1_0_0_1_n_n : DotDims S1024x1433 S1433x64 S1024x64 where
  lhsContracting := [1]
  rhsContracting := [0]
  lhsNonContracting := [0]
  rhsNonContracting := [1]
  lhsBatch := []
  rhsBatch := []
  wf := dot_S1024x1433_S1433x64_S1024x64_1_0_0_1_n_n_wf
def dot_S512x8192_S8192x32_S512x32_1_0_0_1_n_n : DotDims S512x8192 S8192x32 S512x32 where
  lhsContracting := [1]
  rhsContracting := [0]
  lhsNonContracting := [0]
  rhsNonContracting := [1]
  lhsBatch := []
  rhsBatch := []
  wf := dot_S512x8192_S8192x32_S512x32_1_0_0_1_n_n_wf
def dot_S8192x512_S8192x32_S512x32_0_0_1_1_n_n : DotDims S8192x512 S8192x32 S512x32 where
  lhsContracting := [0]
  rhsContracting := [0]
  lhsNonContracting := [1]
  rhsNonContracting := [1]
  lhsBatch := []
  rhsBatch := []
  wf := dot_S8192x512_S8192x32_S512x32_0_0_1_1_n_n_wf
def dot_S8192x32_S32x7_S8192x7_1_0_0_1_n_n : DotDims S8192x32 S32x7 S8192x7 where
  lhsContracting := [1]
  rhsContracting := [0]
  lhsNonContracting := [0]
  rhsNonContracting := [1]
  lhsBatch := []
  rhsBatch := []
  wf := dot_S8192x32_S32x7_S8192x7_1_0_0_1_n_n_wf
def dot_S512x8192_S8192x7_S512x7_1_0_0_1_n_n : DotDims S512x8192 S8192x7 S512x7 where
  lhsContracting := [1]
  rhsContracting := [0]
  lhsNonContracting := [0]
  rhsNonContracting := [1]
  lhsBatch := []
  rhsBatch := []
  wf := dot_S512x8192_S8192x7_S512x7_1_0_0_1_n_n_wf
def dot_S8192x512_S8192x7_S512x7_0_0_1_1_n_n : DotDims S8192x512 S8192x7 S512x7 where
  lhsContracting := [0]
  rhsContracting := [0]
  lhsNonContracting := [1]
  rhsNonContracting := [1]
  lhsBatch := []
  rhsBatch := []
  wf := dot_S8192x512_S8192x7_S512x7_0_0_1_1_n_n_wf

abbrev win0_0 : Pipeline.Window sig grid0 :=
  Pipeline.Window.ofSpec (Memref.whole main_arg0) S1024x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1433x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S8192x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S512x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S8192x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S8192x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S512x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v32) S512x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S8192x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S512x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v45) S512x7.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v32) S8192x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S8192x7.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v14) S512x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v46) S512x7.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S8192x1433 : Shape := ⟨2, ![8192, 1433]⟩
abbrev S131072x2 : Shape := ⟨2, ![131072, 2]⟩
abbrev S8192 : Shape := ⟨1, ![8192]⟩
abbrev S1433x32 : Shape := ⟨2, ![1433, 32]⟩
abbrev S32x7 : Shape := ⟨2, ![32, 7]⟩
abbrev S131072x1 : Shape := ⟨2, ![131072, 1]⟩
abbrev S131072 : Shape := ⟨1, ![131072]⟩
abbrev S_ : Shape := ⟨0, ![]⟩
abbrev S8192x1 : Shape := ⟨2, ![8192, 1]⟩
abbrev S131072x1433 : Shape := ⟨2, ![131072, 1433]⟩
abbrev S8192x32 : Shape := ⟨2, ![8192, 32]⟩
abbrev S131072x32 : Shape := ⟨2, ![131072, 32]⟩
abbrev S8192x7 : Shape := ⟨2, ![8192, 7]⟩

abbrev nBuf : Space → Nat
  | .hbm => 97
  | .vmem => 0
  | .smem => 0
  | _ => 0

abbrev bufTy : (tb : Table) → Fin (tcTables nBuf tb) → BufTy
  | .hbm, ⟨0, _⟩ => ⟨S8192x1433, .f32⟩
  | .hbm, ⟨1, _⟩ => ⟨S131072x2, .i32⟩
  | .hbm, ⟨2, _⟩ => ⟨S8192, .i32⟩
  | .hbm, ⟨3, _⟩ => ⟨S1433x32, .f32⟩
  | .hbm, ⟨4, _⟩ => ⟨S32x7, .f32⟩
  | .hbm, ⟨5, _⟩ => ⟨S1433x32, .f32⟩
  | .hbm, ⟨6, _⟩ => ⟨S32x7, .f32⟩
  | .hbm, ⟨7, _⟩ => ⟨S131072x1, .i32⟩
  | .hbm, ⟨8, _⟩ => ⟨S131072, .i32⟩
  | .hbm, ⟨9, _⟩ => ⟨S131072x1, .i32⟩
  | .hbm, ⟨10, _⟩ => ⟨S131072, .i32⟩
  | .hbm, ⟨11, _⟩ => ⟨S_, .f32⟩
  | .hbm, ⟨12, _⟩ => ⟨S131072, .f32⟩
  | .hbm, ⟨13, _⟩ => ⟨S_, .f32⟩
  | .hbm, ⟨14, _⟩ => ⟨S8192, .f32⟩
  | .hbm, ⟨15, _⟩ => ⟨S131072x1, .i32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192, .f32⟩
  | .hbm, ⟨20, _⟩ => ⟨S131072x1, .i32⟩
  | .hbm, ⟨21, _⟩ => ⟨S8192, .f32⟩
  | .hbm, ⟨22, _⟩ => ⟨S8192x1, .f32⟩
  | .hbm, ⟨23, _⟩ => ⟨S_, .i32⟩
  | .hbm, ⟨24, _⟩ => ⟨S131072, .i32⟩
  | .hbm, ⟨25, _⟩ => ⟨S131072, .i1⟩
  | .hbm, ⟨26, _⟩ => ⟨S_, .i32⟩
  | .hbm, ⟨27, _⟩ => ⟨S131072, .i32⟩
  | .hbm, ⟨28, _⟩ => ⟨S131072, .i32⟩
  | .hbm, ⟨29, _⟩ => ⟨S131072, .i32⟩
  | .hbm, ⟨30, _⟩ => ⟨S131072x1, .i32⟩
  | .hbm, ⟨31, _⟩ => ⟨S131072x1433, .f32⟩
  | .hbm, ⟨32, _⟩ => ⟨S_, .f32⟩
  | .hbm, ⟨33, _⟩ => ⟨S8192x1433, .f32⟩
  | .hbm, ⟨34, _⟩ => ⟨S131072x1, .i32⟩
  | .hbm, ⟨35, _⟩ => ⟨S8192x1433, .f32⟩
  | .hbm, ⟨36, _⟩ => ⟨S8192x1433, .f32⟩
  | .hbm, ⟨37, _⟩ => ⟨S8192x1433, .f32⟩
  | .hbm, ⟨38, _⟩ => ⟨S8192x32, .f32⟩
  | .hbm, ⟨39, _⟩ => ⟨S_, .f32⟩
  | .hbm, ⟨40, _⟩ => ⟨S8192x32, .f32⟩
  | .hbm, ⟨41, _⟩ => ⟨S8192x32, .f32⟩
  | .hbm, ⟨42, _⟩ => ⟨S_, .i32⟩
  | .hbm, ⟨43, _⟩ => ⟨S131072, .i32⟩
  | .hbm, ⟨44, _⟩ => ⟨S131072, .i1⟩
  | .hbm, ⟨45, _⟩ => ⟨S_, .i32⟩
  | .hbm, ⟨46, _⟩ => ⟨S131072, .i32⟩
  | .hbm, ⟨47, _⟩ => ⟨S131072, .i32⟩
  | .hbm, ⟨48, _⟩ => ⟨S131072, .i32⟩
  | .hbm, ⟨49, _⟩ => ⟨S131072x1, .i32⟩
  | .hbm, ⟨50, _⟩ => ⟨S131072x32, .f32⟩
  | .hbm, ⟨51, _⟩ => ⟨S_, .f32⟩
  | .hbm, ⟨52, _⟩ => ⟨S8192x32, .f32⟩
  | .hbm, ⟨53, _⟩ => ⟨S131072x1, .i32⟩
  | .hbm, ⟨54, _⟩ => ⟨S8192x32, .f32⟩
  | .hbm, ⟨55, _⟩ => ⟨S8192x32, .f32⟩
  | .hbm, ⟨56, _⟩ => ⟨S8192x32, .f32⟩
  | .hbm, ⟨57, _⟩ => ⟨S8192x7, .f32⟩
  | .hbm, ⟨58, _⟩ => ⟨S_, .i32⟩
  | .hbm, ⟨59, _⟩ => ⟨S131072, .i32⟩
  | .hbm, ⟨60, _⟩ => ⟨S131072, .i1⟩
  | .hbm, ⟨61, _⟩ => ⟨S_, .i32⟩
  | .hbm, ⟨62, _⟩ => ⟨S131072, .i32⟩
  | .hbm, ⟨63, _⟩ => ⟨S131072, .i32⟩
  | .hbm, ⟨64, _⟩ => ⟨S131072, .i32⟩
  | .hbm, ⟨65, _⟩ => ⟨S131072x1, .i32⟩
  | .hbm, ⟨66, _⟩ => ⟨S131072x1433, .f32⟩
  | .hbm, ⟨67, _⟩ => ⟨S_, .f32⟩
  | .hbm, ⟨68, _⟩ => ⟨S8192x1433, .f32⟩
  | .hbm, ⟨69, _⟩ => ⟨S131072x1, .i32⟩
  | .hbm, ⟨70, _⟩ => ⟨S8192x1433, .f32⟩
  | .hbm, ⟨71, _⟩ => ⟨S8192x1433, .f32⟩
  | .hbm, ⟨72, _⟩ => ⟨S8192x1433, .f32⟩
  | .hbm, ⟨73, _⟩ => ⟨S8192x32, .f32⟩
  | .hbm, ⟨74, _⟩ => ⟨S_, .f32⟩
  | .hbm, ⟨75, _⟩ => ⟨S8192x32, .f32⟩
  | .hbm, ⟨76, _⟩ => ⟨S8192x32, .f32⟩
  | .hbm, ⟨77, _⟩ => ⟨S_, .i32⟩
  | .hbm, ⟨78, _⟩ => ⟨S131072, .i32⟩
  | .hbm, ⟨79, _⟩ => ⟨S131072, .i1⟩
  | .hbm, ⟨80, _⟩ => ⟨S_, .i32⟩
  | .hbm, ⟨81, _⟩ => ⟨S131072, .i32⟩
  | .hbm, ⟨82, _⟩ => ⟨S131072, .i32⟩
  | .hbm, ⟨83, _⟩ => ⟨S131072, .i32⟩
  | .hbm, ⟨84, _⟩ => ⟨S131072x1, .i32⟩
  | .hbm, ⟨85, _⟩ => ⟨S131072x32, .f32⟩
  | .hbm, ⟨86, _⟩ => ⟨S_, .f32⟩
  | .hbm, ⟨87, _⟩ => ⟨S8192x32, .f32⟩
  | .hbm, ⟨88, _⟩ => ⟨S131072x1, .i32⟩
  | .hbm, ⟨89, _⟩ => ⟨S8192x32, .f32⟩
  | .hbm, ⟨90, _⟩ => ⟨S8192x32, .f32⟩
  | .hbm, ⟨91, _⟩ => ⟨S8192x32, .f32⟩
  | .hbm, ⟨92, _⟩ => ⟨S8192x7, .f32⟩
  | .hbm, ⟨93, _⟩ => ⟨S8192x7, .f32⟩
  | .hbm, ⟨94, _⟩ => ⟨S_, .f32⟩
  | .hbm, ⟨95, _⟩ => ⟨S8192x7, .f32⟩
  | .hbm, ⟨96, _⟩ => ⟨S8192x7, .f32⟩
  | _, _ => ⟨S8192x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call1_cst : Ref sig .tc := ⟨.hbm, 74, rfl⟩
abbrev main_call1_v0 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S_S8192 : S_.BroadcastsInDim S8192 (![] : Fin 0 → Fin S8192.rank)
  bcast_S131072_S131072x1_0 : S131072.BroadcastsInDim S131072x1 (![0] : Fin 1 → Fin S131072x1.rank)
  bcast_S8192_S8192x1_0 : S8192.BroadcastsInDim S8192x1 (![0] : Fin 1 → Fin S8192x1.rank)
  bcast_S_S8192x1433 : S_.BroadcastsInDim S8192x1433 (![] : Fin 0 → Fin S8192x1433.rank)
  bcast_S8192x1_S8192x1433_0_1 : S8192x1.BroadcastsInDim S8192x1433 (![0, 1] : Fin 2 → Fin S8192x1433.rank)
  bcast_S_S8192x32 : S_.BroadcastsInDim S8192x32 (![] : Fin 0 → Fin S8192x32.rank)
  bcast_S8192x1_S8192x32_0_1 : S8192x1.BroadcastsInDim S8192x32 (![0, 1] : Fin 2 → Fin S8192x32.rank)
  bcast_S_S8192x7 : S_.BroadcastsInDim S8192x7 (![] : Fin 0 → Fin S8192x7.rank)
  scatter_S8192_S131072x1_S131072_n_0_0_1_wf : ScatterDims.WF S8192 S131072x1 S131072 [] [0] [0] 1
  gather_S8192x1433_S131072x1_S131072x1433_1_0_n_n_0_1_11433_wf : GatherDims.WF S8192x1433 S131072x1 S131072x1433 [1] [0] [] [0] [] 1 ![1, 1433]
  scatter_S8192x1433_S131072x1_S131072x1433_1_0_0_1_wf : ScatterDims.WF S8192x1433 S131072x1 S131072x1433 [1] [0] [0] 1
  dot_S8192x1433_S1433x32_S8192x32_1_0_0_1_n_n_wf : DotDims.WF S8192x1433 S1433x32 S8192x32 [1] [0] [0] [1] [] []
  gather_S8192x32_S131072x1_S131072x32_1_0_n_n_0_1_132_wf : GatherDims.WF S8192x32 S131072x1 S131072x32 [1] [0] [] [0] [] 1 ![1, 32]
  scatter_S8192x32_S131072x1_S131072x32_1_0_0_1_wf : ScatterDims.WF S8192x32 S131072x1 S131072x32 [1] [0] [0] 1
  dot_S8192x32_S32x7_S8192x7_1_0_0_1_n_n_wf : DotDims.WF S8192x32 S32x7 S8192x7 [1] [0] [0] [1] [] []

variable [Facts₀]

def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def gather_S8192x1433_S131072x1_S131072x1433_1_0_n_n_0_1_11433 : GatherDims S8192x1433 S131072x1 S131072x1433 where
  offsetDims := [1]
  collapsedSliceDims := [0]
  operandBatchingDims := []
  startIndicesBatchingDims := []
  startIndexMap := [0]
  indexVectorDim := 1
  sliceSizes := ![1, 1433]
  wf := gather_S8192x1433_S131072x1_S131072x1433_1_0_n_n_0_1_11433_wf
def scatter_S8192x1433_S131072x1_S131072x1433_1_0_0_1 : ScatterDims S8192x1433 S131072x1 S131072x1433 where
  updateWindowDims := [1]
  insertedWindowDims := [0]
  scatterDimsToOperandDims := [0]
  indexVectorDim := 1
  wf := scatter_S8192x1433_S131072x1_S131072x1433_1_0_0_1_wf
def dot_S8192x1433_S1433x32_S8192x32_1_0_0_1_n_n : DotDims S8192x1433 S1433x32 S8192x32 where
  lhsContracting := [1]
  rhsContracting := [0]
  lhsNonContracting := [0]
  rhsNonContracting := [1]
  lhsBatch := []
  rhsBatch := []
  wf := dot_S8192x1433_S1433x32_S8192x32_1_0_0_1_n_n_wf
def gather_S8192x32_S131072x1_S131072x32_1_0_n_n_0_1_132 : GatherDims S8192x32 S131072x1 S131072x32 where
  offsetDims := [1]
  collapsedSliceDims := [0]
  operandBatchingDims := []
  startIndicesBatchingDims := []
  startIndexMap := [0]
  indexVectorDim := 1
  sliceSizes := ![1, 32]
  wf := gather_S8192x32_S131072x1_S131072x32_1_0_n_n_0_1_132_wf
def scatter_S8192x32_S131072x1_S131072x32_1_0_0_1 : ScatterDims S8192x32 S131072x1 S131072x32 where
  updateWindowDims := [1]
  insertedWindowDims := [0]
  scatterDimsToOperandDims := [0]
  indexVectorDim := 1
  wf := scatter_S8192x32_S131072x1_S131072x32_1_0_0_1_wf
def dot_S8192x32_S32x7_S8192x7_1_0_0_1_n_n : DotDims S8192x32 S32x7 S8192x7 where
  lhsContracting := [1]
  rhsContracting := [0]
  lhsNonContracting := [0]
  rhsNonContracting := [1]
  lhsBatch := []
  rhsBatch := []
  wf := dot_S8192x32_S32x7_S8192x7_1_0_0_1_n_n_wf

class Facts : Prop extends Facts₀ where

variable [Facts]
-- ==== Proof.Spec.lean ====
/-
  The two programs as formulas over the extended reals.

  A graph on 8192 nodes is given by an edge list of 131072 pairs (s e, d e).  Write A for its adjacency
  matrix (A i j = how many list entries name the pair (i, j)), D1 i for the out-degree and D2 i for the
  in-degree.  Message passing along the edges is `prop s d V i = ∑ over the entries e with s e = i of V (d e)`,
  which is the matrix product A · V; passing against the edges is `prop d s`, the product Aᵀ · V.

  The reference normalises each propagated row by a degree and only then applies the dense weights;
  the kernel applies the weights first, multiplies by the dense matrix A and scales by the reciprocal
  degree.  Both are stated here index by index; that they agree is Proof/Algebra.lean.
-/
import Idealize.ShloMosaic.PureOps.Ideal
import Idealize.ShloMosaic.Lib.ValueIdx

noncomputable section

namespace Cert.Spec

open Idealize.ShloMosaic

/-- A matrix of extended reals. -/
abbrev Mat (n k : Nat) := Fin n → Fin k → EReal

/-- The product A · B. -/
def mm {n k p : Nat} (A : Mat n k) (B : Mat k p) : Mat n p := fun i c => ∑ l, A i l * B l c

/-- The product Aᵀ · B. -/
def mmT {n k p : Nat} (A : Mat k n) (B : Mat k p) : Mat n p := fun i c => ∑ l, A l i * B l c

/-- A shaped array read as a matrix. -/
abbrev toMat {n k : Nat} (V : (⟨2, ![n, k]⟩ : Shape).Idx → EReal) : Mat n k := fun i j => V (ValueIdx.ix2 i j)

/-- Message passing along an edge list: row i collects V (d e) over the entries e with s e = i. -/
def prop {E N p : Nat} (s d : Fin E → Fin N) (V : Mat N p) : Mat N p :=
  fun i k => ∑ e ∈ Finset.univ.filter (fun e => s e = i), V (d e) k

/-- The kernel: weights first, then the dense adjacency product, scaled by reciprocal degrees r1, r2. -/
def kernelOut (X : Mat 8192 1433) (A : Mat 8192 8192) (r1 r2 : Fin 8192 → EReal)
    (Wh1 : Mat 1433 32) (Wo1 : Mat 32 7) (Wh2 : Mat 1433 32) (Wo2 : Mat 32 7) (half : EReal) : Mat 8192 7 :=
  let Z1 : Mat 8192 32 := fun i h => max (mm A (mm X Wh1) i h * r1 i) 0
  let Z2 : Mat 8192 32 := fun i h => max (mmT A (mm X Wh2) i h * r2 i) 0
  fun i c => (mm A (mm Z1 Wo1) i c * r1 i + mmT A (mm Z2 Wo2) i c * r1 i) * half

/-- The reference: propagate, divide by the degree, then apply the weights; twice per branch. -/
def refOut (X : Mat 8192 1433) (s d : Fin 131072 → Fin 8192) (D1 D2 : Fin 8192 → EReal)
    (Wh1 : Mat 1433 32) (Wo1 : Mat 32 7) (Wh2 : Mat 1433 32) (Wo2 : Mat 32 7) (two : EReal) : Mat 8192 7 :=
  let H1 : Mat 8192 32 := fun i h => max (mm (fun i k => Ideal.div (prop s d X i k) (D1 i)) Wh1 i h) 0
  let x1 : Mat 8192 7 := mm (fun i h => Ideal.div (prop s d H1 i h) (D1 i)) Wo1
  let H2 : Mat 8192 32 := fun i h => max (mm (fun i k => Ideal.div (prop d s X i k) (D2 i)) Wh2 i h) 0
  let x2 : Mat 8192 7 := mm (fun i h => Ideal.div (prop d s H2 i h) (D1 i)) Wo2
  fun i c => Ideal.div (x1 i c + x2 i c) two

/-! ## One kernel call, array by array -/

/-- The projection call: x · w over the 1433 features. -/
def projArr (x : (⟨2, ![8192, 1433]⟩ : Shape).Idx → EReal) (w : (⟨2, ![1433, 64]⟩ : Shape).Idx → EReal) :
    (⟨2, ![8192, 64]⟩ : Shape).Idx → EReal :=
  fun i => ∑ l : Fin 1433, x (ValueIdx.ix2 (i 0) l) * w (ValueIdx.ix2 l (i 1))

/-- The adjacency call: (a · y) scaled row by row by r, clipped below at 0 when `relu`. -/
def spmmArr {p : Nat} (relu : Bool) (a : (⟨2, ![8192, 8192]⟩ : Shape).Idx → EReal) (y : (⟨2, ![8192, p]⟩ : Shape).Idx → EReal)
    (r : (⟨2, ![8192, 1]⟩ : Shape).Idx → EReal) : (⟨2, ![8192, p]⟩ : Shape).Idx → EReal :=
  fun i => if relu then max ((∑ l : Fin 8192, a (ValueIdx.ix2 (i 0) l) * y (ValueIdx.ix2 l (i 1))) * r (ValueIdx.ix2 (i 0) 0)) 0
    else (∑ l : Fin 8192, a (ValueIdx.ix2 (i 0) l) * y (ValueIdx.ix2 l (i 1))) * r (ValueIdx.ix2 (i 0) 0)

/-- The transposed adjacency call: (aᵀ · y) scaled row by row by r, clipped below at 0 when `relu`. -/
def spmmTArr {p : Nat} (relu : Bool) (a : (⟨2, ![8192, 8192]⟩ : Shape).Idx → EReal) (y : (⟨2, ![8192, p]⟩ : Shape).Idx → EReal)
    (r : (⟨2, ![8192, 1]⟩ : Shape).Idx → EReal) : (⟨2, ![8192, p]⟩ : Shape).Idx → EReal :=
  fun i => if relu then max ((∑ l : Fin 8192, a (ValueIdx.ix2 l (i 0)) * y (ValueIdx.ix2 l (i 1))) * r (ValueIdx.ix2 (i 0) 0)) 0
    else (∑ l : Fin 8192, a (ValueIdx.ix2 l (i 0)) * y (ValueIdx.ix2 l (i 1))) * r (ValueIdx.ix2 (i 0) 0)

/-! ## The edge list's two columns as node numbers -/

/-- Column `col` of entry `e` of the edge list, as a node (taken mod 8192 so that it is total; under the
    range condition `InRange` it is the word itself). -/
def node (edges : (⟨2, ![131072, 2]⟩ : Shape).Idx → BitVec 32) (col : Fin 2) (e : Fin 131072) : Fin 8192 :=
  ⟨(edges (ValueIdx.ix2 e col)).toNat % 8192, Nat.mod_lt _ (by decide)⟩

/-- Every word of the edge list, read signed, is a node number. -/
def InRange (edges : (⟨2, ![131072, 2]⟩ : Shape).Idx → BitVec 32) : Prop :=
  ∀ (e : Fin 131072) (col : Fin 2), (edges (ValueIdx.ix2 e col)).toInt = ((node edges col e).val : Int)

end Cert.Spec

end
-- ==== Proof.KRegion0.lean ====
/-
  What the projection call leaves in its output array: every block of 1024 rows is x · w restricted to those rows, and the eight blocks tile the array.
-/
import proofs.«401971_j55422257988077_1_alg».proof.Proof.KernelIdealFrame
import proofs.«401971_j55422257988077_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.SL.Sem Idealize.ShloMosaic.Pipeline
open Cert.KernelIdeal Cert.KernelIdeal.Gen Cert.Spec

variable (V : (c : Dev nD) → (b : Ref sig .tc) → Buf (Elt Ideal) ((c : Thread nD τ).loc b))

/-! ## The product inside one block -/

/-- The left operand of the block's product is read at the output's row … -/
theorem projDot_lhs_0 (i : S1024x64.Idx) (q : dot_S1024x1433_S1433x64_S1024x64_1_0_0_1_n_n.contr.Idx) :
    (dot_S1024x1433_S1433x64_S1024x64_1_0_0_1_n_n.lhsIdx i q 0).val = (i 0).val := by
  unfold DotDims.lhsIdx
  rw [dif_neg (show ¬(0 : Fin S1024x1433.rank) ∈ dot_S1024x1433_S1433x64_S1024x64_1_0_0_1_n_n.lhsBatch by decide), dif_pos (show (0 : Fin S1024x1433.rank) ∈ dot_S1024x1433_S1433x64_S1024x64_1_0_0_1_n_n.lhsNonContracting by decide)]
  rfl
/-- … and at the summation index as its column; -/
theorem projDot_lhs_1 (i : S1024x64.Idx) (q : dot_S1024x1433_S1433x64_S1024x64_1_0_0_1_n_n.contr.Idx) :
    (dot_S1024x1433_S1433x64_S1024x64_1_0_0_1_n_n.lhsIdx i q 1).val = (q ⟨0, by decide⟩).val :=
  dot_S1024x1433_S1433x64_S1024x64_1_0_0_1_n_n.lhsIdx_val_of_single rfl i q
/-- the right operand at the summation index as its row … -/
theorem projDot_rhs_0 (i : S1024x64.Idx) (q : dot_S1024x1433_S1433x64_S1024x64_1_0_0_1_n_n.contr.Idx) :
    (dot_S1024x1433_S1433x64_S1024x64_1_0_0_1_n_n.rhsIdx i q 0).val = (q ⟨0, by decide⟩).val :=
  dot_S1024x1433_S1433x64_S1024x64_1_0_0_1_n_n.rhsIdx_val_of_single rfl i q
/-- … and at the output's column. -/
theorem projDot_rhs_1 (i : S1024x64.Idx) (q : dot_S1024x1433_S1433x64_S1024x64_1_0_0_1_n_n.contr.Idx) :
    (dot_S1024x1433_S1433x64_S1024x64_1_0_0_1_n_n.rhsIdx i q 1).val = (i 1).val := by
  unfold DotDims.rhsIdx
  rw [dif_neg (show ¬(1 : Fin S1433x64.rank) ∈ dot_S1024x1433_S1433x64_S1024x64_1_0_0_1_n_n.rhsBatch by decide), dif_pos (show (1 : Fin S1433x64.rank) ∈ dot_S1024x1433_S1433x64_S1024x64_1_0_0_1_n_n.rhsNonContracting by decide)]
  rfl

/-- One block of the call: entry (r, k) of what the body stores is the sum over the 1433 features l of
    x-block (r, l) times weight (l, k); the changes of float format are the identity on extended reals. -/
theorem projBlock_apply (x0 : Vec Ideal S1024x1433 .f32) (x1 : Vec Ideal S1433x64 .f32) (j : S1024x64.Idx) :
    k0_pay1 (F := Ideal) x0 x1 j = ∑ l : Fin 1433, x0 (ValueIdx.ix2 (j 0) l) * x1 (ValueIdx.ix2 l (j 1)) := by
  unfold k0_pay1
  rw [shapeCast_self]
  show FloatOps.matmul dot_S1024x1433_S1433x64_S1024x64_1_0_0_1_n_n none (truncf (F := Ideal) .bf16 x0 bitsLt_bf16_f32) (truncf (F := Ideal) .bf16 x1 bitsLt_bf16_f32) (constant (F := Ideal) S1024x64 .f32 0x00000000#32) j = _
  rw [Ideal.matmul_constant_zero_apply, ← Equiv.sum_comp (ValueIdx.contrEquiv1 dot_S1024x1433_S1433x64_S1024x64_1_0_0_1_n_n 1433 rfl rfl).symm]
  refine Finset.sum_congr rfl fun k _ => ?_
  have hk := ValueIdx.contrEquiv1_symm_val dot_S1024x1433_S1433x64_S1024x64_1_0_0_1_n_n 1433 rfl rfl k
  have el : dot_S1024x1433_S1433x64_S1024x64_1_0_0_1_n_n.lhsIdx j ((ValueIdx.contrEquiv1 dot_S1024x1433_S1433x64_S1024x64_1_0_0_1_n_n 1433 rfl rfl).symm k) = ValueIdx.ix2 (j 0) k := funext fun a => Fin.ext (by
    match a with
    | ⟨0, _⟩ => exact projDot_lhs_0 _ _
    | ⟨1, _⟩ => exact (projDot_lhs_1 _ _).trans hk)
  have er : dot_S1024x1433_S1433x64_S1024x64_1_0_0_1_n_n.rhsIdx j ((ValueIdx.contrEquiv1 dot_S1024x1433_S1433x64_S1024x64_1_0_0_1_n_n 1433 rfl rfl).symm k) = ValueIdx.ix2 k (j 1) := funext fun a => Fin.ext (by
    match a with
    | ⟨0, _⟩ => exact (projDot_rhs_0 _ _).trans hk
    | ⟨1, _⟩ => exact projDot_rhs_1 _ _)
  rw [el, er]
  rfl

/-- The same block entry against the whole arrays: if row r of the x-block is row R of x and the weight block is the
    whole weight, the stored entry is entry (R, k) of x · w. -/
theorem projBlock_eq_projArr (X : (⟨2, ![8192, 1433]⟩ : Shape).Idx → EReal) (W : (⟨2, ![1433, 64]⟩ : Shape).Idx → EReal)
    (x0 : Vec Ideal S1024x1433 .f32) (x1 : Vec Ideal S1433x64 .f32) (j : S1024x64.Idx) (i : (⟨2, ![8192, 64]⟩ : Shape).Idx)
    (h0 : ∀ l : Fin 1433, x0 (ValueIdx.ix2 (j 0) l) = X (ValueIdx.ix2 (i 0) l))
    (h1 : ∀ l : Fin 1433, x1 (ValueIdx.ix2 l (j 1)) = W (ValueIdx.ix2 l (i 1))) :
    k0_pay1 (F := Ideal) x0 x1 j = projArr X W i := by
  rw [projBlock_apply]
  unfold projArr
  exact Finset.sum_congr rfl fun l _ => by rw [h0 l, h1 l]

/-! ## From blocks to the array -/

theorem zeroOffsets : (![0, 0] : Fin 2 → Nat) = fun _ => 0 := funext fun a => by fin_cases a <;> rfl

/-- The printed index maps over the eight grid points: the x block and the output block sit at block row t, every
    other block index is 0. -/
theorem projIdx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 7
    ∧ win0_2.index t (1 : Fin 2) = 0 :=
  (by decide +kernel : ∀ t : Fin grid0.N, _)

/-- Every block row of the output is some grid point's. -/
theorem projIdx_onto : ∀ (q0 : Fin 8) (q1 : Fin 1), ∃ t : Fin cfg0.N, win0_2.index t = ![q0.val, q1.val] :=
  (by decide +kernel : ∀ (q0 : Fin 8) (q1 : Fin 1), ∃ t : Fin grid0.N, win0_2.index t = ![q0.val, q1.val])

/-- What grid point t writes back is block t of x · w, x and w as the call finds them. -/
theorem projFlushed_eq (c : Dev nD) (t : Fin cfg0.N) :
    (dat0 (F := Ideal) V c).flushed 2 t = ((cfg0.win 2).blk t).view.read (Elt Ideal)
      (projArr (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zeroOffsets]
  simp only [View.ld_unit_zero (S := S1024x1433) zeroOffsets, View.ld_unit_zero (S := S1433x64) zeroOffsets]
  obtain ⟨e0, e1, e2, e3, e4, e5⟩ := projIdx_facts t
  funext j
  show k0_pay1 (F := Ideal) (iblk0 V c 0 t) (iblk0 V c 1 t) ((cfg0.win 2).xinj (grid0.coords t) j)
    = projArr (V c (Pipeline.arrRef spec0 0)) (V c (Pipeline.arrRef spec0 1)) (((cfg0.win 2).blk t).view.emb j)
  refine projBlock_eq_projArr _ _ _ _ _ _ (fun l => ?_) (fun l => ?_)
  · show V c (Pipeline.arrRef spec0 0) (((cfg0.win 0).blk t).view.emb (ValueIdx.ix2 ((cfg0.win 2).xinj (grid0.coords t) j 0) l)) = _
    refine congrArg (V c (Pipeline.arrRef spec0 0)) ?_
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1433 + 1 * l.val = l.val; omega
  · show V c (Pipeline.arrRef spec0 1) (((cfg0.win 1).blk t).view.emb (ValueIdx.ix2 l ((cfg0.win 2).xinj (grid0.coords t) j 1))) = _
    refine congrArg (V c (Pipeline.arrRef spec0 1)) ?_
    funext a; apply Fin.ext
    match a with
    | ⟨0, _⟩ => show win0_1.index t (0 : Fin 2) * 1433 + 1 * l.val = l.val; omega
    | ⟨1, _⟩ => show win0_1.index t (1 : Fin 2) * 64 + 1 * (j 1).val = win0_2.index t (1 : Fin 2) * 64 + 1 * (j 1).val; omega

/-- An index of the output array is in grid point t's block iff each coordinate is in the block's range on its axis. -/
theorem projMem_blk (t : Fin cfg0.N) (i : S8192x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v34).slice (win0_2.rect t)).set ↔ _
  rw [View.set_slice_whole, Rect.mem_set_unit]
  exact Iff.rfl

/-- The eight blocks tile the output array: row R lies in the block of the grid point whose block row is R / 1024. -/
theorem projCover (i : S8192x64.Idx) :
    ∃ t : Fin cfg0.N, (cfg0.win 2).flush t = true ∧ i ∈ ((cfg0.win 2).blk t).view.set := by
  have hi0 : (i 0).val < 8192 := (i 0).isLt
  have hi1 : (i 1).val < 64 := (i 1).isLt
  obtain ⟨t, ht⟩ := projIdx_onto ⟨(i 0).val / 1024, by omega⟩ ⟨(i 1).val / 64, by omega⟩
  have q0 : win0_2.index t (0 : Fin 2) = (i 0).val / 1024 := congrFun ht 0
  have q1 : win0_2.index t (1 : Fin 2) = (i 1).val / 64 := congrFun ht 1
  refine ⟨t, flush0_2 t, ?_⟩
  rw [projMem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 64 ≤ (i 1).val ∧ (i 1).val < win0_2.index t (1 : Fin 2) * 64 + 64; omega

/-- The projection call: its output array after the run. -/
theorem region0_out (c : Dev nD) :
    (dat0 (F := Ideal) V c).arrAt 2 cfg0.N
      = projArr (V c (Pipeline.arrRef spec0 0)) (V c (Pipeline.arrRef spec0 1)) :=
  (dat0 (F := Ideal) V c).arrAt_eq_of_cover 2 _ (fun t _ => projFlushed_eq V c t) projCover

end Cert.KernelIdeal.KVal

end
-- ==== Proof.KRegion13.lean ====
/-
  What the two adjacency calls (the first with the clip at 0, the second without) leave in their output arrays: every block of 512 rows is the same function of the whole arrays, and the sixteen blocks tile the array.
-/
import proofs.«401971_j55422257988077_1_alg».proof.Proof.KernelIdealFrame
import proofs.«401971_j55422257988077_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.SL.Sem Idealize.ShloMosaic.Pipeline
open Cert.KernelIdeal Cert.KernelIdeal.Gen Cert.Spec

variable (V : (c : Dev nD) → (b : Ref sig .tc) → Buf (Elt Ideal) ((c : Thread nD τ).loc b))

namespace R13

/-- Both coordinates of a block's own origin are 0. -/
theorem zero_offsets : (![0, 0] : Fin 2 → Nat) = fun _ => 0 := funext fun a => by fin_cases a <;> rfl

/-! ## The first call: 32 columns, clipped at 0 -/

/-- In the block product of call 1 the left operand's row is the output's row, -/
theorem call1_lhs_row (i : S512x32.Idx) (q : dot_S512x8192_S8192x32_S512x32_1_0_0_1_n_n.contr.Idx) :
    (dot_S512x8192_S8192x32_S512x32_1_0_0_1_n_n.lhsIdx i q 0).val = (i 0).val := by
  unfold DotDims.lhsIdx
  rw [dif_neg (show ¬(0 : Fin S512x8192.rank) ∈ dot_S512x8192_S8192x32_S512x32_1_0_0_1_n_n.lhsBatch by decide), dif_pos (show (0 : Fin S512x8192.rank) ∈ dot_S512x8192_S8192x32_S512x32_1_0_0_1_n_n.lhsNonContracting by decide)]
  rfl
/-- its column is the summation index, -/
theorem call1_lhs_contr (i : S512x32.Idx) (q : dot_S512x8192_S8192x32_S512x32_1_0_0_1_n_n.contr.Idx) :
    (dot_S512x8192_S8192x32_S512x32_1_0_0_1_n_n.lhsIdx i q 1).val = (q ⟨0, by decide⟩).val :=
  dot_S512x8192_S8192x32_S512x32_1_0_0_1_n_n.lhsIdx_val_of_single rfl i q
/-- the right operand's row is the summation index, -/
theorem call1_rhs_contr (i : S512x32.Idx) (q : dot_S512x8192_S8192x32_S512x32_1_0_0_1_n_n.contr.Idx) :
    (dot_S512x8192_S8192x32_S512x32_1_0_0_1_n_n.rhsIdx i q 0).val = (q ⟨0, by decide⟩).val :=
  dot_S512x8192_S8192x32_S512x32_1_0_0_1_n_n.rhsIdx_val_of_single rfl i q
/-- and its column is the output's column. -/
theorem call1_rhs_col (i : S512x32.Idx) (q : dot_S512x8192_S8192x32_S512x32_1_0_0_1_n_n.contr.Idx) :
    (dot_S512x8192_S8192x32_S512x32_1_0_0_1_n_n.rhsIdx i q 1).val = (i 1).val := by
  unfold DotDims.rhsIdx
  rw [dif_neg (show ¬(1 : Fin S8192x32.rank) ∈ dot_S512x8192_S8192x32_S512x32_1_0_0_1_n_n.rhsBatch by decide), dif_pos (show (1 : Fin S8192x32.rank) ∈ dot_S512x8192_S8192x32_S512x32_1_0_0_1_n_n.rhsNonContracting by decide)]
  rfl

/-- The block product at an entry: row `p` of the left block against column `q` of the right operand, summed over the
    8192 shared indices. -/
theorem call1_matmul_apply (lhs : FVec Ideal S512x8192 .bf16) (rhs : FVec Ideal S8192x32 .bf16) (p : Fin 512) (q : Fin 32) :
    FloatOps.matmul dot_S512x8192_S8192x32_S512x32_1_0_0_1_n_n none lhs rhs (constant (F := Ideal) S512x32 .f32 0x00000000#32) (ValueIdx.ix2 p q)
      = ∑ l : Fin 8192, lhs (ValueIdx.ix2 p l) * rhs (ValueIdx.ix2 l q) := by
  rw [Ideal.matmul_constant_zero_apply, ← Equiv.sum_comp (ValueIdx.contrEquiv1 dot_S512x8192_S8192x32_S512x32_1_0_0_1_n_n 8192 rfl rfl).symm]
  refine Finset.sum_congr rfl fun k _ => ?_
  have hk := ValueIdx.contrEquiv1_symm_val dot_S512x8192_S8192x32_S512x32_1_0_0_1_n_n 8192 rfl rfl k
  have el : dot_S512x8192_S8192x32_S512x32_1_0_0_1_n_n.lhsIdx (ValueIdx.ix2 p q) ((ValueIdx.contrEquiv1 dot_S512x8192_S8192x32_S512x32_1_0_0_1_n_n 8192 rfl rfl).symm k) = ValueIdx.ix2 p k := funext fun a => Fin.ext (by
    match a with
    | ⟨0, _⟩ => exact call1_lhs_row _ _
    | ⟨1, _⟩ => exact (call1_lhs_contr _ _).trans hk)
  have er : dot_S512x8192_S8192x32_S512x32_1_0_0_1_n_n.rhsIdx (ValueIdx.ix2 p q) ((ValueIdx.contrEquiv1 dot_S512x8192_S8192x32_S512x32_1_0_0_1_n_n 8192 rfl rfl).symm k) = ValueIdx.ix2 k q := funext fun a => Fin.ext (by
    match a with
    | ⟨0, _⟩ => exact (call1_rhs_contr _ _).trans hk
    | ⟨1, _⟩ => exact call1_rhs_col _ _)
  rw [el, er]

/-- A column of 512 entries spread over 32 columns reads, at row `p` and any column, the column's entry of row `p`. -/
theorem call1_column_apply {α : Type} (x : S512x1.Idx → α) (p : Fin 512) (q : Fin 32) :
    broadcastTo S512x32 x broadcasts_S512x1_S512x32 (ValueIdx.ix2 p q) = x (ValueIdx.ix2 p 0) := by
  refine broadcastTo_apply x _ _ _ fun a => ?_
  match a with
  | ⟨0, _⟩ => rfl
  | ⟨1, _⟩ => rfl

/-- The body's arithmetic at an entry of the output block: the row of the adjacency block against the column of the
    dense operand, times the row's reciprocal degree, clipped below at 0. -/
theorem call1_payload_apply (x0 : FVec Ideal S512x8192 .bf16) (x1 : FVec Ideal S8192x32 .bf16) (x2 : FVec Ideal S512x1 .f32) (p : Fin 512) (q : Fin 32) :
    k1_pay1 (F := Ideal) x0 x1 x2 (ValueIdx.ix2 p q)
      = max ((∑ l : Fin 8192, x0 (ValueIdx.ix2 p l) * x1 (ValueIdx.ix2 l q)) * x2 (ValueIdx.ix2 p 0)) 0 := by
  unfold k1_pay1
  simp only [shapeCast_self]
  show max (FloatOps.matmul dot_S512x8192_S8192x32_S512x32_1_0_0_1_n_n none x0 x1 (constant (F := Ideal) S512x32 .f32 0x00000000#32) (ValueIdx.ix2 p q)
      * broadcastTo S512x32 x2 broadcasts_S512x1_S512x32 (ValueIdx.ix2 p q)) (Ideal.ofBits .f32 0x00000000#32) = _
  rw [call1_matmul_apply, call1_column_apply, Ideal.ofBits_zero_f32]

/-- The body's value at an entry, once each block is known to hold the matching rows of its array: it is the entry of
    the scaled and clipped product of the whole arrays at the array index `I` the entry lands on. -/
theorem call1_block_value (a : S8192x8192.Idx → EReal) (y : S8192x32.Idx → EReal) (r : S8192x1.Idx → EReal)
    (x0 : FVec Ideal S512x8192 .bf16) (x1 : FVec Ideal S8192x32 .bf16) (x2 : FVec Ideal S512x1 .f32)
    (p : Fin 512) (q : Fin 32) (I : S8192x32.Idx)
    (h0 : ∀ l : Fin 8192, x0 (ValueIdx.ix2 p l) = a (ValueIdx.ix2 (I 0) l))
    (h1 : ∀ l : Fin 8192, x1 (ValueIdx.ix2 l q) = y (ValueIdx.ix2 l (I 1)))
    (h2 : x2 (ValueIdx.ix2 p 0) = r (ValueIdx.ix2 (I 0) 0)) :
    k1_pay1 (F := Ideal) x0 x1 x2 (ValueIdx.ix2 p q) = spmmArr true a y r I := by
  rw [call1_payload_apply, h2]
  show _ = max ((∑ l : Fin 8192, a (ValueIdx.ix2 (I 0) l) * y (ValueIdx.ix2 l (I 1))) * r (ValueIdx.ix2 (I 0) 0)) 0
  congr 2
  exact Finset.sum_congr rfl fun l _ => by rw [h0 l, h1 l]

/-- The printed index maps over the sixteen points: the adjacency block, the reciprocal-degree block and the output
    block sit at block row `t`, block column 0; the dense operand is always its one whole block. -/
theorem call1_index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Every block row of the output is some point's. -/
theorem call1_index_onto : ∀ b : Fin 16, ∃ t : Fin cfg1.N, win1_3.index t (0 : Fin 2) = b.val ∧ win1_3.index t (1 : Fin 2) = 0 :=
  (by decide +kernel : ∀ b : Fin 16, ∃ t : Fin grid1.N, win1_3.index t (0 : Fin 2) = b.val ∧ win1_3.index t (1 : Fin 2) = 0)

/-- What point `t` writes back is block `t` of the scaled and clipped product of the whole arrays: the adjacency block and
    the reciprocal-degree block are rows 512·t … 512·t + 511 of their arrays, the dense operand is whole, and the output
    block lands on the same rows. -/
theorem call1_flushed (c : Dev nD) (t : Fin cfg1.N) :
    (dat1 (F := Ideal) V c).flushed 3 t = ((cfg1.win 3).blk t).view.read (Elt Ideal)
      (spmmArr true (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zero_offsets]
  simp only [View.ld_unit_zero (S := S512x8192) zero_offsets, View.ld_unit_zero (S := S8192x32) zero_offsets, View.ld_unit_zero (S := S512x1) zero_offsets]
  obtain ⟨e00, e01, e10, e11, e20, e21, e30, e31⟩ := call1_index_facts t
  funext j
  obtain ⟨p, q, rfl⟩ : ∃ (p : Fin 512) (q : Fin 32), j = ValueIdx.ix2 p q := ⟨j 0, j 1, ValueIdx.eq_ix2 j⟩
  show k1_pay1 (F := Ideal) (iblk1 V c 0 t) (iblk1 V c 1 t) (iblk1 V c 2 t) (ValueIdx.ix2 p q)
    = spmmArr true (V c (Pipeline.arrRef spec1 0)) (V c (Pipeline.arrRef spec1 1)) (V c (Pipeline.arrRef spec1 2))
        (((cfg1.win 3).blk t).view.emb (ValueIdx.ix2 p q))
  refine call1_block_value (V c (Pipeline.arrRef spec1 0)) (V c (Pipeline.arrRef spec1 1)) (V c (Pipeline.arrRef spec1 2))
    (iblk1 V c 0 t) (iblk1 V c 1 t) (iblk1 V c 2 t) p q (((cfg1.win 3).blk t).view.emb (ValueIdx.ix2 p q)) (fun l => ?_) (fun l => ?_) ?_
  · show V c (Pipeline.arrRef spec1 0) (((cfg1.win 0).blk t).view.emb (ValueIdx.ix2 p l)) = _
    refine congrArg (V c (Pipeline.arrRef spec1 0)) (funext fun a => Fin.ext ?_)
    match a with
    | ⟨0, _⟩ => show win1_0.index t (0 : Fin 2) * 512 + 1 * p.val = win1_3.index t (0 : Fin 2) * 512 + 1 * p.val; omega
    | ⟨1, _⟩ => show win1_0.index t (1 : Fin 2) * 8192 + 1 * l.val = l.val; omega
  · show V c (Pipeline.arrRef spec1 1) (((cfg1.win 1).blk t).view.emb (ValueIdx.ix2 l q)) = _
    refine congrArg (V c (Pipeline.arrRef spec1 1)) (funext fun a => Fin.ext ?_)
    match a with
    | ⟨0, _⟩ => show win1_1.index t (0 : Fin 2) * 8192 + 1 * l.val = l.val; omega
    | ⟨1, _⟩ => show win1_1.index t (1 : Fin 2) * 32 + 1 * q.val = win1_3.index t (1 : Fin 2) * 32 + 1 * q.val; omega
  · show V c (Pipeline.arrRef spec1 2) (((cfg1.win 2).blk t).view.emb (ValueIdx.ix2 p 0)) = _
    refine congrArg (V c (Pipeline.arrRef spec1 2)) (funext fun a => Fin.ext ?_)
    match a with
    | ⟨0, _⟩ => show win1_2.index t (0 : Fin 2) * 512 + 1 * p.val = win1_3.index t (0 : Fin 2) * 512 + 1 * p.val; omega
    | ⟨1, _⟩ => show win1_2.index t (1 : Fin 2) * 1 + 1 * 0 = 0; omega

/-- An index of the output array is in point `t`'s block iff each coordinate is in the block's range on its axis. -/
theorem call1_mem_block (t : Fin cfg1.N) (i : S8192x32.Idx) :
    i ∈ ((cfg1.win 3).blk t).view.set ↔ ∀ a : Fin 2, win1_3.index t a * S512x32.size a ≤ (i a).val ∧ (i a).val < win1_3.index t a * S512x32.size a + S512x32.size a := by
  show i ∈ ((View.whole main_v37).slice (win1_3.rect t)).set ↔ _
  rw [View.set_slice_whole, Rect.mem_set_unit]
  exact Iff.rfl

/-- The sixteen blocks of 512 rows tile the 8192 rows: row `r` is in block `r / 512`. -/
theorem call1_cover (i : S8192x32.Idx) : ∃ t : Fin cfg1.N, (cfg1.win 3).flush t = true ∧ i ∈ ((cfg1.win 3).blk t).view.set := by
  have hi0 : (i 0).val < 8192 := (i 0).isLt
  have hi1 : (i 1).val < 32 := (i 1).isLt
  obtain ⟨t, ht0, ht1⟩ := call1_index_onto ⟨(i 0).val / 512, by omega⟩
  have q0 : win1_3.index t (0 : Fin 2) = (i 0).val / 512 := ht0
  refine ⟨t, flush1_3 t, ?_⟩
  rw [call1_mem_block]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 32 ≤ (i 1).val ∧ (i 1).val < win1_3.index t (1 : Fin 2) * 32 + 32; omega

/-! ## The third call: 7 columns, not clipped -/

/-- In the block product of call 3 the left operand's row is the output's row, -/
theorem call3_lhs_row (i : S512x7.Idx) (q : dot_S512x8192_S8192x7_S512x7_1_0_0_1_n_n.contr.Idx) :
    (dot_S512x8192_S8192x7_S512x7_1_0_0_1_n_n.lhsIdx i q 0).val = (i 0).val := by
  unfold DotDims.lhsIdx
  rw [dif_neg (show ¬(0 : Fin S512x8192.rank) ∈ dot_S512x8192_S8192x7_S512x7_1_0_0_1_n_n.lhsBatch by decide), dif_pos (show (0 : Fin S512x8192.rank) ∈ dot_S512x8192_S8192x7_S512x7_1_0_0_1_n_n.lhsNonContracting by decide)]
  rfl
/-- its column is the summation index, -/
theorem call3_lhs_contr (i : S512x7.Idx) (q : dot_S512x8192_S8192x7_S512x7_1_0_0_1_n_n.contr.Idx) :
    (dot_S512x8192_S8192x7_S512x7_1_0_0_1_n_n.lhsIdx i q 1).val = (q ⟨0, by decide⟩).val :=
  dot_S512x8192_S8192x7_S512x7_1_0_0_1_n_n.lhsIdx_val_of_single rfl i q
/-- the right operand's row is the summation index, -/
theorem call3_rhs_contr (i : S512x7.Idx) (q : dot_S512x8192_S8192x7_S512x7_1_0_0_1_n_n.contr.Idx) :
    (dot_S512x8192_S8192x7_S512x7_1_0_0_1_n_n.rhsIdx i q 0).val = (q ⟨0, by decide⟩).val :=
  dot_S512x8192_S8192x7_S512x7_1_0_0_1_n_n.rhsIdx_val_of_single rfl i q
/-- and its column is the output's column. -/
theorem call3_rhs_col (i : S512x7.Idx) (q : dot_S512x8192_S8192x7_S512x7_1_0_0_1_n_n.contr.Idx) :
    (dot_S512x8192_S8192x7_S512x7_1_0_0_1_n_n.rhsIdx i q 1).val = (i 1).val := by
  unfold DotDims.rhsIdx
  rw [dif_neg (show ¬(1 : Fin S8192x7.rank) ∈ dot_S512x8192_S8192x7_S512x7_1_0_0_1_n_n.rhsBatch by decide), dif_pos (show (1 : Fin S8192x7.rank) ∈ dot_S512x8192_S8192x7_S512x7_1_0_0_1_n_n.rhsNonContracting by decide)]
  rfl

/-- The block product at an entry: row `p` of the left block against column `q` of the right operand, summed over the
    8192 shared indices. -/
theorem call3_matmul_apply (lhs : FVec Ideal S512x8192 .bf16) (rhs : FVec Ideal S8192x7 .bf16) (p : Fin 512) (q : Fin 7) :
    FloatOps.matmul dot_S512x8192_S8192x7_S512x7_1_0_0_1_n_n none lhs rhs (constant (F := Ideal) S512x7 .f32 0x00000000#32) (ValueIdx.ix2 p q)
      = ∑ l : Fin 8192, lhs (ValueIdx.ix2 p l) * rhs (ValueIdx.ix2 l q) := by
  rw [Ideal.matmul_constant_zero_apply, ← Equiv.sum_comp (ValueIdx.contrEquiv1 dot_S512x8192_S8192x7_S512x7_1_0_0_1_n_n 8192 rfl rfl).symm]
  refine Finset.sum_congr rfl fun k _ => ?_
  have hk := ValueIdx.contrEquiv1_symm_val dot_S512x8192_S8192x7_S512x7_1_0_0_1_n_n 8192 rfl rfl k
  have el : dot_S512x8192_S8192x7_S512x7_1_0_0_1_n_n.lhsIdx (ValueIdx.ix2 p q) ((ValueIdx.contrEquiv1 dot_S512x8192_S8192x7_S512x7_1_0_0_1_n_n 8192 rfl rfl).symm k) = ValueIdx.ix2 p k := funext fun a => Fin.ext (by
    match a with
    | ⟨0, _⟩ => exact call3_lhs_row _ _
    | ⟨1, _⟩ => exact (call3_lhs_contr _ _).trans hk)
  have er : dot_S512x8192_S8192x7_S512x7_1_0_0_1_n_n.rhsIdx (ValueIdx.ix2 p q) ((ValueIdx.contrEquiv1 dot_S512x8192_S8192x7_S512x7_1_0_0_1_n_n 8192 rfl rfl).symm k) = ValueIdx.ix2 k q := funext fun a => Fin.ext (by
    match a with
    | ⟨0, _⟩ => exact (call3_rhs_contr _ _).trans hk
    | ⟨1, _⟩ => exact call3_rhs_col _ _)
  rw [el, er]

/-- A column of 512 entries spread over 7 columns reads, at row `p` and any column, the column's entry of row `p`. -/
theorem call3_column_apply {α : Type} (x : S512x1.Idx → α) (p : Fin 512) (q : Fin 7) :
    broadcastTo S512x7 x broadcasts_S512x1_S512x7 (ValueIdx.ix2 p q) = x (ValueIdx.ix2 p 0) := by
  refine broadcastTo_apply x _ _ _ fun a => ?_
  match a with
  | ⟨0, _⟩ => rfl
  | ⟨1, _⟩ => rfl

/-- The body's arithmetic at an entry of the output block: the row of the adjacency block against the column of the
    dense operand, times the row's reciprocal degree. -/
theorem call3_payload_apply (x0 : FVec Ideal S512x8192 .bf16) (x1 : FVec Ideal S8192x7 .bf16) (x2 : FVec Ideal S512x1 .f32) (p : Fin 512) (q : Fin 7) :
    k3_pay1 (F := Ideal) x0 x1 x2 (ValueIdx.ix2 p q)
      = (∑ l : Fin 8192, x0 (ValueIdx.ix2 p l) * x1 (ValueIdx.ix2 l q)) * x2 (ValueIdx.ix2 p 0) := by
  unfold k3_pay1
  simp only [shapeCast_self]
  show FloatOps.matmul dot_S512x8192_S8192x7_S512x7_1_0_0_1_n_n none x0 x1 (constant (F := Ideal) S512x7 .f32 0x00000000#32) (ValueIdx.ix2 p q)
      * broadcastTo S512x7 x2 broadcasts_S512x1_S512x7 (ValueIdx.ix2 p q) = _
  rw [call3_matmul_apply, call3_column_apply]

/-- The body's value at an entry, once each block is known to hold the matching rows of its array: it is the entry of
    the scaled product of the whole arrays at the array index `I` the entry lands on. -/
theorem call3_block_value (a : S8192x8192.Idx → EReal) (y : S8192x7.Idx → EReal) (r : S8192x1.Idx → EReal)
    (x0 : FVec Ideal S512x8192 .bf16) (x1 : FVec Ideal S8192x7 .bf16) (x2 : FVec Ideal S512x1 .f32)
    (p : Fin 512) (q : Fin 7) (I : S8192x7.Idx)
    (h0 : ∀ l : Fin 8192, x0 (ValueIdx.ix2 p l) = a (ValueIdx.ix2 (I 0) l))
    (h1 : ∀ l : Fin 8192, x1 (ValueIdx.ix2 l q) = y (ValueIdx.ix2 l (I 1)))
    (h2 : x2 (ValueIdx.ix2 p 0) = r (ValueIdx.ix2 (I 0) 0)) :
    k3_pay1 (F := Ideal) x0 x1 x2 (ValueIdx.ix2 p q) = spmmArr false a y r I := by
  rw [call3_payload_apply, h2]
  show _ = (∑ l : Fin 8192, a (ValueIdx.ix2 (I 0) l) * y (ValueIdx.ix2 l (I 1))) * r (ValueIdx.ix2 (I 0) 0)
  congr 1
  exact Finset.sum_congr rfl fun l _ => by rw [h0 l, h1 l]

/-- The printed index maps over the sixteen points: the adjacency block, the reciprocal-degree block and the output
    block sit at block row `t`, block column 0; the dense operand is always its one whole block. -/
theorem call3_index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Every block row of the output is some point's. -/
theorem call3_index_onto : ∀ b : Fin 16, ∃ t : Fin cfg3.N, win3_3.index t (0 : Fin 2) = b.val ∧ win3_3.index t (1 : Fin 2) = 0 :=
  (by decide +kernel : ∀ b : Fin 16, ∃ t : Fin grid3.N, win3_3.index t (0 : Fin 2) = b.val ∧ win3_3.index t (1 : Fin 2) = 0)

/-- What point `t` writes back is block `t` of the scaled product of the whole arrays: the adjacency block and
    the reciprocal-degree block are rows 512·t … 512·t + 511 of their arrays, the dense operand is whole, and the output
    block lands on the same rows. -/
theorem call3_flushed (c : Dev nD) (t : Fin cfg3.N) :
    (dat3 (F := Ideal) V c).flushed 3 t = ((cfg3.win 3).blk t).view.read (Elt Ideal)
      (spmmArr false (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zero_offsets]
  simp only [View.ld_unit_zero (S := S512x8192) zero_offsets, View.ld_unit_zero (S := S8192x7) zero_offsets, View.ld_unit_zero (S := S512x1) zero_offsets]
  obtain ⟨e00, e01, e10, e11, e20, e21, e30, e31⟩ := call3_index_facts t
  funext j
  obtain ⟨p, q, rfl⟩ : ∃ (p : Fin 512) (q : Fin 7), j = ValueIdx.ix2 p q := ⟨j 0, j 1, ValueIdx.eq_ix2 j⟩
  show k3_pay1 (F := Ideal) (iblk3 V c 0 t) (iblk3 V c 1 t) (iblk3 V c 2 t) (ValueIdx.ix2 p q)
    = spmmArr false (V c (Pipeline.arrRef spec3 0)) (V c (Pipeline.arrRef spec3 1)) (V c (Pipeline.arrRef spec3 2))
        (((cfg3.win 3).blk t).view.emb (ValueIdx.ix2 p q))
  refine call3_block_value (V c (Pipeline.arrRef spec3 0)) (V c (Pipeline.arrRef spec3 1)) (V c (Pipeline.arrRef spec3 2))
    (iblk3 V c 0 t) (iblk3 V c 1 t) (iblk3 V c 2 t) p q (((cfg3.win 3).blk t).view.emb (ValueIdx.ix2 p q)) (fun l => ?_) (fun l => ?_) ?_
  · show V c (Pipeline.arrRef spec3 0) (((cfg3.win 0).blk t).view.emb (ValueIdx.ix2 p l)) = _
    refine congrArg (V c (Pipeline.arrRef spec3 0)) (funext fun a => Fin.ext ?_)
    match a with
    | ⟨0, _⟩ => show win3_0.index t (0 : Fin 2) * 512 + 1 * p.val = win3_3.index t (0 : Fin 2) * 512 + 1 * p.val; omega
    | ⟨1, _⟩ => show win3_0.index t (1 : Fin 2) * 8192 + 1 * l.val = l.val; omega
  · show V c (Pipeline.arrRef spec3 1) (((cfg3.win 1).blk t).view.emb (ValueIdx.ix2 l q)) = _
    refine congrArg (V c (Pipeline.arrRef spec3 1)) (funext fun a => Fin.ext ?_)
    match a with
    | ⟨0, _⟩ => show win3_1.index t (0 : Fin 2) * 8192 + 1 * l.val = l.val; omega
    | ⟨1, _⟩ => show win3_1.index t (1 : Fin 2) * 7 + 1 * q.val = win3_3.index t (1 : Fin 2) * 7 + 1 * q.val; omega
  · show V c (Pipeline.arrRef spec3 2) (((cfg3.win 2).blk t).view.emb (ValueIdx.ix2 p 0)) = _
    refine congrArg (V c (Pipeline.arrRef spec3 2)) (funext fun a => Fin.ext ?_)
    match a with
    | ⟨0, _⟩ => show win3_2.index t (0 : Fin 2) * 512 + 1 * p.val = win3_3.index t (0 : Fin 2) * 512 + 1 * p.val; omega
    | ⟨1, _⟩ => show win3_2.index t (1 : Fin 2) * 1 + 1 * 0 = 0; omega

/-- An index of the output array is in point `t`'s block iff each coordinate is in the block's range on its axis. -/
theorem call3_mem_block (t : Fin cfg3.N) (i : S8192x7.Idx) :
    i ∈ ((cfg3.win 3).blk t).view.set ↔ ∀ a : Fin 2, win3_3.index t a * S512x7.size a ≤ (i a).val ∧ (i a).val < win3_3.index t a * S512x7.size a + S512x7.size a := by
  show i ∈ ((View.whole main_v45).slice (win3_3.rect t)).set ↔ _
  rw [View.set_slice_whole, Rect.mem_set_unit]
  exact Iff.rfl

/-- The sixteen blocks of 512 rows tile the 8192 rows: row `r` is in block `r / 512`. -/
theorem call3_cover (i : S8192x7.Idx) : ∃ t : Fin cfg3.N, (cfg3.win 3).flush t = true ∧ i ∈ ((cfg3.win 3).blk t).view.set := by
  have hi0 : (i 0).val < 8192 := (i 0).isLt
  have hi1 : (i 1).val < 7 := (i 1).isLt
  obtain ⟨t, ht0, ht1⟩ := call3_index_onto ⟨(i 0).val / 512, by omega⟩
  have q0 : win3_3.index t (0 : Fin 2) = (i 0).val / 512 := ht0
  refine ⟨t, flush3_3 t, ?_⟩
  rw [call3_mem_block]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 7 ≤ (i 1).val ∧ (i 1).val < win3_3.index t (1 : Fin 2) * 7 + 7; omega

end R13

/-- The first adjacency call (32 columns, clipped at 0): its output array after the run. -/
theorem region1_out (c : Dev nD) :
    (dat1 (F := Ideal) V c).arrAt 3 cfg1.N
      = spmmArr true (V c (Pipeline.arrRef spec1 0)) (V c (Pipeline.arrRef spec1 1)) (V c (Pipeline.arrRef spec1 2)) :=
  (dat1 (F := Ideal) V c).arrAt_eq_of_cover 3 _ (fun t _ => R13.call1_flushed V c t) R13.call1_cover

/-- The third call (7 columns, not clipped): its output array after the run. -/
theorem region3_out (c : Dev nD) :
    (dat3 (F := Ideal) V c).arrAt 3 cfg3.N
      = spmmArr false (V c (Pipeline.arrRef spec3 0)) (V c (Pipeline.arrRef spec3 1)) (V c (Pipeline.arrRef spec3 2)) :=
  (dat3 (F := Ideal) V c).arrAt_eq_of_cover 3 _ (fun t _ => R13.call3_flushed V c t) R13.call3_cover

end Cert.KernelIdeal.KVal

end
-- ==== Proof.KRegion24.lean ====
/-
  What the two transposed adjacency calls leave in their output arrays: the adjacency matrix is read by column tiles of 512 and contracted over its rows.
-/
import proofs.«401971_j55422257988077_1_alg».proof.Proof.KernelIdealFrame
import proofs.«401971_j55422257988077_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.SL.Sem Idealize.ShloMosaic.Pipeline
open Cert.KernelIdeal Cert.KernelIdeal.Gen Cert.Spec

variable (V : (c : Dev nD) → (b : Ref sig .tc) → Buf (Elt Ideal) ((c : Thread nD τ).loc b))

/-! The steps toward the two results below, in a namespace of their own. Each call runs over 16 points; point t
    reads the 8192×512 column tile t of the adjacency matrix, the whole operand and rows 512·t … 512·t + 511 of the
    reciprocal degrees, and writes rows 512·t … 512·t + 511 of the output. -/
namespace Transposed

open Idealize.ShloMosaic.ValueIdx

/-! ## The second call: column tiles of the adjacency matrix against the whole 8192×32 operand -/

theorem offsets_zero : (![0, 0] : Fin 2 → Nat) = fun _ => 0 := funext fun a => by fin_cases a <;> rfl

theorem tdot32_lhs_0 (i : S512x32.Idx) (q : dot_S8192x512_S8192x32_S512x32_0_0_1_1_n_n.contr.Idx) :
    (dot_S8192x512_S8192x32_S512x32_0_0_1_1_n_n.lhsIdx i q 0).val = (q ⟨0, by decide⟩).val :=
  dot_S8192x512_S8192x32_S512x32_0_0_1_1_n_n.lhsIdx_val_of_single rfl i q
theorem tdot32_lhs_1 (i : S512x32.Idx) (q : dot_S8192x512_S8192x32_S512x32_0_0_1_1_n_n.contr.Idx) :
    (dot_S8192x512_S8192x32_S512x32_0_0_1_1_n_n.lhsIdx i q 1).val = (i 0).val := by
  unfold DotDims.lhsIdx
  rw [dif_neg (show ¬(1 : Fin S8192x512.rank) ∈ dot_S8192x512_S8192x32_S512x32_0_0_1_1_n_n.lhsBatch by decide), dif_pos (show (1 : Fin S8192x512.rank) ∈ dot_S8192x512_S8192x32_S512x32_0_0_1_1_n_n.lhsNonContracting by decide)]
  rfl
theorem tdot32_rhs_0 (i : S512x32.Idx) (q : dot_S8192x512_S8192x32_S512x32_0_0_1_1_n_n.contr.Idx) :
    (dot_S8192x512_S8192x32_S512x32_0_0_1_1_n_n.rhsIdx i q 0).val = (q ⟨0, by decide⟩).val :=
  dot_S8192x512_S8192x32_S512x32_0_0_1_1_n_n.rhsIdx_val_of_single rfl i q
theorem tdot32_rhs_1 (i : S512x32.Idx) (q : dot_S8192x512_S8192x32_S512x32_0_0_1_1_n_n.contr.Idx) :
    (dot_S8192x512_S8192x32_S512x32_0_0_1_1_n_n.rhsIdx i q 1).val = (i 1).val := by
  unfold DotDims.rhsIdx
  rw [dif_neg (show ¬(1 : Fin S8192x32.rank) ∈ dot_S8192x512_S8192x32_S512x32_0_0_1_1_n_n.rhsBatch by decide), dif_pos (show (1 : Fin S8192x32.rank) ∈ dot_S8192x512_S8192x32_S512x32_0_0_1_1_n_n.rhsNonContracting by decide)]
  rfl

/-- The product contracting the ROWS of both operands, into a zero accumulator: entry (q, c) sums, over the
    8192 rows l, the tile at (l, q) times the operand at (l, c). -/
theorem tdot32_apply (a : FVec Ideal S8192x512 .bf16) (y : FVec Ideal S8192x32 .bf16) (q : Fin 512) (c : Fin 32) :
    FloatOps.matmul dot_S8192x512_S8192x32_S512x32_0_0_1_1_n_n none a y (constant (F := Ideal) S512x32 .f32 0x00000000#32) (ix2 q c)
      = ∑ l : Fin 8192, a (ix2 l q) * y (ix2 l c) := by
  rw [Ideal.matmul_constant_zero_apply, ← Equiv.sum_comp (ValueIdx.contrEquiv1 dot_S8192x512_S8192x32_S512x32_0_0_1_1_n_n 8192 rfl rfl).symm]
  refine Finset.sum_congr rfl fun k _ => ?_
  have hk := ValueIdx.contrEquiv1_symm_val dot_S8192x512_S8192x32_S512x32_0_0_1_1_n_n 8192 rfl rfl k
  have el : dot_S8192x512_S8192x32_S512x32_0_0_1_1_n_n.lhsIdx (ix2 q c) ((ValueIdx.contrEquiv1 dot_S8192x512_S8192x32_S512x32_0_0_1_1_n_n 8192 rfl rfl).symm k) = ix2 k q := funext fun ax => Fin.ext (by
    match ax with
    | ⟨0, _⟩ => exact (tdot32_lhs_0 _ _).trans hk
    | ⟨1, _⟩ => exact tdot32_lhs_1 _ _)
  have er : dot_S8192x512_S8192x32_S512x32_0_0_1_1_n_n.rhsIdx (ix2 q c) ((ValueIdx.contrEquiv1 dot_S8192x512_S8192x32_S512x32_0_0_1_1_n_n 8192 rfl rfl).symm k) = ix2 k c := funext fun ax => Fin.ext (by
    match ax with
    | ⟨0, _⟩ => exact (tdot32_rhs_0 _ _).trans hk
    | ⟨1, _⟩ => exact tdot32_rhs_1 _ _)
  rw [el, er]

/-- A 512×1 column broadcast to 512×32 reads, at (q, c), the column's entry q. -/
theorem bcol32_apply (v : FVec Ideal S512x1 .f32) (q : Fin 512) (c : Fin 32) :
    broadcastTo S512x32 v broadcasts_S512x1_S512x32 (ix2 q c) = v (ix2 q (0 : Fin 1)) := by
  refine broadcastTo_apply v broadcasts_S512x1_S512x32 (ix2 q c) (ix2 q (0 : Fin 1)) fun ax => ?_
  match ax with
  | ⟨0, _⟩ =>
    show q.val = if (512 : Nat) = 1 then 0 else q.val
    rw [if_neg (by decide)]
  | ⟨1, _⟩ =>
    show (0 : Nat) = if (1 : Nat) = 1 then 0 else c.val
    rw [if_pos rfl]

/-- The body's arithmetic at entry (q, c) of its output block: the contraction over the tile's rows, scaled by the
    reciprocal degree of row q, clipped below at 0. -/
theorem pay2_apply (x0 : Vec Ideal S8192x512 .bf16) (x1 : Vec Ideal S8192x32 .bf16) (x2 : Vec Ideal S512x1 .f32) (q : Fin 512) (c : Fin 32) :
    k2_pay1 (F := Ideal) x0 x1 x2 (ix2 q c) = max ((∑ l : Fin 8192, x0 (ix2 l q) * x1 (ix2 l c)) * x2 (ix2 q (0 : Fin 1))) 0 := by
  unfold k2_pay1
  simp only [truncf_apply, maximumf_apply, mulf_apply, broadcast_apply, shapeCast_self]
  show max (FloatOps.matmul dot_S8192x512_S8192x32_S512x32_0_0_1_1_n_n none x0 x1 (constant (F := Ideal) S512x32 .f32 0x00000000#32) (ix2 q c)
      * broadcastTo S512x32 x2 broadcasts_S512x1_S512x32 (ix2 q c)) (Ideal.ofBits .f32 0x00000000#32) = _
  rw [tdot32_apply, bcol32_apply, Ideal.ofBits_zero_f32]

/-- The target formula with clipping, at the index (p, k). -/
theorem spmmT_clip_apply {n : Nat} (a : (⟨2, ![8192, 8192]⟩ : Shape).Idx → EReal) (y : (⟨2, ![8192, n]⟩ : Shape).Idx → EReal)
    (r : (⟨2, ![8192, 1]⟩ : Shape).Idx → EReal) (p : Fin 8192) (k : Fin n) :
    spmmTArr true a y r (ix2 p k) = max ((∑ l : Fin 8192, a (ix2 l p) * y (ix2 l k)) * r (ix2 p (0 : Fin 1))) 0 := rfl

/-- The printed index maps over the 16 points: the adjacency tile moves along the COLUMNS with the point, the operand
    stays whole, the reciprocal degrees and the output move along the rows with the point. -/
theorem idx_facts2 : ∀ t : Fin cfg2.N,
    win2_0.index t (0 : Fin 2) = 0 ∧ win2_0.index t (1 : Fin 2) = t.val
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ t.val < 16 :=
  (by decide +kernel : ∀ t : Fin grid2.N, _)

/-- The adjacency tile at point t is columns 512·t … 512·t + 511 of the matrix, all rows. -/
theorem tile2_apply (c : Dev nD) (t : Fin cfg2.N) (l : Fin 8192) (q : Fin 512) (k : Fin 8192) (hk : k.val = 512 * t.val + q.val) :
    (iblk2 V c 0 t : Vec Ideal S8192x512 .bf16) (ix2 l q) = (V c (Pipeline.arrRef spec2 0) : S8192x8192.Idx → EReal) (ix2 l k) := by
  obtain ⟨e0, e1, -⟩ := idx_facts2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 8192 + 1 * l.val = l.val; rw [e0]; omega
  | ⟨1, _⟩ => show win2_0.index t (1 : Fin 2) * 512 + 1 * q.val = k.val; rw [e1, hk]; omega

/-- The operand's block at every point is the whole operand. -/
theorem opnd2_apply (c : Dev nD) (t : Fin cfg2.N) (l : Fin 8192) (k : Fin 32) :
    (iblk2 V c 1 t : Vec Ideal S8192x32 .bf16) (ix2 l k) = (V c (Pipeline.arrRef spec2 1) : S8192x32.Idx → EReal) (ix2 l k) := by
  obtain ⟨-, -, e0, e1, -⟩ := idx_facts2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 8192 + 1 * l.val = l.val; rw [e0]; omega
  | ⟨1, _⟩ => show win2_1.index t (1 : Fin 2) * 32 + 1 * k.val = k.val; rw [e1]; omega

/-- The reciprocal-degree block at point t is rows 512·t … 512·t + 511 of the column. -/
theorem rdeg2_apply (c : Dev nD) (t : Fin cfg2.N) (q : Fin 512) (k : Fin 8192) (hk : k.val = 512 * t.val + q.val) :
    (iblk2 V c 2 t : Vec Ideal S512x1 .f32) (ix2 q (0 : Fin 1)) = (V c (Pipeline.arrRef spec2 2) : S8192x1.Idx → EReal) (ix2 k (0 : Fin 1)) := by
  obtain ⟨-, -, -, -, e0, e1, -⟩ := idx_facts2 t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 512 + 1 * q.val = k.val; rw [e0, hk]; omega
  | ⟨1, _⟩ => show win2_2.index t (1 : Fin 2) * 1 + 1 * 0 = 0; rw [e1]

/-- What point t writes back is block t of the transposed product, scaled and clipped. -/
theorem flushed2_eq (c : Dev nD) (t : Fin cfg2.N) :
    (dat2 (F := Ideal) V c).flushed 3 t = ((cfg2.win 3).blk t).view.read (Elt Ideal)
      (spmmTArr true (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero offsets_zero]
  simp only [View.ld_unit_zero (S := S8192x512) offsets_zero, View.ld_unit_zero (S := S8192x32) offsets_zero, View.ld_unit_zero (S := S512x1) offsets_zero]
  obtain ⟨-, -, -, -, -, -, e0, e1, ht⟩ := idx_facts2 t
  refine funext fun (j : S512x32.Idx) => ?_
  obtain ⟨q, k, rfl⟩ : ∃ (q : Fin 512) (k : Fin 32), j = ix2 q k := ⟨j 0, j 1, eq_ix2 j⟩
  have hr : 512 * t.val + q.val < 8192 := by have := q.isLt; omega
  refine (pay2_apply _ _ _ q k).trans ?_
  have hemb : ((cfg2.win 3).blk t).view.emb (ix2 q k) = ix2 (⟨512 * t.val + q.val, hr⟩ : Fin 8192) k := by
    funext a
    apply Fin.ext
    match a with
    | ⟨0, _⟩ => show win2_3.index t (0 : Fin 2) * 512 + 1 * q.val = 512 * t.val + q.val; rw [e0]; omega
    | ⟨1, _⟩ => show win2_3.index t (1 : Fin 2) * 32 + 1 * k.val = k.val; rw [e1]; omega
  show _ = spmmTArr true (V c (Pipeline.arrRef spec2 0)) (V c (Pipeline.arrRef spec2 1)) (V c (Pipeline.arrRef spec2 2)) (((cfg2.win 3).blk t).view.emb (ix2 q k))
  rw [hemb]
  refine Eq.trans ?_ (spmmT_clip_apply _ _ _ (⟨512 * t.val + q.val, hr⟩ : Fin 8192) k).symm
  rw [rdeg2_apply V c t q ⟨512 * t.val + q.val, hr⟩ rfl]
  refine congrArg (fun s => max (s * _) 0) (Finset.sum_congr rfl fun l _ => ?_)
  rw [tile2_apply V c t l q ⟨512 * t.val + q.val, hr⟩ rfl, opnd2_apply V c t l k]

/-- An index of the output array is in point t's block iff each coordinate is in the block's range on its axis. -/
theorem mem_blk2 (t : Fin cfg2.N) (i : S8192x32.Idx) :
    i ∈ ((cfg2.win 3).blk t).view.set ↔ ∀ a : Fin 2, win2_3.index t a * S512x32.size a ≤ (i a).val ∧ (i a).val < win2_3.index t a * S512x32.size a + S512x32.size a := by
  show i ∈ ((View.whole main_v38).slice (win2_3.rect t)).set ↔ _
  rw [View.set_slice_whole, Rect.mem_set_unit]
  exact Iff.rfl

/-- Every index of the output array is in the block of the point its row falls to: row r belongs to point r / 512. -/
theorem cover2 (i : S8192x32.Idx) : ∃ t : Fin cfg2.N, (cfg2.win 3).flush t = true ∧ i ∈ ((cfg2.win 3).blk t).view.set := by
  have hi0 : (i 0).val < 8192 := (i 0).isLt
  have hi1 : (i 1).val < 32 := (i 1).isLt
  have hN : cfg2.N = 16 := N_2
  obtain ⟨t, htv⟩ : ∃ t : Fin cfg2.N, t.val = (i 0).val / 512 := ⟨⟨(i 0).val / 512, by rw [hN]; omega⟩, rfl⟩
  obtain ⟨-, -, -, -, -, -, e0, e1, -⟩ := idx_facts2 t
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; rw [e0, htv]; omega
  | ⟨1, _⟩ => show win2_3.index t (1 : Fin 2) * 32 ≤ (i 1).val ∧ (i 1).val < win2_3.index t (1 : Fin 2) * 32 + 32; rw [e1]; omega

/-! ## The fourth call: column tiles of the adjacency matrix against the whole 8192×7 operand -/

theorem tdot7_lhs_0 (i : S512x7.Idx) (q : dot_S8192x512_S8192x7_S512x7_0_0_1_1_n_n.contr.Idx) :
    (dot_S8192x512_S8192x7_S512x7_0_0_1_1_n_n.lhsIdx i q 0).val = (q ⟨0, by decide⟩).val :=
  dot_S8192x512_S8192x7_S512x7_0_0_1_1_n_n.lhsIdx_val_of_single rfl i q
theorem tdot7_lhs_1 (i : S512x7.Idx) (q : dot_S8192x512_S8192x7_S512x7_0_0_1_1_n_n.contr.Idx) :
    (dot_S8192x512_S8192x7_S512x7_0_0_1_1_n_n.lhsIdx i q 1).val = (i 0).val := by
  unfold DotDims.lhsIdx
  rw [dif_neg (show ¬(1 : Fin S8192x512.rank) ∈ dot_S8192x512_S8192x7_S512x7_0_0_1_1_n_n.lhsBatch by decide), dif_pos (show (1 : Fin S8192x512.rank) ∈ dot_S8192x512_S8192x7_S512x7_0_0_1_1_n_n.lhsNonContracting by decide)]
  rfl
theorem tdot7_rhs_0 (i : S512x7.Idx) (q : dot_S8192x512_S8192x7_S512x7_0_0_1_1_n_n.contr.Idx) :
    (dot_S8192x512_S8192x7_S512x7_0_0_1_1_n_n.rhsIdx i q 0).val = (q ⟨0, by decide⟩).val :=
  dot_S8192x512_S8192x7_S512x7_0_0_1_1_n_n.rhsIdx_val_of_single rfl i q
theorem tdot7_rhs_1 (i : S512x7.Idx) (q : dot_S8192x512_S8192x7_S512x7_0_0_1_1_n_n.contr.Idx) :
    (dot_S8192x512_S8192x7_S512x7_0_0_1_1_n_n.rhsIdx i q 1).val = (i 1).val := by
  unfold DotDims.rhsIdx
  rw [dif_neg (show ¬(1 : Fin S8192x7.rank) ∈ dot_S8192x512_S8192x7_S512x7_0_0_1_1_n_n.rhsBatch by decide), dif_pos (show (1 : Fin S8192x7.rank) ∈ dot_S8192x512_S8192x7_S512x7_0_0_1_1_n_n.rhsNonContracting by decide)]
  rfl

/-- The product contracting the ROWS of both operands, into a zero accumulator: entry (q, c) sums, over the
    8192 rows l, the tile at (l, q) times the operand at (l, c). -/
theorem tdot7_apply (a : FVec Ideal S8192x512 .bf16) (y : FVec Ideal S8192x7 .bf16) (q : Fin 512) (c : Fin 7) :
    FloatOps.matmul dot_S8192x512_S8192x7_S512x7_0_0_1_1_n_n none a y (constant (F := Ideal) S512x7 .f32 0x00000000#32) (ix2 q c)
      = ∑ l : Fin 8192, a (ix2 l q) * y (ix2 l c) := by
  rw [Ideal.matmul_constant_zero_apply, ← Equiv.sum_comp (ValueIdx.contrEquiv1 dot_S8192x512_S8192x7_S512x7_0_0_1_1_n_n 8192 rfl rfl).symm]
  refine Finset.sum_congr rfl fun k _ => ?_
  have hk := ValueIdx.contrEquiv1_symm_val dot_S8192x512_S8192x7_S512x7_0_0_1_1_n_n 8192 rfl rfl k
  have el : dot_S8192x512_S8192x7_S512x7_0_0_1_1_n_n.lhsIdx (ix2 q c) ((ValueIdx.contrEquiv1 dot_S8192x512_S8192x7_S512x7_0_0_1_1_n_n 8192 rfl rfl).symm k) = ix2 k q := funext fun ax => Fin.ext (by
    match ax with
    | ⟨0, _⟩ => exact (tdot7_lhs_0 _ _).trans hk
    | ⟨1, _⟩ => exact tdot7_lhs_1 _ _)
  have er : dot_S8192x512_S8192x7_S512x7_0_0_1_1_n_n.rhsIdx (ix2 q c) ((ValueIdx.contrEquiv1 dot_S8192x512_S8192x7_S512x7_0_0_1_1_n_n 8192 rfl rfl).symm k) = ix2 k c := funext fun ax => Fin.ext (by
    match ax with
    | ⟨0, _⟩ => exact (tdot7_rhs_0 _ _).trans hk
    | ⟨1, _⟩ => exact tdot7_rhs_1 _ _)
  rw [el, er]

/-- A 512×1 column broadcast to 512×7 reads, at (q, c), the column's entry q. -/
theorem bcol7_apply (v : FVec Ideal S512x1 .f32) (q : Fin 512) (c : Fin 7) :
    broadcastTo S512x7 v broadcasts_S512x1_S512x7 (ix2 q c) = v (ix2 q (0 : Fin 1)) := by
  refine broadcastTo_apply v broadcasts_S512x1_S512x7 (ix2 q c) (ix2 q (0 : Fin 1)) fun ax => ?_
  match ax with
  | ⟨0, _⟩ =>
    show q.val = if (512 : Nat) = 1 then 0 else q.val
    rw [if_neg (by decide)]
  | ⟨1, _⟩ =>
    show (0 : Nat) = if (1 : Nat) = 1 then 0 else c.val
    rw [if_pos rfl]

/-- The body's arithmetic at entry (q, c) of its output block: the contraction over the tile's rows, scaled by the
    reciprocal degree of row q. -/
theorem pay4_apply (x0 : Vec Ideal S8192x512 .bf16) (x1 : Vec Ideal S8192x7 .bf16) (x2 : Vec Ideal S512x1 .f32) (q : Fin 512) (c : Fin 7) :
    k4_pay1 (F := Ideal) x0 x1 x2 (ix2 q c) = (∑ l : Fin 8192, x0 (ix2 l q) * x1 (ix2 l c)) * x2 (ix2 q (0 : Fin 1)) := by
  unfold k4_pay1
  simp only [mulf_apply, shapeCast_self]
  show FloatOps.matmul dot_S8192x512_S8192x7_S512x7_0_0_1_1_n_n none x0 x1 (constant (F := Ideal) S512x7 .f32 0x00000000#32) (ix2 q c)
      * broadcastTo S512x7 x2 broadcasts_S512x1_S512x7 (ix2 q c) = _
  rw [tdot7_apply, bcol7_apply]

/-- The target formula without clipping, at the index (p, k). -/
theorem spmmT_plain_apply {n : Nat} (a : (⟨2, ![8192, 8192]⟩ : Shape).Idx → EReal) (y : (⟨2, ![8192, n]⟩ : Shape).Idx → EReal)
    (r : (⟨2, ![8192, 1]⟩ : Shape).Idx → EReal) (p : Fin 8192) (k : Fin n) :
    spmmTArr false a y r (ix2 p k) = (∑ l : Fin 8192, a (ix2 l p) * y (ix2 l k)) * r (ix2 p (0 : Fin 1)) := rfl

/-- The printed index maps over the 16 points: the adjacency tile moves along the COLUMNS with the point, the operand
    stays whole, the reciprocal degrees and the output move along the rows with the point. -/
theorem idx_facts4 : ∀ t : Fin cfg4.N,
    win4_0.index t (0 : Fin 2) = 0 ∧ win4_0.index t (1 : Fin 2) = t.val
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ t.val < 16 :=
  (by decide +kernel : ∀ t : Fin grid4.N, _)

/-- The adjacency tile at point t is columns 512·t … 512·t + 511 of the matrix, all rows. -/
theorem tile4_apply (c : Dev nD) (t : Fin cfg4.N) (l : Fin 8192) (q : Fin 512) (k : Fin 8192) (hk : k.val = 512 * t.val + q.val) :
    (iblk4 V c 0 t : Vec Ideal S8192x512 .bf16) (ix2 l q) = (V c (Pipeline.arrRef spec4 0) : S8192x8192.Idx → EReal) (ix2 l k) := by
  obtain ⟨e0, e1, -⟩ := idx_facts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 8192 + 1 * l.val = l.val; rw [e0]; omega
  | ⟨1, _⟩ => show win4_0.index t (1 : Fin 2) * 512 + 1 * q.val = k.val; rw [e1, hk]; omega

/-- The operand's block at every point is the whole operand. -/
theorem opnd4_apply (c : Dev nD) (t : Fin cfg4.N) (l : Fin 8192) (k : Fin 7) :
    (iblk4 V c 1 t : Vec Ideal S8192x7 .bf16) (ix2 l k) = (V c (Pipeline.arrRef spec4 1) : S8192x7.Idx → EReal) (ix2 l k) := by
  obtain ⟨-, -, e0, e1, -⟩ := idx_facts4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 8192 + 1 * l.val = l.val; rw [e0]; omega
  | ⟨1, _⟩ => show win4_1.index t (1 : Fin 2) * 7 + 1 * k.val = k.val; rw [e1]; omega

/-- The reciprocal-degree block at point t is rows 512·t … 512·t + 511 of the column. -/
theorem rdeg4_apply (c : Dev nD) (t : Fin cfg4.N) (q : Fin 512) (k : Fin 8192) (hk : k.val = 512 * t.val + q.val) :
    (iblk4 V c 2 t : Vec Ideal S512x1 .f32) (ix2 q (0 : Fin 1)) = (V c (Pipeline.arrRef spec4 2) : S8192x1.Idx → EReal) (ix2 k (0 : Fin 1)) := by
  obtain ⟨-, -, -, -, e0, e1, -⟩ := idx_facts4 t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 512 + 1 * q.val = k.val; rw [e0, hk]; omega
  | ⟨1, _⟩ => show win4_2.index t (1 : Fin 2) * 1 + 1 * 0 = 0; rw [e1]

/-- What point t writes back is block t of the transposed product, scaled. -/
theorem flushed4_eq (c : Dev nD) (t : Fin cfg4.N) :
    (dat4 (F := Ideal) V c).flushed 3 t = ((cfg4.win 3).blk t).view.read (Elt Ideal)
      (spmmTArr false (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold out4_3
  rw [View.canon_unit_zero offsets_zero]
  simp only [View.ld_unit_zero (S := S8192x512) offsets_zero, View.ld_unit_zero (S := S8192x7) offsets_zero, View.ld_unit_zero (S := S512x1) offsets_zero]
  obtain ⟨-, -, -, -, -, -, e0, e1, ht⟩ := idx_facts4 t
  refine funext fun (j : S512x7.Idx) => ?_
  obtain ⟨q, k, rfl⟩ : ∃ (q : Fin 512) (k : Fin 7), j = ix2 q k := ⟨j 0, j 1, eq_ix2 j⟩
  have hr : 512 * t.val + q.val < 8192 := by have := q.isLt; omega
  refine (pay4_apply _ _ _ q k).trans ?_
  have hemb : ((cfg4.win 3).blk t).view.emb (ix2 q k) = ix2 (⟨512 * t.val + q.val, hr⟩ : Fin 8192) k := by
    funext a
    apply Fin.ext
    match a with
    | ⟨0, _⟩ => show win4_3.index t (0 : Fin 2) * 512 + 1 * q.val = 512 * t.val + q.val; rw [e0]; omega
    | ⟨1, _⟩ => show win4_3.index t (1 : Fin 2) * 7 + 1 * k.val = k.val; rw [e1]; omega
  show _ = spmmTArr false (V c (Pipeline.arrRef spec4 0)) (V c (Pipeline.arrRef spec4 1)) (V c (Pipeline.arrRef spec4 2)) (((cfg4.win 3).blk t).view.emb (ix2 q k))
  rw [hemb]
  refine Eq.trans ?_ (spmmT_plain_apply _ _ _ (⟨512 * t.val + q.val, hr⟩ : Fin 8192) k).symm
  rw [rdeg4_apply V c t q ⟨512 * t.val + q.val, hr⟩ rfl]
  refine congrArg (fun s => s * _) (Finset.sum_congr rfl fun l _ => ?_)
  rw [tile4_apply V c t l q ⟨512 * t.val + q.val, hr⟩ rfl, opnd4_apply V c t l k]

/-- An index of the output array is in point t's block iff each coordinate is in the block's range on its axis. -/
theorem mem_blk4 (t : Fin cfg4.N) (i : S8192x7.Idx) :
    i ∈ ((cfg4.win 3).blk t).view.set ↔ ∀ a : Fin 2, win4_3.index t a * S512x7.size a ≤ (i a).val ∧ (i a).val < win4_3.index t a * S512x7.size a + S512x7.size a := by
  show i ∈ ((View.whole main_v46).slice (win4_3.rect t)).set ↔ _
  rw [View.set_slice_whole, Rect.mem_set_unit]
  exact Iff.rfl

/-- Every index of the output array is in the block of the point its row falls to: row r belongs to point r / 512. -/
theorem cover4 (i : S8192x7.Idx) : ∃ t : Fin cfg4.N, (cfg4.win 3).flush t = true ∧ i ∈ ((cfg4.win 3).blk t).view.set := by
  have hi0 : (i 0).val < 8192 := (i 0).isLt
  have hi1 : (i 1).val < 7 := (i 1).isLt
  have hN : cfg4.N = 16 := N_4
  obtain ⟨t, htv⟩ : ∃ t : Fin cfg4.N, t.val = (i 0).val / 512 := ⟨⟨(i 0).val / 512, by rw [hN]; omega⟩, rfl⟩
  obtain ⟨-, -, -, -, -, -, e0, e1, -⟩ := idx_facts4 t
  refine ⟨t, flush4_3 t, ?_⟩
  rw [mem_blk4]
  intro a
  match a with
  | ⟨0, _⟩ => show win4_3.index t (0 : Fin 2) * 512 ≤ (i 0).val ∧ (i 0).val < win4_3.index t (0 : Fin 2) * 512 + 512; rw [e0, htv]; omega
  | ⟨1, _⟩ => show win4_3.index t (1 : Fin 2) * 7 ≤ (i 1).val ∧ (i 1).val < win4_3.index t (1 : Fin 2) * 7 + 7; rw [e1]; omega

end Transposed

/-- The second call (transposed, 32 columns, clipped at 0): its output array after the run. -/
theorem region2_out (c : Dev nD) :
    (dat2 (F := Ideal) V c).arrAt 3 cfg2.N
      = spmmTArr true (V c (Pipeline.arrRef spec2 0)) (V c (Pipeline.arrRef spec2 1)) (V c (Pipeline.arrRef spec2 2)) :=
  (dat2 (F := Ideal) V c).arrAt_eq_of_cover 3 _ (fun t _ => Transposed.flushed2_eq V c t) Transposed.cover2

/-- The fourth call (transposed, 7 columns, not clipped): its output array after the run. -/
theorem region4_out (c : Dev nD) :
    (dat4 (F := Ideal) V c).arrAt 3 cfg4.N
      = spmmTArr false (V c (Pipeline.arrRef spec4 0)) (V c (Pipeline.arrRef spec4 1)) (V c (Pipeline.arrRef spec4 2)) :=
  (dat4 (F := Ideal) V c).arrAt_eq_of_cover 3 _ (fun t _ => Transposed.flushed4_eq V c t) Transposed.cover4

end Cert.KernelIdeal.KVal

end
-- ==== Proof.KFold.lean ====
/-
  The kernel program's result as one formula.

  The result buffer is read back through the run: the last host stretch (a sum and a product with one half),
  the two last adjacency calls, the two small dense products with the output weights, the two first
  adjacency calls, the column halves of the projection, and the projection call itself, each call's output
  array being the closed form of its own module.  The adjacency array and the two reciprocal-degree columns
  are left as the first host stretch computes them from the edge list.

  The order below: first the buffers that only travel (the adjacency array, the reciprocal-degree columns and
  the arguments, unchanged by every later segment that does not write them), then each operation of the
  host stretches read at an entry over arbitrary operands, then the stages in program order, each as an
  equation "array = closed form", and last the result, where the stages' equations are chained.
-/
import proofs.«401971_j55422257988077_1_alg».proof.Proof.KRegion0
import proofs.«401971_j55422257988077_1_alg».proof.Proof.KRegion13
import proofs.«401971_j55422257988077_1_alg».proof.Proof.KRegion24
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.KVal

open Idealize.ShloMosaic Idealize.ShloMosaic.TcCoe Idealize.SL.Sem Idealize.ShloMosaic.Pipeline Idealize.ShloMosaic.ValueIdx
open Cert.KernelIdeal Cert.KernelIdeal.Gen Cert.Spec

variable (m : (ℓ : Loc nD τ sig) → Buf (Elt Ideal) ℓ) (ρ : Dev nD → PrngReg)

/-! ## A buffer a segment leaves alone -/

/-- A host stretch leaves a buffer none of its operations writes: the goal `after ops V b = V b`. -/
syntax "host_carry" : tactic
macro_rules
  | `(tactic| host_carry) => `(tactic|
      (refine StableHlo.after_of_forall_not_mem _ _ (List.forall_iff_forall_mem.mp ?_)
       simp only [hostOps0, hostOps1, hostOps3, hostOps5, List.Forall, StableHlo.nullary_writes, StableHlo.unary_writes, StableHlo.binary_writes,
         StableHlo.ternary_writes, StableHlo.quaternary_writes, StableHlo.reshape_writes, StableHlo.binaryIndexed_writes, Finset.mem_singleton]
       repeat' apply And.intro
       all_goals exact StableHlo.devRef_ne_of_ne (by decide)))

/-- A call leaves an array it only reads (an input window's array). -/
theorem W4_in (c : Dev nD) (w : Fin cfg1.W) (hin : (cfg1.win w).isOut = false) :
    W4 (F := Ideal) m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
theorem W5_in (c : Dev nD) (w : Fin cfg2.W) (hin : (cfg2.win w).isOut = false) :
    W5 (F := Ideal) m ρ c (Proc.devRef .tc (Pipeline.arrRef spec2 w)) = W4 m ρ c (Proc.devRef .tc (Pipeline.arrRef spec2 w)) :=
  (W5_arr m ρ c w).trans (((dat2 (V4 m ρ) c).arrAt_in w hin _).trans (A_eq2 (V4 m ρ) c w))
theorem W7_in (c : Dev nD) (w : Fin cfg3.W) (hin : (cfg3.win w).isOut = false) :
    W7 (F := Ideal) m ρ c (Proc.devRef .tc (Pipeline.arrRef spec3 w)) = W6 m ρ c (Proc.devRef .tc (Pipeline.arrRef spec3 w)) :=
  (W7_arr m ρ c w).trans (((dat3 (V6 m ρ) c).arrAt_in w hin _).trans (A_eq3 (V6 m ρ) c w))

/-! ## The adjacency array and the reciprocal-degree columns stay as the first host stretch built them -/

theorem V3_v32 (c : Dev nD) : V3 (F := Ideal) m ρ c main_v32 = V1 m ρ c main_v32 :=
  (show W3 (F := Ideal) m ρ c (Proc.devRef .tc main_v32) = W2 m ρ c (Proc.devRef .tc main_v32) by host_carry).trans
    (W2_of_ne m ρ c main_v32 (by decide))
theorem V4_v32 (c : Dev nD) : V4 (F := Ideal) m ρ c main_v32 = V1 m ρ c main_v32 :=
  (W4_in m ρ c 0 rfl).trans (V3_v32 m ρ c)
theorem V6_v32 (c : Dev nD) : V6 (F := Ideal) m ρ c main_v32 = V1 m ρ c main_v32 :=
  (show W6 (F := Ideal) m ρ c (Proc.devRef .tc main_v32) = W5 m ρ c (Proc.devRef .tc main_v32) by host_carry).trans
    ((W5_in m ρ c 0 rfl).trans (V4_v32 m ρ c))
theorem V7_v32 (c : Dev nD) : V7 (F := Ideal) m ρ c main_v32 = V1 m ρ c main_v32 :=
  (W7_in m ρ c 0 rfl).trans (V6_v32 m ρ c)

theorem V3_v14 (c : Dev nD) : V3 (F := Ideal) m ρ c main_v14 = V1 m ρ c main_v14 :=
  (show W3 (F := Ideal) m ρ c (Proc.devRef .tc main_v14) = W2 m ρ c (Proc.devRef .tc main_v14) by host_carry).trans
    (W2_of_ne m ρ c main_v14 (by decide))
theorem V6_v14 (c : Dev nD) : V6 (F := Ideal) m ρ c main_v14 = V1 m ρ c main_v14 :=
  (show W6 (F := Ideal) m ρ c (Proc.devRef .tc main_v14) = W5 m ρ c (Proc.devRef .tc main_v14) by host_carry).trans
    ((W5_of_ne m ρ c main_v14 (by decide)).trans ((W4_in m ρ c 2 rfl).trans (V3_v14 m ρ c)))
theorem V7_v14 (c : Dev nD) : V7 (F := Ideal) m ρ c main_v14 = V1 m ρ c main_v14 :=
  (W7_in m ρ c 2 rfl).trans (V6_v14 m ρ c)

theorem V4_v16 (c : Dev nD) : V4 (F := Ideal) m ρ c main_v16 = V1 m ρ c main_v16 :=
  (W4_of_ne m ρ c main_v16 (by decide)).trans
    ((show W3 (F := Ideal) m ρ c (Proc.devRef .tc main_v16) = W2 m ρ c (Proc.devRef .tc main_v16) by host_carry).trans
      (W2_of_ne m ρ c main_v16 (by decide)))

/-! ## The arguments a later stage reads are the launch's -/

theorem V1_arg0 (c : Dev nD) : V1 (F := Ideal) m ρ c main_arg0 = m ((c : Thread nD τ).loc main_arg0) :=
  (show W1 (F := Ideal) m ρ c (Proc.devRef .tc main_arg0) = W0 m ρ c (Proc.devRef .tc main_arg0) by host_carry).trans rfl

theorem W5_arg4 (c : Dev nD) : W5 (F := Ideal) m ρ c (Proc.devRef .tc main_arg4) = m ((c : Thread nD τ).loc main_arg4) :=
  (W5_of_ne m ρ c main_arg4 (by decide)).trans ((W4_of_ne m ρ c main_arg4 (by decide)).trans
    ((show W3 (F := Ideal) m ρ c (Proc.devRef .tc main_arg4) = W2 m ρ c (Proc.devRef .tc main_arg4) by host_carry).trans
      ((W2_of_ne m ρ c main_arg4 (by decide)).trans
        ((show W1 (F := Ideal) m ρ c (Proc.devRef .tc main_arg4) = W0 m ρ c (Proc.devRef .tc main_arg4) by host_carry).trans rfl))))
theorem W5_arg6 (c : Dev nD) : W5 (F := Ideal) m ρ c (Proc.devRef .tc main_arg6) = m ((c : Thread nD τ).loc main_arg6) :=
  (W5_of_ne m ρ c main_arg6 (by decide)).trans ((W4_of_ne m ρ c main_arg6 (by decide)).trans
    ((show W3 (F := Ideal) m ρ c (Proc.devRef .tc main_arg6) = W2 m ρ c (Proc.devRef .tc main_arg6) by host_carry).trans
      ((W2_of_ne m ρ c main_arg6 (by decide)).trans
        ((show W1 (F := Ideal) m ρ c (Proc.devRef .tc main_arg6) = W0 m ρ c (Proc.devRef .tc main_arg6) by host_carry).trans rfl))))

/-! ## One operation read at an entry, over any operands -/

theorem dot32_lhs0 (j : S8192x7.Idx) (q : dot_S8192x32_S32x7_S8192x7_1_0_0_1_n_n.contr.Idx) :
    (dot_S8192x32_S32x7_S8192x7_1_0_0_1_n_n.lhsIdx j q 0).val = (j 0).val := by
  unfold DotDims.lhsIdx
  rw [dif_neg (show ¬(0 : Fin S8192x32.rank) ∈ dot_S8192x32_S32x7_S8192x7_1_0_0_1_n_n.lhsBatch by decide),
    dif_pos (show (0 : Fin S8192x32.rank) ∈ dot_S8192x32_S32x7_S8192x7_1_0_0_1_n_n.lhsNonContracting by decide)]
  rfl
theorem dot32_rhs1 (j : S8192x7.Idx) (q : dot_S8192x32_S32x7_S8192x7_1_0_0_1_n_n.contr.Idx) :
    (dot_S8192x32_S32x7_S8192x7_1_0_0_1_n_n.rhsIdx j q 1).val = (j 1).val := by
  unfold DotDims.rhsIdx
  rw [dif_neg (show ¬(1 : Fin S32x7.rank) ∈ dot_S8192x32_S32x7_S8192x7_1_0_0_1_n_n.rhsBatch by decide),
    dif_pos (show (1 : Fin S32x7.rank) ∈ dot_S8192x32_S32x7_S8192x7_1_0_0_1_n_n.rhsNonContracting by decide)]
  rfl

/-- Entry (i, k) of the 8192×32 by 32×7 product is the sum over the 32 contracted coordinates. -/
theorem dot32_apply (y : FVec Ideal S8192x32 .f32) (w : FVec Ideal S32x7 .f32) (i : Fin 8192) (k : Fin 7) :
    Host.dotGeneral dot_S8192x32_S32x7_S8192x7_1_0_0_1_n_n none y w (ix2 i k) = ∑ h : Fin 32, y (ix2 i h) * w (ix2 h k) := by
  simp only [Host.dotGeneral]
  rw [Ideal.dotGeneral_apply, ← Equiv.sum_comp (ValueIdx.contrEquiv1 dot_S8192x32_S32x7_S8192x7_1_0_0_1_n_n 32 rfl rfl).symm]
  refine Finset.sum_congr rfl fun h _ => ?_
  have hq := ValueIdx.contrEquiv1_symm_val dot_S8192x32_S32x7_S8192x7_1_0_0_1_n_n 32 rfl rfl h
  generalize (ValueIdx.contrEquiv1 dot_S8192x32_S32x7_S8192x7_1_0_0_1_n_n 32 rfl rfl).symm h = q at hq ⊢
  have el : dot_S8192x32_S32x7_S8192x7_1_0_0_1_n_n.lhsIdx (ix2 i k) q = ix2 i h := funext fun a => Fin.ext (by
    match a with
    | ⟨0, _⟩ => exact dot32_lhs0 (ix2 i k) q
    | ⟨1, _⟩ => exact (dot_S8192x32_S32x7_S8192x7_1_0_0_1_n_n.lhsIdx_val_of_single rfl (ix2 i k) q).trans hq)
  have er : dot_S8192x32_S32x7_S8192x7_1_0_0_1_n_n.rhsIdx (ix2 i k) q = ix2 h k := funext fun a => Fin.ext (by
    match a with
    | ⟨0, _⟩ => exact (dot_S8192x32_S32x7_S8192x7_1_0_0_1_n_n.rhsIdx_val_of_single rfl (ix2 i k) q).trans hq
    | ⟨1, _⟩ => exact dot32_rhs1 (ix2 i k) q)
  rw [el, er]

/-- Widening, the product with a 32×7 matrix and narrowing, at an entry: a matrix product. -/
theorem dot32_mm (y : FVec Ideal S8192x32 .bf16) (w : FVec Ideal S32x7 .f32) (P : Mat 8192 32) (Wm : Mat 32 7)
    (hy : toMat y = P) (hw : toMat w = Wm) (i : Fin 8192) (k : Fin 7) :
    (truncf .bf16 (Host.dotGeneral dot_S8192x32_S32x7_S8192x7_1_0_0_1_n_n none (extf .f32 y bitsLt_bf16_f32) w) bitsLt_bf16_f32
      : FVec Ideal S8192x7 .bf16) (ix2 i k) = mm P Wm i k := by
  subst hy hw
  exact dot32_apply _ _ i k

/-- A column of the left half of x · w is x times the left half of w. -/
theorem projArr_half (x : S8192x1433.Idx → EReal) (w : S1433x64.Idx → EReal) (w1 : S1433x32.Idx → EReal) (off : Nat) (hoff : off + 32 ≤ 64)
    (hw : ∀ (l : Fin 1433) (h : Fin 32), w (ix2 l ⟨off + h.val, by omega⟩) = w1 (ix2 l h)) (i : Fin 8192) (h : Fin 32) :
    projArr x w (ix2 i ⟨off + h.val, by omega⟩) = mm (toMat x) (toMat w1) i h :=
  Finset.sum_congr rfl fun l _ => congrArg (x (ix2 i l) * ·) (hw l h)

section Calls
variable {p : Nat} (a : S8192x8192.Idx → EReal) (y : (⟨2, ![8192, p]⟩ : Shape).Idx → EReal) (r : S8192x1.Idx → EReal)
  (P : Mat 8192 p) (hy : toMat y = P) (i : Fin 8192) (h : Fin p)
include hy
theorem spmmArr_true_eq : spmmArr true a y r (ix2 i h) = max (mm (toMat a) P i h * r (ix2 i 0)) 0 := by subst hy; rfl
theorem spmmArr_false_eq : spmmArr false a y r (ix2 i h) = mm (toMat a) P i h * r (ix2 i 0) := by subst hy; rfl
theorem spmmTArr_true_eq : spmmTArr true a y r (ix2 i h) = max (mmT (toMat a) P i h * r (ix2 i 0)) 0 := by subst hy; rfl
theorem spmmTArr_false_eq : spmmTArr false a y r (ix2 i h) = mmT (toMat a) P i h * r (ix2 i 0) := by subst hy; rfl
end Calls

/-- The sum of two arrays times the broadcast constant one half, at an entry. -/
theorem half_eq (a b : FVec Ideal S8192x7 .f32) (j : S8192x7.Idx) (u v : EReal) (ha : a j = u) (hb : b j = v) :
    mulf (addf a b) (broadcastInDim S8192x7 ![] bcast_S_S8192x7 (constant (F := Ideal) S_ .f32 0x3F000000#32)) j
      = (u + v) * Ideal.ofBits .f32 0x3F000000#32 := by
  subst ha hb; rfl

/-! ## Stage by stage -/

/-- The matrices of the formula. -/
abbrev Xm (c : Dev nD) : Mat 8192 1433 := toMat (m ((c : Thread nD τ).loc main_arg0))
abbrev Am (c : Dev nD) : Mat 8192 8192 := toMat (V1 (F := Ideal) m ρ c main_v32)
abbrev rdeg1 (c : Dev nD) : Fin 8192 → EReal := fun i => (V1 (F := Ideal) m ρ c main_v14 : S8192x1.Idx → EReal) (ix2 i 0)
abbrev rdeg2 (c : Dev nD) : Fin 8192 → EReal := fun i => (V1 (F := Ideal) m ρ c main_v16 : S8192x1.Idx → EReal) (ix2 i 0)
abbrev Wh1m (c : Dev nD) : Mat 1433 32 := toMat (m ((c : Thread nD τ).loc main_arg3))
abbrev Wo1m (c : Dev nD) : Mat 32 7 := toMat (m ((c : Thread nD τ).loc main_arg4))
abbrev Wh2m (c : Dev nD) : Mat 1433 32 := toMat (m ((c : Thread nD τ).loc main_arg5))
abbrev Wo2m (c : Dev nD) : Mat 32 7 := toMat (m ((c : Thread nD τ).loc main_arg6))

/-- The projection's weight array is the two hidden weight matrices side by side. -/
theorem V1_v33 (c : Dev nD) : (V1 (F := Ideal) m ρ c main_v33 : S1433x64.Idx → EReal)
    = concatenate S1433x64 1 [⟨S1433x32, (m ((c : Thread nD τ).loc main_arg3) : S1433x32.Idx → EReal)⟩,
        ⟨S1433x32, (m ((c : Thread nD τ).loc main_arg5) : S1433x32.Idx → EReal)⟩] concatenates_S1433x32_S1433x32_S1433x64_d1 := by
  show StableHlo.after hostOps0 _ (Proc.devRef .tc main_v33) = _
  after_results_simp
  try rfl

/-- Columns 0..31 of the weight array are the first hidden weights. -/
theorem V1_v33_left (c : Dev nD) (l : Fin 1433) (h : Fin 32) :
    (V1 (F := Ideal) m ρ c main_v33 : S1433x64.Idx → EReal) (ix2 l ⟨0 + h.val, by omega⟩)
      = (m ((c : Thread nD τ).loc main_arg3) : S1433x32.Idx → EReal) (ix2 l h) := by
  refine (congrFun (V1_v33 m ρ c) _).trans ?_
  exact concatenate_pair_apply_left 1 _ _ concatenates_S1433x32_S1433x32_S1433x64_d1 _ rfl (ix2 l h)
    (fun b => match b with | ⟨0, _⟩ => rfl | ⟨1, _⟩ => by show h.val = 0 + h.val; omega)

/-- Columns 32..63 of the weight array are the second hidden weights. -/
theorem V1_v33_right (c : Dev nD) (l : Fin 1433) (h : Fin 32) :
    (V1 (F := Ideal) m ρ c main_v33 : S1433x64.Idx → EReal) (ix2 l ⟨32 + h.val, by omega⟩)
      = (m ((c : Thread nD τ).loc main_arg5) : S1433x32.Idx → EReal) (ix2 l h) := by
  refine (congrFun (V1_v33 m ρ c) _).trans ?_
  exact concatenate_pair_apply_right 1 _ _ concatenates_S1433x32_S1433x32_S1433x64_d1 _ rfl rfl (ix2 l h)
    (fun b => match b with | ⟨0, _⟩ => fun _ => rfl | ⟨1, _⟩ => fun hne => absurd rfl hne)
    (by show h.val + 32 = 32 + h.val; omega)

/-- The projection call's output: x times the weight array. -/
theorem W2_v34 (c : Dev nD) : (W2 (F := Ideal) m ρ c (Proc.devRef .tc main_v34) : S8192x64.Idx → EReal)
    = projArr (m ((c : Thread nD τ).loc main_arg0)) (V1 (F := Ideal) m ρ c main_v33) := by
  refine ((W2_arr m ρ c 2).trans (region0_out (V1 m ρ) c)).trans ?_
  exact congrArg (fun x => projArr x (V1 (F := Ideal) m ρ c main_v33)) (V1_arg0 m ρ c)

theorem W3_v35 (c : Dev nD) : (W3 (F := Ideal) m ρ c (Proc.devRef .tc main_v35) : S8192x32.Idx → EReal)
    = extractStridedSlice S8192x32 ![0, 0] (W2 (F := Ideal) m ρ c (Proc.devRef .tc main_v34) : S8192x64.Idx → EReal) slices_S8192x64_S8192x32_0_0 := by
  show StableHlo.after hostOps1 _ (Proc.devRef .tc main_v35) = _
  after_results
theorem W3_v36 (c : Dev nD) : (W3 (F := Ideal) m ρ c (Proc.devRef .tc main_v36) : S8192x32.Idx → EReal)
    = extractStridedSlice S8192x32 ![0, 32] (W2 (F := Ideal) m ρ c (Proc.devRef .tc main_v34) : S8192x64.Idx → EReal) slices_S8192x64_S8192x32_0_32 := by
  show StableHlo.after hostOps1 _ (Proc.devRef .tc main_v36) = _
  after_results

/-- The left column half of the projection is x times the first hidden weights. -/
theorem M35 (c : Dev nD) : toMat (W3 (F := Ideal) m ρ c (Proc.devRef .tc main_v35) : S8192x32.Idx → EReal)
    = mm (Xm m c) (Wh1m m c) := by
  funext i h
  refine (congrFun (W3_v35 m ρ c) (ix2 i h)).trans ?_
  refine (extractStridedSlice_apply ![0, 0] _ slices_S8192x64_S8192x32_0_0 (ix2 i h) (ix2 i ⟨0 + h.val, by omega⟩) (fun a => match a with
    | ⟨0, _⟩ => by show i.val = 0 + i.val; omega
    | ⟨1, _⟩ => rfl)).trans ?_
  refine (congrFun (W2_v34 m ρ c) _).trans ?_
  exact projArr_half _ _ _ 0 (by omega) (V1_v33_left m ρ c) i h

/-- The right column half of the projection is x times the second hidden weights. -/
theorem M36 (c : Dev nD) : toMat (W3 (F := Ideal) m ρ c (Proc.devRef .tc main_v36) : S8192x32.Idx → EReal)
    = mm (Xm m c) (Wh2m m c) := by
  funext i h
  refine (congrFun (W3_v36 m ρ c) (ix2 i h)).trans ?_
  refine (extractStridedSlice_apply ![0, 32] _ slices_S8192x64_S8192x32_0_32 (ix2 i h) (ix2 i ⟨32 + h.val, by omega⟩) (fun a => match a with
    | ⟨0, _⟩ => by show i.val = 0 + i.val; omega
    | ⟨1, _⟩ => rfl)).trans ?_
  refine (congrFun (W2_v34 m ρ c) _).trans ?_
  exact projArr_half _ _ _ 32 (by omega) (V1_v33_right m ρ c) i h

/-! ## The four adjacency calls and the two small products -/

/-- The hidden layer of the forward branch: A · (x · Wh1), scaled by the reciprocal out-degree, clipped at 0. -/
abbrev hid1 (c : Dev nD) : Mat 8192 32 := fun i h => max (mm (Am m ρ c) (mm (Xm m c) (Wh1m m c)) i h * rdeg1 m ρ c i) 0

/-- The hidden layer of the backward branch: Aᵀ · (x · Wh2), scaled by the reciprocal in-degree, clipped at 0. -/
abbrev hid2 (c : Dev nD) : Mat 8192 32 := fun i h => max (mmT (Am m ρ c) (mm (Xm m c) (Wh2m m c)) i h * rdeg2 m ρ c i) 0

theorem W4_v37 (c : Dev nD) : (W4 (F := Ideal) m ρ c (Proc.devRef .tc main_v37) : S8192x32.Idx → EReal)
    = spmmArr true (V1 (F := Ideal) m ρ c main_v32) (W3 (F := Ideal) m ρ c (Proc.devRef .tc main_v35)) (V1 (F := Ideal) m ρ c main_v14) := by
  refine ((W4_arr m ρ c 3).trans (region1_out (V3 m ρ) c)).trans ?_
  exact congr (congrArg (fun a => spmmArr true a (V3 (F := Ideal) m ρ c main_v35)) (V3_v32 m ρ c)) (V3_v14 m ρ c)

theorem M37 (c : Dev nD) : toMat (W5 (F := Ideal) m ρ c (Proc.devRef .tc main_v37) : S8192x32.Idx → EReal) = hid1 m ρ c := by
  funext i h
  refine (congrFun (W5_of_ne m ρ c main_v37 (by decide)) (ix2 i h)).trans ?_
  refine (congrFun (W4_v37 m ρ c) (ix2 i h)).trans ?_
  exact spmmArr_true_eq _ _ _ _ (M35 m ρ c) i h

theorem W5_v38 (c : Dev nD) : (W5 (F := Ideal) m ρ c (Proc.devRef .tc main_v38) : S8192x32.Idx → EReal)
    = spmmTArr true (V1 (F := Ideal) m ρ c main_v32) (W3 (F := Ideal) m ρ c (Proc.devRef .tc main_v36)) (V1 (F := Ideal) m ρ c main_v16) := by
  refine ((W5_arr m ρ c 3).trans (region2_out (V4 m ρ) c)).trans ?_
  exact congr (congr (congrArg (fun a y => spmmTArr true a y) (V4_v32 m ρ c)) (W4_of_ne m ρ c main_v36 (by decide))) (V4_v16 m ρ c)

theorem M38 (c : Dev nD) : toMat (W5 (F := Ideal) m ρ c (Proc.devRef .tc main_v38) : S8192x32.Idx → EReal) = hid2 m ρ c := by
  funext i h
  refine (congrFun (W5_v38 m ρ c) (ix2 i h)).trans ?_
  exact spmmTArr_true_eq _ _ _ _ (M36 m ρ c) i h

theorem W6_v41 (c : Dev nD) : (W6 (F := Ideal) m ρ c (Proc.devRef .tc main_v41) : FVec Ideal S8192x7 .bf16)
    = truncf (F := Ideal) .bf16 (Host.dotGeneral (F := Ideal) (φ₁ := .f32) (φ₂ := .f32) dot_S8192x32_S32x7_S8192x7_1_0_0_1_n_n none
        (extf (F := Ideal) .f32 (W5 (F := Ideal) m ρ c (Proc.devRef .tc main_v37) : FVec Ideal S8192x32 .bf16) bitsLt_bf16_f32)
        (W5 (F := Ideal) m ρ c (Proc.devRef .tc main_arg4) : FVec Ideal S32x7 .f32)) bitsLt_bf16_f32 := by
  show StableHlo.after hostOps3 _ (Proc.devRef .tc main_v41) = _
  after_results
  try rfl
theorem W6_v44 (c : Dev nD) : (W6 (F := Ideal) m ρ c (Proc.devRef .tc main_v44) : FVec Ideal S8192x7 .bf16)
    = truncf (F := Ideal) .bf16 (Host.dotGeneral (F := Ideal) (φ₁ := .f32) (φ₂ := .f32) dot_S8192x32_S32x7_S8192x7_1_0_0_1_n_n none
        (extf (F := Ideal) .f32 (W5 (F := Ideal) m ρ c (Proc.devRef .tc main_v38) : FVec Ideal S8192x32 .bf16) bitsLt_bf16_f32)
        (W5 (F := Ideal) m ρ c (Proc.devRef .tc main_arg6) : FVec Ideal S32x7 .f32)) bitsLt_bf16_f32 := by
  show StableHlo.after hostOps3 _ (Proc.devRef .tc main_v44) = _
  after_results
  try rfl

/-- The forward branch's hidden layer times its output weights. -/
theorem M41 (c : Dev nD) : toMat (W6 (F := Ideal) m ρ c (Proc.devRef .tc main_v41) : S8192x7.Idx → EReal)
    = mm (hid1 m ρ c) (Wo1m m c) := by
  funext i k
  refine (congrFun (W6_v41 m ρ c) (ix2 i k)).trans ?_
  exact dot32_mm _ _ _ _ (M37 m ρ c) (congrArg (toMat (n := 32) (k := 7)) (W5_arg4 m ρ c)) i k

/-- The backward branch's hidden layer times its output weights. -/
theorem M44 (c : Dev nD) : toMat (W6 (F := Ideal) m ρ c (Proc.devRef .tc main_v44) : S8192x7.Idx → EReal)
    = mm (hid2 m ρ c) (Wo2m m c) := by
  funext i k
  refine (congrFun (W6_v44 m ρ c) (ix2 i k)).trans ?_
  exact dot32_mm _ _ _ _ (M38 m ρ c) (congrArg (toMat (n := 32) (k := 7)) (W5_arg6 m ρ c)) i k

theorem W7_v45 (c : Dev nD) : (W7 (F := Ideal) m ρ c (Proc.devRef .tc main_v45) : S8192x7.Idx → EReal)
    = spmmArr false (V1 (F := Ideal) m ρ c main_v32) (W6 (F := Ideal) m ρ c (Proc.devRef .tc main_v41)) (V1 (F := Ideal) m ρ c main_v14) := by
  refine ((W7_arr m ρ c 3).trans (region3_out (V6 m ρ) c)).trans ?_
  exact congr (congrArg (fun a => spmmArr false a (V6 (F := Ideal) m ρ c main_v41)) (V6_v32 m ρ c)) (V6_v14 m ρ c)

theorem W8_v46 (c : Dev nD) : (W8 (F := Ideal) m ρ c (Proc.devRef .tc main_v46) : S8192x7.Idx → EReal)
    = spmmTArr false (V1 (F := Ideal) m ρ c main_v32) (W6 (F := Ideal) m ρ c (Proc.devRef .tc main_v44)) (V1 (F := Ideal) m ρ c main_v14) := by
  refine ((W8_arr m ρ c 3).trans (region4_out (V7 m ρ) c)).trans ?_
  exact congr (congr (congrArg (fun a y => spmmTArr false a y) (V7_v32 m ρ c)) (W7_of_ne m ρ c main_v44 (by decide))) (V7_v14 m ρ c)

/-- The forward branch's result. -/
theorem M45 (c : Dev nD) (i : Fin 8192) (k : Fin 7) : (W8 (F := Ideal) m ρ c (Proc.devRef .tc main_v45) : S8192x7.Idx → EReal) (ix2 i k)
    = mm (Am m ρ c) (mm (hid1 m ρ c) (Wo1m m c)) i k * rdeg1 m ρ c i := by
  refine (congrFun (W8_of_ne m ρ c main_v45 (by decide)) (ix2 i k)).trans ?_
  refine (congrFun (W7_v45 m ρ c) (ix2 i k)).trans ?_
  exact spmmArr_false_eq _ _ _ _ (M41 m ρ c) i k

/-- The backward branch's result. -/
theorem M46 (c : Dev nD) (i : Fin 8192) (k : Fin 7) : (W8 (F := Ideal) m ρ c (Proc.devRef .tc main_v46) : S8192x7.Idx → EReal) (ix2 i k)
    = mmT (Am m ρ c) (mm (hid2 m ρ c) (Wo2m m c)) i k * rdeg1 m ρ c i := by
  refine (congrFun (W8_v46 m ρ c) (ix2 i k)).trans ?_
  exact spmmTArr_false_eq _ _ _ _ (M44 m ρ c) i k

/-- The last host stretch: the two branches' sum times one half. -/
theorem W9_v49 (c : Dev nD) : (W9 (F := Ideal) m ρ c (Proc.devRef .tc main_v49) : FVec Ideal S8192x7 .f32)
    = mulf (addf (W8 (F := Ideal) m ρ c (Proc.devRef .tc main_v45) : FVec Ideal S8192x7 .f32) (W8 (F := Ideal) m ρ c (Proc.devRef .tc main_v46) : FVec Ideal S8192x7 .f32))
        (broadcastInDim S8192x7 ![] bcast_S_S8192x7 (constant (F := Ideal) S_ .f32 0x3F000000#32)) := by
  show StableHlo.after hostOps5 _ (Proc.devRef .tc main_v49) = _
  after_results
  try rfl

/-- The kernel program's result buffer after the run, entry by entry: the kernel formula of the arguments,
    of the adjacency array and of the reciprocal-degree columns the first host stretch builds. -/
theorem result (c : Dev nD) (i : Fin 8192) (k : Fin 7) :
    (W9 (F := Ideal) m ρ c (Proc.devRef .tc main_v49) : S8192x7.Idx → EReal) (ix2 i k)
      = kernelOut (toMat (m ((c : Thread nD τ).loc main_arg0)))
          (toMat (V1 (F := Ideal) m ρ c main_v32))
          (fun i => (V1 (F := Ideal) m ρ c main_v14 : S8192x1.Idx → EReal) (ix2 i 0))
          (fun i => (V1 (F := Ideal) m ρ c main_v16 : S8192x1.Idx → EReal) (ix2 i 0))
          (toMat (m ((c : Thread nD τ).loc main_arg3))) (toMat (m ((c : Thread nD τ).loc main_arg4)))
          (toMat (m ((c : Thread nD τ).loc main_arg5))) (toMat (m ((c : Thread nD τ).loc main_arg6)))
          (Ideal.ofBits .f32 0x3F000000#32) i k := by
  refine (congrFun (W9_v49 m ρ c) (ix2 i k)).trans ?_
  refine (half_eq _ _ _ _ _ (M45 m ρ c i k) (M46 m ρ c i k)).trans ?_
  rfl

end Cert.KernelIdeal.KVal
end
-- ==== Proof.IndexRead.lean ====
/-
  Reading the host's indexed operations at an index, for the index layouts of this program.

  An edge list is an array of 131072 × 2 words.  A scatter whose index array has one column sends update e
  to the row that column names; one whose index array is the edge list itself sends update e to the pair
  (first word, second word); a row gather reads, for output row e, the operand's row named by the word.
  Each lemma unfolds the operation's dimension numbers once and states the result as a sum (or a choice)
  over the entries e that land on the index asked for.
-/
import Idealize.ShloMosaic.PureOps.Ideal
import Idealize.ShloMosaic.Lib.ValueIdx

noncomputable section

namespace Cert.IndexRead

open Idealize.ShloMosaic Idealize.ShloMosaic.ValueIdx

abbrev SN : Shape := ⟨1, ![8192]⟩
abbrev SE : Shape := ⟨1, ![131072]⟩
abbrev SE1 : Shape := ⟨2, ![131072, 1]⟩
abbrev SE2 : Shape := ⟨2, ![131072, 2]⟩
abbrev SNN : Shape := ⟨2, ![8192, 8192]⟩
abbrev SNp (p : Nat) : Shape := ⟨2, ![8192, p]⟩
abbrev SEp (p : Nat) : Shape := ⟨2, ![131072, p]⟩

/-- The dimension numbers of a scalar scatter through one index column (a segment sum of scalars). -/
abbrev dScalar (hwf : ScatterDims.WF SN SE1 SE [] [0] [0] 1) : ScatterDims SN SE1 SE :=
  { updateWindowDims := [], insertedWindowDims := [0], scatterDimsToOperandDims := [0], indexVectorDim := 1, wf := hwf }

/-- The dimension numbers of a scalar scatter into a matrix through a two-column index array. -/
abbrev dPair (hwf : ScatterDims.WF SNN SE2 SE [] [0, 1] [0, 1] 1) : ScatterDims SNN SE2 SE :=
  { updateWindowDims := [], insertedWindowDims := [0, 1], scatterDimsToOperandDims := [0, 1], indexVectorDim := 1, wf := hwf }

/-- The dimension numbers of a scatter of whole rows through one index column (a segment sum of rows). -/
abbrev dRows (p : Nat) (hwf : ScatterDims.WF (SNp p) SE1 (SEp p) [1] [0] [0] 1) : ScatterDims (SNp p) SE1 (SEp p) :=
  { updateWindowDims := [1], insertedWindowDims := [0], scatterDimsToOperandDims := [0], indexVectorDim := 1, wf := hwf }

/-- The dimension numbers of a gather of whole rows through one index column. -/
abbrev gRows (p : Nat) (hwf : GatherDims.WF (SNp p) SE1 (SEp p) [1] [0] [] [0] [] 1 ![1, p]) : GatherDims (SNp p) SE1 (SEp p) :=
  { offsetDims := [1], collapsedSliceDims := [0], operandBatchingDims := [], startIndicesBatchingDims := [],
    startIndexMap := [0], indexVectorDim := 1, sliceSizes := ![1, p], wf := hwf }

/-! ### Where an update lands -/

/-- An update lands on the index i exactly when start plus window coordinate is i's coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    constructor
    · intro he a
      have hi : i = _ := (Option.some.inj he).symm
      rw [hi]
      exact (Int.toNat_of_nonneg (h a).1).symm
    · intro hall
      congr 1
      funext a
      refine Fin.ext ?_
      show (d.start j idx a + (d.window j a : Int)).toNat = (i a).val
      rw [hall a]; rfl
  · next h =>
    constructor
    · intro he; cases he
    · intro hall
      exfalso; apply h; intro a
      rw [hall a]
      exact ⟨Int.natCast_nonneg _, by exact_mod_cast (i a).isLt⟩

/-- One index column: the start on the operand's axis is the word entry (j 0) names, read signed. -/
theorem dScalar_start (hwf : ScatterDims.WF SN SE1 SE [] [0] [0] 1) {w : Nat} (j : SE.Idx) (idx : IVec SE1 w) :
    (dScalar hwf).start j idx 0 = (idx (ix2 (j 0) 0)).toInt := by
  unfold ScatterDims.start
  rw [dif_pos (show (0 : Fin 1) ∈ (dScalar hwf).scatterDimsToOperandDims from List.mem_singleton.mpr rfl)]
  congr 2
  funext b; refine Fin.ext ?_
  match b with
  | ⟨0, _⟩ => rfl
  | ⟨1, _⟩ => rfl

/-- One index column, scalar updates: the operand's one axis is inserted, so the window coordinate is 0. -/
theorem dScalar_window (hwf : ScatterDims.WF SN SE1 SE [] [0] [0] 1) (j : SE.Idx) :
    (dScalar hwf).window j 0 = 0 := by
  unfold ScatterDims.window
  rw [dif_neg (show (0 : Fin 1) ∉ SN.kept [0] from by decide)]

/-- One index column, scalar updates: update j lands on i exactly when its word is i. -/
theorem dScalar_hit (hwf : ScatterDims.WF SN SE1 SE [] [0] [0] 1) {w : Nat} (j : SE.Idx) (idx : IVec SE1 w) (i : Fin 8192) :
    (dScalar hwf).resultIdx? j idx = some (ix1 i) ↔ (idx (ix2 (j 0) 0)).toInt = (i.val : Int) := by
  rw [resultIdx?_eq_some_iff]
  constructor
  · intro h
    have h0 := h 0
    rw [dScalar_start, dScalar_window] at h0
    simpa using h0
  · intro h a
    obtain rfl : a = 0 := Subsingleton.elim _ _
    rw [dScalar_start, dScalar_window, h]
    simp

/-- A rank-1 index set is its coordinate's range. -/
def idxEquiv1 {n : Nat} : (⟨1, ![n]⟩ : Shape).Idx ≃ Fin n where
  toFun i := i 0
  invFun e := ix1 e
  left_inv i := (eq_ix1 i).symm
  right_inv _ := rfl

/-! ### The pair layout -/

/-- Two index columns: the start on the first operand axis is the first word of entry (j 0). -/
theorem dPair_start0 (hwf : ScatterDims.WF SNN SE2 SE [] [0, 1] [0, 1] 1) {w : Nat} (j : SE.Idx) (idx : IVec SE2 w) :
    (dPair hwf).start j idx 0 = (idx (ix2 (j 0) 0)).toInt := by
  unfold ScatterDims.start
  rw [dif_pos (show (0 : Fin 2) ∈ (dPair hwf).scatterDimsToOperandDims from by simp)]
  congr 2
  funext b; refine Fin.ext ?_
  match b with
  | ⟨0, _⟩ => rfl
  | ⟨1, _⟩ => rfl

/-- Two index columns: the start on the second operand axis is the second word of entry (j 0). -/
theorem dPair_start1 (hwf : ScatterDims.WF SNN SE2 SE [] [0, 1] [0, 1] 1) {w : Nat} (j : SE.Idx) (idx : IVec SE2 w) :
    (dPair hwf).start j idx 1 = (idx (ix2 (j 0) 1)).toInt := by
  unfold ScatterDims.start
  rw [dif_pos (show (1 : Fin 2) ∈ (dPair hwf).scatterDimsToOperandDims from by simp)]
  congr 2
  funext b; refine Fin.ext ?_
  match b with
  | ⟨0, _⟩ => rfl
  | ⟨1, _⟩ => rfl

/-- Two index columns, scalar updates: both operand axes are inserted, so the window coordinate is 0. -/
theorem dPair_window (hwf : ScatterDims.WF SNN SE2 SE [] [0, 1] [0, 1] 1) (j : SE.Idx) (a : Fin 2) :
    (dPair hwf).window j a = 0 := by
  unfold ScatterDims.window
  rw [dif_neg (show a ∉ SNN.kept [0, 1] from by revert a; decide)]

/-- Two index columns, scalar updates: update j lands on (i, k) exactly when its two words are i and k. -/
theorem dPair_hit (hwf : ScatterDims.WF SNN SE2 SE [] [0, 1] [0, 1] 1) {w : Nat} (j : SE.Idx) (idx : IVec SE2 w) (i k : Fin 8192) :
    (dPair hwf).resultIdx? j idx = some (ix2 i k)
      ↔ (idx (ix2 (j 0) 0)).toInt = (i.val : Int) ∧ (idx (ix2 (j 0) 1)).toInt = (k.val : Int) := by
  rw [resultIdx?_eq_some_iff]
  constructor
  · intro h
    have h0 : (dPair hwf).start j idx 0 + ((dPair hwf).window j 0 : Int) = (i.val : Int) := h 0
    have h1 : (dPair hwf).start j idx 1 + ((dPair hwf).window j 1 : Int) = (k.val : Int) := h 1
    rw [dPair_start0, dPair_window] at h0
    rw [dPair_start1, dPair_window] at h1
    exact ⟨by simpa using h0, by simpa using h1⟩
  · intro h a
    match a with
    | ⟨0, _⟩ =>
      show (dPair hwf).start j idx 0 + ((dPair hwf).window j 0 : Int) = _
      rw [dPair_start0, dPair_window, h.1]; simp
    | ⟨1, _⟩ =>
      show (dPair hwf).start j idx 1 + ((dPair hwf).window j 1 : Int) = _
      rw [dPair_start1, dPair_window, h.2]; simp

/-! ### The rows layout -/

/-- One index column, row updates: the start on the row axis is the word of entry (j 0). -/
theorem dRows_start0 {p : Nat} (hwf : ScatterDims.WF (SNp p) SE1 (SEp p) [1] [0] [0] 1) {w : Nat} (j : (SEp p).Idx) (idx : IVec SE1 w) :
    (dRows p hwf).start j idx 0 = (idx (ix2 (j 0) 0)).toInt := by
  unfold ScatterDims.start
  rw [dif_pos (show (0 : Fin 2) ∈ (dRows p hwf).scatterDimsToOperandDims from by simp)]
  congr 2
  funext b; refine Fin.ext ?_
  match b with
  | ⟨0, _⟩ => rfl
  | ⟨1, _⟩ => rfl

/-- One index column, row updates: the column axis is not named by the index map, so its start is 0. -/
theorem dRows_start1 {p : Nat} (hwf : ScatterDims.WF (SNp p) SE1 (SEp p) [1] [0] [0] 1) {w : Nat} (j : (SEp p).Idx) (idx : IVec SE1 w) :
    (dRows p hwf).start j idx 1 = 0 := by
  unfold ScatterDims.start
  rw [dif_neg (show (1 : Fin 2) ∉ (dRows p hwf).scatterDimsToOperandDims from by simp)]

/-- One index column, row updates: the row axis is inserted, so its window coordinate is 0. -/
theorem dRows_window0 {p : Nat} (hwf : ScatterDims.WF (SNp p) SE1 (SEp p) [1] [0] [0] 1) (j : (SEp p).Idx) :
    (dRows p hwf).window j 0 = 0 := by
  unfold ScatterDims.window
  rw [dif_neg (show (0 : Fin 2) ∉ (dRows p hwf).sKept from (by decide : (0 : Fin 2) ∉ (List.finRange 2).filter (· ∉ [0])))]

/-- One index column, row updates: the window coordinate on the column axis is the update's column. -/
theorem dRows_window1 {p : Nat} (hwf : ScatterDims.WF (SNp p) SE1 (SEp p) [1] [0] [0] 1) (j : (SEp p).Idx) :
    (dRows p hwf).window j 1 = (j 1).val := by
  unfold ScatterDims.window
  rw [dif_pos (show (1 : Fin 2) ∈ (dRows p hwf).sKept from (by decide : (1 : Fin 2) ∈ (List.finRange 2).filter (· ∉ [0])))]
  rfl

/-- One index column, row updates: update (e, k') lands on (i, k) exactly when e's word is i and k' = k. -/
theorem dRows_hit {p : Nat} (hwf : ScatterDims.WF (SNp p) SE1 (SEp p) [1] [0] [0] 1) {w : Nat} (j : (SEp p).Idx) (idx : IVec SE1 w)
    (i : Fin 8192) (k : Fin p) :
    (dRows p hwf).resultIdx? j idx = some (ix2 i k) ↔ (idx (ix2 (j 0) 0)).toInt = (i.val : Int) ∧ j 1 = k := by
  rw [resultIdx?_eq_some_iff]
  constructor
  · intro h
    have h0 : (dRows p hwf).start j idx 0 + ((dRows p hwf).window j 0 : Int) = (i.val : Int) := h 0
    have h1 : (dRows p hwf).start j idx 1 + ((dRows p hwf).window j 1 : Int) = (k.val : Int) := h 1
    rw [dRows_start0, dRows_window0] at h0
    rw [dRows_start1, dRows_window1] at h1
    refine ⟨by simpa using h0, Fin.ext ?_⟩
    have : ((j 1).val : Int) = (k.val : Int) := by simpa using h1
    exact_mod_cast this
  · intro h a
    match a with
    | ⟨0, _⟩ =>
      show (dRows p hwf).start j idx 0 + ((dRows p hwf).window j 0 : Int) = _
      rw [dRows_start0, dRows_window0, h.1]; simp
    | ⟨1, _⟩ =>
      show (dRows p hwf).start j idx 1 + ((dRows p hwf).window j 1 : Int) = _
      rw [dRows_start1, dRows_window1, h.2]; simp

/-! ### The row gather -/

/-! ### A scatter that sets one constant -/

/-- A left fold whose step, read at the index t, keeps the accumulator's value unless the step's item hits,
    is the starting value at t when no item of the list hits. -/
theorem foldl_at_of_no_hit {β ι κ : Type} (hit : ι → Prop) (t : κ) (g : (κ → β) → ι → (κ → β))
    (hneg : ∀ r n, ¬ hit n → g r n t = r t) :
    ∀ (L : List ι) (r : κ → β), (¬ ∃ n ∈ L, hit n) → L.foldl g r t = r t := by
  intro L
  induction L with
  | nil => intro r _; rfl
  | cons n L ih =>
    intro r h
    rw [List.foldl_cons, ih (g r n) (fun ⟨m, hm, hh⟩ => h ⟨m, List.mem_cons_of_mem _ hm, hh⟩)]
    exact hneg r n (fun hh => h ⟨n, List.mem_cons_self, hh⟩)

/-- The same fold, when a hitting step writes the constant v at t: it is v at t once some item of the list hits. -/
theorem foldl_at_of_hit {β ι κ : Type} (hit : ι → Prop) (v : β) (t : κ) (g : (κ → β) → ι → (κ → β))
    (hpos : ∀ r n, hit n → g r n t = v) (hneg : ∀ r n, ¬ hit n → g r n t = r t) :
    ∀ (L : List ι) (r : κ → β), (∃ n ∈ L, hit n) → L.foldl g r t = v := by
  intro L
  induction L with
  | nil => intro r ⟨n, hn, _⟩; cases hn
  | cons n L ih =>
    intro r h
    rw [List.foldl_cons]
    by_cases hL : ∃ m ∈ L, hit m
    · exact ih (g r n) hL
    · rw [foldl_at_of_no_hit hit t g hneg L (g r n) hL]
      obtain ⟨m, hm, hh⟩ := h
      rcases List.mem_cons.mp hm with rfl | hm'
      · exact hpos r m hh
      · exact absurd ⟨m, hm', hh⟩ hL

/-- One step of a constant-setting scatter, read at t, when the step's update does not land on t. -/
theorem setStep_miss {α : Type} {s : Shape} (v : α) (t : s.Idx) (r : s.Idx → α) (o : Option s.Idx) (h : ¬ o = some t) :
    (match o with
      | some i0 => fun i' => if i' = i0 then v else r i'
      | none => r) t = r t := by
  cases o with
  | none => rfl
  | some i0 =>
    dsimp only
    exact if_neg (fun (h' : t = i0) => h (by rw [h']))

/-- One step of a constant-setting scatter, read at t, when the step's update lands on t. -/
theorem setStep_hit {α : Type} {s : Shape} (v : α) (t : s.Idx) (r : s.Idx → α) (o : Option s.Idx) (h : o = some t) :
    (match o with
      | some i0 => fun i' => if i' = i0 then v else r i'
      | none => r) t = v := by
  subst h
  dsimp only
  exact if_pos rfl

/-- A scatter that sets the constant v into the constant x0, read at t: v when some update lands on t, else x0. -/
theorem scatter_set_at {α : Type} {s si u : Shape} (d : ScatterDims s si u) {w : Nat} (idx : IVec si w) (x0 v : α) (t : s.Idx) :
    ((∃ j : u.Idx, d.resultIdx? j idx = some t) → Host.scatter d (fun _ b => b) (fun _ => x0) idx (fun _ => v) t = v) ∧
    ((¬ ∃ j : u.Idx, d.resultIdx? j idx = some t) → Host.scatter d (fun _ b => b) (fun _ => x0) idx (fun _ => v) t = x0) := by
  unfold Host.scatter
  constructor
  · intro ⟨j, hj⟩
    refine foldl_at_of_hit (fun n => d.resultIdx? (u.rowMajor.symm n) idx = some t) v t _ ?_ ?_ _ _ ?_
    · intro r n hn
      exact setStep_hit v t r _ hn
    · intro r n hn
      exact setStep_miss v t r _ hn
    · exact ⟨u.rowMajor j, List.mem_finRange _, by rw [Equiv.symm_apply_apply]; exact hj⟩
  · intro hno
    refine foldl_at_of_no_hit (fun n => d.resultIdx? (u.rowMajor.symm n) idx = some t) t _ ?_ _ _ ?_
    · intro r n hn
      exact setStep_miss v t r _ hn
    · rintro ⟨n, _, hn⟩
      exact hno ⟨u.rowMajor.symm n, hn⟩

/-! ### The five readings -/

/-- A scalar segment sum at node i: the operand's entry plus the updates of the entries whose word is i. -/
theorem scatterAdd_scalar (hwf : ScatterDims.WF SN SE1 SE [] [0] [0] 1) (x : SN.Idx → EReal) (idx : IVec SE1 32)
    (upd : SE.Idx → EReal) (i : Fin 8192) :
    Ideal.hostScatterAdd (dScalar hwf) x idx upd (ix1 i)
      = x (ix1 i) + ∑ e ∈ Finset.univ.filter (fun e : Fin 131072 => (idx (ix2 e 0)).toInt = (i.val : Int)), upd (ix1 e) := by
  show x (ix1 i) + _ = x (ix1 i) + _
  refine congrArg (x (ix1 i) + ·) ?_
  refine Finset.sum_equiv idxEquiv1 ?_ ?_
  · intro j
    simp only [Finset.mem_filter, Finset.mem_univ, true_and]
    exact dScalar_hit hwf j idx i
  · intro j _
    exact congrArg upd (eq_ix1 j)

/-- A scalar scatter-add into a matrix at (i, j): the operand's entry plus the updates of the entries naming (i, j). -/
theorem scatterAdd_pair (hwf : ScatterDims.WF SNN SE2 SE [] [0, 1] [0, 1] 1) (x : SNN.Idx → EReal) (idx : IVec SE2 32)
    (upd : SE.Idx → EReal) (i j : Fin 8192) :
    Ideal.hostScatterAdd (dPair hwf) x idx upd (ix2 i j)
      = x (ix2 i j) + ∑ e ∈ Finset.univ.filter (fun e : Fin 131072 =>
          (idx (ix2 e 0)).toInt = (i.val : Int) ∧ (idx (ix2 e 1)).toInt = (j.val : Int)), upd (ix1 e) := by
  show x (ix2 i j) + _ = x (ix2 i j) + _
  refine congrArg (x (ix2 i j) + ·) ?_
  refine Finset.sum_equiv idxEquiv1 ?_ ?_
  · intro u
    simp only [Finset.mem_filter, Finset.mem_univ, true_and]
    exact dPair_hit hwf u idx i j
  · intro u _
    exact congrArg upd (eq_ix1 u)

/-- A scatter that SETS one constant v into a constant matrix x0, at (i, j): v where some entry names (i, j), else x0. -/
theorem scatterSet_pair {α : Type} (hwf : ScatterDims.WF SNN SE2 SE [] [0, 1] [0, 1] 1) (x0 v : α) (idx : IVec SE2 32)
    (i j : Fin 8192) :
    Host.scatter (dPair hwf) (fun _ b => b) (fun _ => x0) idx (fun _ => v) (ix2 i j)
      = if ∃ e : Fin 131072, (idx (ix2 e 0)).toInt = (i.val : Int) ∧ (idx (ix2 e 1)).toInt = (j.val : Int) then v else x0 := by
  by_cases he : ∃ e : Fin 131072, (idx (ix2 e 0)).toInt = (i.val : Int) ∧ (idx (ix2 e 1)).toInt = (j.val : Int)
  · rw [if_pos he]
    obtain ⟨e, hE⟩ := he
    exact (scatter_set_at (dPair hwf) idx x0 v (ix2 i j)).1 ⟨ix1 e, (dPair_hit hwf (ix1 e) idx i j).mpr hE⟩
  · rw [if_neg he]
    refine (scatter_set_at (dPair hwf) idx x0 v (ix2 i j)).2 ?_
    rintro ⟨u, hu⟩
    exact he ⟨u 0, (dPair_hit hwf u idx i j).mp hu⟩

/-- A segment sum of rows at (i, k): the operand's entry plus column k of the update rows whose word is i. -/
theorem scatterAdd_rows {p : Nat} (hwf : ScatterDims.WF (SNp p) SE1 (SEp p) [1] [0] [0] 1) (x : (SNp p).Idx → EReal)
    (idx : IVec SE1 32) (upd : (SEp p).Idx → EReal) (i : Fin 8192) (k : Fin p) :
    Ideal.hostScatterAdd (dRows p hwf) x idx upd (ix2 i k)
      = x (ix2 i k) + ∑ e ∈ Finset.univ.filter (fun e : Fin 131072 => (idx (ix2 e 0)).toInt = (i.val : Int)), upd (ix2 e k) := by
  show x (ix2 i k) + _ = x (ix2 i k) + _
  refine congrArg (x (ix2 i k) + ·) ?_
  refine Finset.sum_nbij' (fun u => u 0) (fun e => ix2 e k) ?_ ?_ ?_ ?_ ?_
  · intro u hu
    simp only [Finset.mem_filter, Finset.mem_univ, true_and] at hu
    exact Finset.mem_filter.mpr ⟨Finset.mem_univ _, ((dRows_hit hwf u idx i k).mp hu).1⟩
  · intro e he
    simp only [Finset.mem_filter, Finset.mem_univ, true_and] at he
    exact Finset.mem_filter.mpr ⟨Finset.mem_univ _, (dRows_hit hwf (ix2 e k) idx i k).mpr ⟨he, rfl⟩⟩
  · intro u hu
    simp only [Finset.mem_filter, Finset.mem_univ, true_and] at hu
    have hk := ((dRows_hit hwf u idx i k).mp hu).2
    rw [← hk]; exact (eq_ix2 u).symm
  · intro e _; rfl
  · intro u hu
    simp only [Finset.mem_filter, Finset.mem_univ, true_and] at hu
    have hk := ((dRows_hit hwf u idx i k).mp hu).2
    rw [← hk]; exact congrArg upd (eq_ix2 u)

/-- A row gather at (e, k): where entry e's word is the node r, the operand's entry (r, k). -/
theorem gather_rows {α : Type} {p : Nat} (hwf : GatherDims.WF (SNp p) SE1 (SEp p) [1] [0] [] [0] [] 1 ![1, p])
    (x : (SNp p).Idx → α) (idx : IVec SE1 32) (e : Fin 131072) (k : Fin p) (r : Fin 8192)
    (h : (idx (ix2 e 0)).toInt = (r.val : Int)) :
    Host.gather (gRows p hwf) x idx (ix2 e k) = x (ix2 r k) := by
  unfold Host.gather
  congr 1
  funext a
  refine Fin.ext ?_
  show (gRows p hwf).start (ix2 e k) idx a + (gRows p hwf).batchCoord (ix2 e k) a + (gRows p hwf).offCoord (ix2 e k) a = _
  rw [GatherDims.batchCoord_eq_zero _ _ _ List.not_mem_nil, Nat.add_zero]
  match a with
  | ⟨0, _⟩ =>
    show (gRows p hwf).start (ix2 e k) idx 0 + (gRows p hwf).offCoord (ix2 e k) 0 = r.val
    rw [GatherDims.offCoord_eq_zero _ _ _ (fun hm => ((GatherDims.mem_sKept _ _).mp hm).1 (List.mem_singleton.mpr rfl)), Nat.add_zero]
    unfold GatherDims.start
    rw [dif_pos (show (0 : Fin 2) ∈ (gRows p hwf).startIndexMap from List.mem_singleton.mpr rfl)]
    have hsi : (gRows p hwf).siIdx (ix2 e k) ⟨List.idxOf (0 : Fin 2) (gRows p hwf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, h]
    show min ((r.val : Int)).toNat (8192 - 1) = r.val
    rw [Int.toNat_natCast]
    exact Nat.min_eq_left (by omega)
  | ⟨1, _⟩ =>
    show (gRows p hwf).start (ix2 e k) idx 1 + (gRows p hwf).offCoord (ix2 e k) 1 = k.val
    unfold GatherDims.start
    rw [dif_neg (show (1 : Fin 2) ∉ (gRows p hwf).startIndexMap from by simp), Nat.zero_add]
    unfold GatherDims.offCoord
    rw [dif_pos (show (1 : Fin 2) ∈ (gRows p hwf).sKept from (by decide : (1 : Fin 2) ∈ (List.finRange 2).filter (· ∉ [0] ++ [])))]
    rfl

end Cert.IndexRead

end
-- ==== Proof.KHost.lean ====
/-
  What the kernel program's first host stretch builds from the edge list.

  The adjacency array starts at zero and is SET to one at every pair the edge list names (after the usual wrap of
  a negative word, which a node number never needs): its entry (i, j) is one where some entry names (i, j), else
  zero.  The two reciprocal-degree columns are one divided by a segment sum of ones over the first, resp. second,
  word.  The float words met here are 1, 0, one half and 2 in f32 and 1, 0 in bf16.
-/
import proofs.«401971_j55422257988077_1_alg».proof.Proof.KernelIdealFrame
import proofs.«401971_j55422257988077_1_alg».proof.Proof.Spec
import proofs.«401971_j55422257988077_1_alg».proof.Proof.IndexRead
import Idealize.ShloMosaic.Lib.StableHlo.Run
import Idealize.ShloMosaic.Lib.StableHlo.Predicate
import Idealize.ShloMosaic.Lib.Pipeline.Value
import Idealize.ShloMosaic.Lib.ValueIdx

set_option maxRecDepth 16384

noncomputable section

namespace Cert.Consts

open Idealize.ShloMosaic

theorem ofBits_one_f32 : Ideal.ofBits .f32 0x3F800000#32 = ((1 : ℝ) : EReal) := by
  simp [Ideal.ofBits, Ideal.ieee, -EReal.coe_mul]; norm_num
theorem ofBits_half_f32 : Ideal.ofBits .f32 0x3F000000#32 = ((1 / 2 : ℝ) : EReal) := by
  simp [Ideal.ofBits, Ideal.ieee, -EReal.coe_mul]; norm_num
theorem ofBits_two_f32 : Ideal.ofBits .f32 0x40000000#32 = ((2 : ℝ) : EReal) := by
  simp [Ideal.ofBits, Ideal.ieee, -EReal.coe_mul]; norm_num
theorem ofBits_one_bf16 : Ideal.ofBits .bf16 0x3F80#16 = ((1 : ℝ) : EReal) := by
  simp [Ideal.ofBits, Ideal.ieee, -EReal.coe_mul]; norm_num
theorem ofBits_zero_bf16 : Ideal.ofBits .bf16 0x0000#16 = ((0 : ℝ) : EReal) := by
  simp [Ideal.ofBits, Ideal.ieee]
theorem ofBits_zero_f32 : Ideal.ofBits .f32 0x00000000#32 = ((0 : ℝ) : EReal) := by
  simp [Ideal.ofBits, Ideal.ieee]

end Cert.Consts

namespace Cert.KernelIdeal.KVal

open Idealize.ShloMosaic Idealize.ShloMosaic.TcCoe Idealize.SL.Sem Idealize.ShloMosaic.Pipeline Idealize.ShloMosaic.ValueIdx
open Cert.KernelIdeal Cert.KernelIdeal.Gen Cert.Spec

/-! ## The stretch's intermediate arrays, named -/

/-- The first words of the edge list's entries, as a flat array. -/
def colA (x1 : IVec S131072x2 32) : IVec S131072 32 :=
  fun i => shapeCast S131072 (extractStridedSlice S131072x1 ![0, 0] x1 slices_S131072x2_S131072x1_0_0) shapeCasts_S131072x1_S131072 i

/-- The second words of the edge list's entries, as a flat array. -/
def colB (x1 : IVec S131072x2 32) : IVec S131072 32 :=
  fun i => shapeCast S131072 (extractStridedSlice S131072x1 ![0, 1] x1 slices_S131072x2_S131072x1_0_1) shapeCasts_S131072x1_S131072 i

/-- The wrap of a negative word: 8192 is added to a word below zero, any other word is kept. -/
def wrap (v : IVec S131072 32) : IVec S131072 32 :=
  select (cmpi .slt v (broadcastInDim S131072 ![] bcast_S_S131072 (constantI S_ 32 0#32)))
    (addi v (broadcastInDim S131072 ![] bcast_S_S131072 (constantI S_ 32 8192#32))) v

/-- The two wrapped columns side by side: the index array of the adjacency scatter. -/
def pairs (x1 : IVec S131072x2 32) : IVec S131072x2 32 :=
  concatenate S131072x2 1
    [⟨S131072x1, broadcastInDim S131072x1 ![0] bcast_S131072_S131072x1_0 (wrap (colA x1))⟩,
     ⟨S131072x1, broadcastInDim S131072x1 ![0] bcast_S131072_S131072x1_0 (wrap (colB x1))⟩]
    concatenates_S131072x1_S131072x1_S131072x2_d1

/-- The adjacency array: zeros, set to one at every pair the index array names. -/
def adj (x1 : IVec S131072x2 32) : FVec Ideal S8192x8192 .bf16 :=
  Host.scatter scatter_S8192x8192_S131072x2_S131072_n_01_01_1 (fun _ b => b)
    (broadcastInDim S8192x8192 ![] bcast_S_S8192x8192 (constant (F := Ideal) S_ .bf16 0x0000#16))
    (pairs x1)
    (broadcastInDim S131072 ![] bcast_S_S131072 (constant (F := Ideal) S_ .bf16 0x3F80#16))

/-- The segment sum of ones over a column of words: how many entries carry each node. -/
def deg (v : IVec S131072 32) : FVec Ideal S8192 .f32 :=
  Host.scatterAdd scatter_S8192_S131072x1_S131072_n_0_0_1
    (broadcastInDim S8192 ![] bcast_S_S8192 (constant (F := Ideal) S_ .f32 0x00000000#32))
    (broadcastInDim S131072x1 ![0] bcast_S131072_S131072x1_0 v)
    (broadcastInDim S131072 ![] bcast_S_S131072 (constant (F := Ideal) S_ .f32 0x3F800000#32))

/-- One divided by the segment sum, as a column. -/
def inv (v : IVec S131072 32) : FVec Ideal S8192x1 .f32 :=
  Host.divf (broadcastInDim S8192x1 ![] bcast_S_S8192x1 (constant (F := Ideal) S_ .f32 0x3F800000#32))
    (broadcastInDim S8192x1 ![0] bcast_S8192_S8192x1_0 (deg v))

/-! ## The named arrays at an index -/

theorem colA_apply (x1 : IVec S131072x2 32) (e : Fin 131072) : colA x1 (ix1 e) = x1 (ix2 e 0) := by
  unfold colA
  refine (shapeCast_apply _ shapeCasts_S131072x1_S131072 (ix1 e) (ix2 e (0 : Fin 1)) ?_).trans ?_
  · rw [Shape.rowMajor_val_two, Shape.rowMajor_val_one]
    show e.val * 1 + 0 = e.val
    omega
  · refine extractStridedSlice_apply ![0, 0] x1 slices_S131072x2_S131072x1_0_0 (ix2 e (0 : Fin 1)) (ix2 e (0 : Fin 2)) fun a => ?_
    match a with
    | ⟨0, _⟩ => show e.val = 0 + e.val; omega
    | ⟨1, _⟩ => rfl

theorem colB_apply (x1 : IVec S131072x2 32) (e : Fin 131072) : colB x1 (ix1 e) = x1 (ix2 e 1) := by
  unfold colB
  refine (shapeCast_apply _ shapeCasts_S131072x1_S131072 (ix1 e) (ix2 e (0 : Fin 1)) ?_).trans ?_
  · rw [Shape.rowMajor_val_two, Shape.rowMajor_val_one]
    show e.val * 1 + 0 = e.val
    omega
  · refine extractStridedSlice_apply ![0, 1] x1 slices_S131072x2_S131072x1_0_1 (ix2 e (0 : Fin 1)) (ix2 e (1 : Fin 2)) fun a => ?_
    match a with
    | ⟨0, _⟩ => show e.val = 0 + e.val; omega
    | ⟨1, _⟩ => rfl

/-- A word that is not negative is kept by the wrap. -/
theorem wrap_apply (v : IVec S131072 32) (i : S131072.Idx) (h : 0 ≤ (v i).toInt) : wrap v i = v i := by
  unfold wrap
  rw [select_apply]
  have hc : cmpi .slt v (broadcastInDim S131072 ![] bcast_S_S131072 (constantI S_ 32 0#32)) i = 0#1 := by
    show IntOp.cmpi .slt (v i) (0#32) = 0#1
    unfold IntOp.cmpi
    show BitVec.ofBool ((v i).slt 0#32) = 0#1
    have : (v i).slt 0#32 = false := by
      rw [BitVec.slt]; simp only [BitVec.toInt_zero, decide_eq_false_iff_not, not_lt]; exact h
    rw [this]; rfl
  rw [hc, select_zero]

/-- A one-column view of a flat array at (e, 0) is the flat array at e. -/
theorem col1_apply {α : Type} (v : S131072.Idx → α) (e : Fin 131072) :
    broadcastInDim S131072x1 ![0] bcast_S131072_S131072x1_0 v (ix2 e 0) = v (ix1 e) := by
  refine broadcastInDim_apply ![0] bcast_S131072_S131072x1_0 v (ix2 e (0 : Fin 1)) (ix1 e) fun a => ?_
  match a with
  | ⟨0, _⟩ => rfl

/-- The index array at (e, 0) is the wrapped first word, at (e, 1) the wrapped second word. -/
theorem pairs_apply_zero (x1 : IVec S131072x2 32) (e : Fin 131072) : pairs x1 (ix2 e 0) = wrap (colA x1) (ix1 e) := by
  unfold pairs
  refine (concatenate_pair_apply_left (t := S131072x2) (s₁ := S131072x1) (s₂ := S131072x1) (1 : Fin 2) _ _ concatenates_S131072x1_S131072x1_S131072x2_d1 (ix2 e (0 : Fin 2)) rfl
    (ix2 e (0 : Fin 1)) fun b => ?_).trans (col1_apply _ e)
  match b with
  | ⟨0, _⟩ => rfl
  | ⟨1, _⟩ => rfl

theorem pairs_apply_one (x1 : IVec S131072x2 32) (e : Fin 131072) : pairs x1 (ix2 e 1) = wrap (colB x1) (ix1 e) := by
  unfold pairs
  refine (concatenate_pair_apply_right (t := S131072x2) (s₁ := S131072x1) (s₂ := S131072x1) (1 : Fin 2) _ _ concatenates_S131072x1_S131072x1_S131072x2_d1 (ix2 e (1 : Fin 2)) rfl rfl
    (ix2 e (0 : Fin 1)) (fun b hb => ?_) ?_).trans (col1_apply _ e)
  · match b with
    | ⟨0, _⟩ => rfl
    | ⟨1, _⟩ => exact absurd rfl hb
  · rfl

/-! ## The words as node numbers -/

/-- Under the range condition a word of the edge list is not negative. -/
theorem toInt_nonneg (x1 : IVec S131072x2 32) (hr : InRange x1) (e : Fin 131072) (col : Fin 2) :
    0 ≤ (x1 (ix2 e col)).toInt := by
  rw [hr e col]; exact Int.natCast_nonneg _

/-- Two nodes are equal when their numbers are, as integers. -/
theorem node_eq_iff (a b : Fin 8192) : ((a.val : Int) = (b.val : Int)) ↔ a = b := by
  rw [Int.natCast_inj, Fin.val_inj]

/-- The index array's first column carries the first node of each entry. -/
theorem pairs_toInt_zero (x1 : IVec S131072x2 32) (hr : InRange x1) (e : Fin 131072) :
    (pairs x1 (ix2 e 0)).toInt = ((node x1 0 e).val : Int) := by
  rw [pairs_apply_zero, wrap_apply _ _ (by rw [colA_apply]; exact toInt_nonneg x1 hr e 0), colA_apply]
  exact hr e 0

/-- The index array's second column carries the second node of each entry. -/
theorem pairs_toInt_one (x1 : IVec S131072x2 32) (hr : InRange x1) (e : Fin 131072) :
    (pairs x1 (ix2 e 1)).toInt = ((node x1 1 e).val : Int) := by
  rw [pairs_apply_one, wrap_apply _ _ (by rw [colB_apply]; exact toInt_nonneg x1 hr e 1), colB_apply]
  exact hr e 1

/-! ## The set scatter, the segment sum and the quotient at an index, over any index array -/

/-- Zeros set to one through an index array, at (i, j): one where the proposition P holds, P being any
    restatement of "some entry names (i, j)". -/
theorem set_at (idx : IVec S131072x2 32) (i j : Fin 8192) (P : Prop) [Decidable P]
    (hP : (∃ e : Fin 131072, (idx (ix2 e 0)).toInt = (i.val : Int) ∧ (idx (ix2 e 1)).toInt = (j.val : Int)) ↔ P) :
    Host.scatter scatter_S8192x8192_S131072x2_S131072_n_01_01_1 (fun _ b => b)
        (broadcastInDim S8192x8192 ![] bcast_S_S8192x8192 (constant (F := Ideal) S_ .bf16 0x0000#16))
        idx
        (broadcastInDim S131072 ![] bcast_S_S131072 (constant (F := Ideal) S_ .bf16 0x3F80#16)) (ix2 i j)
      = if P then Ideal.ofBits .bf16 0x3F80#16 else Ideal.ofBits .bf16 0x0000#16 := by
  refine Eq.trans ?_ ((IndexRead.scatterSet_pair scatter_S8192x8192_S131072x2_S131072_n_01_01_1.wf
    (Ideal.ofBits .bf16 0x0000#16) (Ideal.ofBits .bf16 0x3F80#16) idx i j).trans ?_)
  · rfl
  · by_cases h : P
    · rw [if_pos h, if_pos (hP.mpr h)]
    · rw [if_neg h, if_neg (fun h' => h (hP.mp h'))]

/-- The segment sum of ones at node i: zero plus a one for every entry of the set S, S being any restatement
    of "the entries whose word is i". -/
theorem sum_at (v : IVec S131072 32) (i : Fin 8192) (S : Finset (Fin 131072))
    (hS : ∀ e : Fin 131072, (v (ix1 e)).toInt = (i.val : Int) ↔ e ∈ S) :
    Host.scatterAdd scatter_S8192_S131072x1_S131072_n_0_0_1
        (broadcastInDim S8192 ![] bcast_S_S8192 (constant (F := Ideal) S_ .f32 0x00000000#32))
        (broadcastInDim S131072x1 ![0] bcast_S131072_S131072x1_0 v)
        (broadcastInDim S131072 ![] bcast_S_S131072 (constant (F := Ideal) S_ .f32 0x3F800000#32)) (ix1 i)
      = Ideal.ofBits .f32 0x00000000#32 + ∑ _e ∈ S, Ideal.ofBits .f32 0x3F800000#32 := by
  refine Eq.trans ?_ ((IndexRead.scatterAdd_scalar scatter_S8192_S131072x1_S131072_n_0_0_1.wf
    (broadcastInDim S8192 ![] bcast_S_S8192 (constant (F := Ideal) S_ .f32 0x00000000#32))
    (broadcastInDim S131072x1 ![0] bcast_S131072_S131072x1_0 v)
    (broadcastInDim S131072 ![] bcast_S_S131072 (constant (F := Ideal) S_ .f32 0x3F800000#32)) i).trans ?_)
  · rfl
  · refine congrArg₂ (· + ·) rfl (Finset.sum_congr ?_ fun _ _ => rfl)
    ext e
    rw [Finset.mem_filter, col1_apply]
    exact ⟨fun h => (hS e).mp h.2, fun h => ⟨Finset.mem_univ e, (hS e).mpr h⟩⟩

/-- One divided by a flat array laid out as a column, at (i, 0). -/
theorem quot_at (d : FVec Ideal S8192 .f32) (i : Fin 8192) :
    Host.divf (broadcastInDim S8192x1 ![] bcast_S_S8192x1 (constant (F := Ideal) S_ .f32 0x3F800000#32))
        (broadcastInDim S8192x1 ![0] bcast_S8192_S8192x1_0 d) (ix2 i 0)
      = Ideal.div (Ideal.ofBits .f32 0x3F800000#32) (d (ix1 i)) := by
  have hb : broadcastInDim S8192x1 ![0] bcast_S8192_S8192x1_0 d (ix2 i 0) = d (ix1 i) := by
    refine broadcastInDim_apply ![0] bcast_S8192_S8192x1_0 d (ix2 i (0 : Fin 1)) (ix1 i) fun a => ?_
    match a with
    | ⟨0, _⟩ => rfl
  show Ideal.div (Ideal.ofBits .f32 0x3F800000#32) (broadcastInDim S8192x1 ![0] bcast_S8192_S8192x1_0 d (ix2 i 0)) = _
  rw [hb]

/-! ## The adjacency array and the reciprocal columns at an index -/

theorem adj_at (x1 : IVec S131072x2 32) (hr : InRange x1) (i j : Fin 8192) :
    adj x1 (ix2 i j)
      = if ∃ e : Fin 131072, node x1 0 e = i ∧ node x1 1 e = j
        then Ideal.ofBits .bf16 0x3F80#16 else Ideal.ofBits .bf16 0x0000#16 := by
  unfold adj
  refine set_at (pairs x1) i j _ (exists_congr fun e => and_congr ?_ ?_)
  · rw [pairs_toInt_zero x1 hr e]; exact node_eq_iff _ _
  · rw [pairs_toInt_one x1 hr e]; exact node_eq_iff _ _

/-- The reciprocal column of the first words: one over the number of entries leaving node i, counted in ones. -/
theorem invA_at (x1 : IVec S131072x2 32) (hr : InRange x1) (i : Fin 8192) :
    inv (colA x1) (ix2 i 0)
      = Ideal.div (Ideal.ofBits .f32 0x3F800000#32)
          (Ideal.ofBits .f32 0x00000000#32 + ∑ e ∈ Finset.univ.filter (fun e : Fin 131072 => node x1 0 e = i),
            Ideal.ofBits .f32 0x3F800000#32) := by
  unfold inv
  rw [quot_at]
  unfold deg
  rw [sum_at (colA x1) i (Finset.univ.filter (fun e : Fin 131072 => node x1 0 e = i)) fun e => ?_]
  rw [Finset.mem_filter, colA_apply, hr e 0, node_eq_iff]
  exact ⟨fun h => ⟨Finset.mem_univ e, h⟩, fun h => h.2⟩

/-- The reciprocal column of the second words: one over the number of entries reaching node i, counted in ones. -/
theorem invB_at (x1 : IVec S131072x2 32) (hr : InRange x1) (i : Fin 8192) :
    inv (colB x1) (ix2 i 0)
      = Ideal.div (Ideal.ofBits .f32 0x3F800000#32)
          (Ideal.ofBits .f32 0x00000000#32 + ∑ e ∈ Finset.univ.filter (fun e : Fin 131072 => node x1 1 e = i),
            Ideal.ofBits .f32 0x3F800000#32) := by
  unfold inv
  rw [quot_at]
  unfold deg
  rw [sum_at (colB x1) i (Finset.univ.filter (fun e : Fin 131072 => node x1 1 e = i)) fun e => ?_]
  rw [Finset.mem_filter, colB_apply, hr e 1, node_eq_iff]
  exact ⟨fun h => ⟨Finset.mem_univ e, h⟩, fun h => h.2⟩

variable (m : (ℓ : Loc nD τ sig) → Buf (Elt Ideal) ℓ) (ρ : Dev nD → PrngReg)

/-! ## The three arrays read out of the stretch -/

set_option maxHeartbeats 2000000 in
theorem v32_eq (c : Dev nD) :
    (V1 (F := Ideal) m ρ c main_v32 : FVec Ideal S8192x8192 .bf16) = adj (m ((c : Thread nD τ).loc main_arg1)) := by
  dsimp only [V1, W1, hostOps0]
  after_results_simp
  rfl

set_option maxHeartbeats 2000000 in
theorem v14_eq (c : Dev nD) :
    (V1 (F := Ideal) m ρ c main_v14 : FVec Ideal S8192x1 .f32) = inv (colA (m ((c : Thread nD τ).loc main_arg1))) := by
  dsimp only [V1, W1, hostOps0]
  after_results_simp
  rfl

set_option maxHeartbeats 2000000 in
theorem v16_eq (c : Dev nD) :
    (V1 (F := Ideal) m ρ c main_v16 : FVec Ideal S8192x1 .f32) = inv (colB (m ((c : Thread nD τ).loc main_arg1))) := by
  dsimp only [V1, W1, hostOps0]
  after_results_simp
  rfl

/-! ## The statements -/

/-- The adjacency array at (i, j): one where some entry of the edge list names (i, j), else zero. -/
theorem adj_apply (c : Dev nD) (hr : InRange (m ((c : Thread nD τ).loc main_arg1))) (i j : Fin 8192) :
    (V1 (F := Ideal) m ρ c main_v32 : S8192x8192.Idx → EReal) (ix2 i j)
      = if ∃ e : Fin 131072, node (m ((c : Thread nD τ).loc main_arg1)) 0 e = i ∧ node (m ((c : Thread nD τ).loc main_arg1)) 1 e = j
        then Ideal.ofBits .bf16 0x3F80#16 else Ideal.ofBits .bf16 0x0000#16 :=
  (congrFun (v32_eq m ρ c) (ix2 i j)).trans (adj_at _ hr i j)

/-- The reciprocal out-degree column at node i. -/
theorem inv1_apply (c : Dev nD) (hr : InRange (m ((c : Thread nD τ).loc main_arg1))) (i : Fin 8192) :
    (V1 (F := Ideal) m ρ c main_v14 : S8192x1.Idx → EReal) (ix2 i 0)
      = Ideal.div (Ideal.ofBits .f32 0x3F800000#32)
          (Ideal.ofBits .f32 0x00000000#32 + ∑ e ∈ Finset.univ.filter (fun e : Fin 131072 =>
            node (m ((c : Thread nD τ).loc main_arg1)) 0 e = i), Ideal.ofBits .f32 0x3F800000#32) :=
  (congrFun (v14_eq m ρ c) (ix2 i 0)).trans (invA_at _ hr i)

/-- The reciprocal in-degree column at node i. -/
theorem inv2_apply (c : Dev nD) (hr : InRange (m ((c : Thread nD τ).loc main_arg1))) (i : Fin 8192) :
    (V1 (F := Ideal) m ρ c main_v16 : S8192x1.Idx → EReal) (ix2 i 0)
      = Ideal.div (Ideal.ofBits .f32 0x3F800000#32)
          (Ideal.ofBits .f32 0x00000000#32 + ∑ e ∈ Finset.univ.filter (fun e : Fin 131072 =>
            node (m ((c : Thread nD τ).loc main_arg1)) 1 e = i), Ideal.ofBits .f32 0x3F800000#32) :=
  (congrFun (v16_eq m ρ c) (ix2 i 0)).trans (invB_at _ hr i)

end Cert.KernelIdeal.KVal

end
-- ==== Proof.RefValue.lean ====
/-
  The reference's result, read index by index.

  Its @main gathers rows of an array by one column of the edge list and sums them into the rows the other
  column names (a segment sum): that is message passing `prop` along the list.  Each propagated row is divided by
  a degree (itself a segment sum of ones), multiplied by a weight matrix, clipped at 0 in the hidden layer, and
  the two branches are averaged.  With every word of the edge list a node number the gathers read exactly the
  named rows and the segment sums collect exactly the entries whose word is the row asked for.
-/
import proofs.«401971_j55422257988077_1_alg».proof.Proof.Gen.ReferenceIdeal.Run
import proofs.«401971_j55422257988077_1_alg».proof.Proof.Gen.ReferenceIdeal.Read
import proofs.«401971_j55422257988077_1_alg».proof.Proof.Spec
import proofs.«401971_j55422257988077_1_alg».proof.Proof.IndexRead

noncomputable section

namespace Cert.ReferenceIdeal.RefValue

open Idealize.ShloMosaic Idealize.ShloMosaic.ValueIdx
open Cert.ReferenceIdeal Cert.ReferenceIdeal.Gen Cert.ReferenceIdeal.Read Cert.Spec

/-! ## The two columns of the edge list, as the program slices them -/

/-- The first column, flattened: entry e is the word (e, 0). -/
theorem src_apply (x1 : (⟨S131072x2, .i32⟩ : BufTy).Contents (Elt Ideal)) (e : Fin 131072) :
    val_main_v1 (F := Ideal) x1 (ix1 e) = x1 (ix2 e 0) := by
  rw [val_main_v1_apply, val_main_v0_apply]
  congr 1
  funext a
  match a with
  | ⟨0, _⟩ => exact Fin.ext (Nat.div_one _)
  | ⟨1, _⟩ => rfl

/-- The second column, flattened: entry e is the word (e, 1). -/
theorem dst_apply (x1 : (⟨S131072x2, .i32⟩ : BufTy).Contents (Elt Ideal)) (e : Fin 131072) :
    val_main_v3 (F := Ideal) x1 (ix1 e) = x1 (ix2 e 1) := by
  rw [val_main_v3_apply, val_main_v2_apply]
  congr 1
  funext a
  match a with
  | ⟨0, _⟩ => exact Fin.ext (Nat.div_one _)
  | ⟨1, _⟩ => rfl

/-- A word that reads, signed, as a natural number is not below zero. -/
theorem slt_zero_of_toInt (w : BitVec 32) (n : Nat) (h : w.toInt = (n : Int)) : IntOp.cmpi .slt w 0#32 = 0#1 := by
  have h0 : (0#32 : BitVec 32).toInt = 0 := by decide
  have : w.slt 0#32 = false := by
    rw [BitVec.slt, h, h0]
    exact decide_eq_false (by omega)
  unfold IntOp.cmpi
  simp only [this]
  rfl

/-- The wrap-around of negative words keeps a word that reads as a natural number. -/
theorem wrap_keeps (w a : BitVec 32) (n : Nat) (h : w.toInt = (n : Int)) :
    Scalar.select (IntOp.cmpi .slt w 0#32) a w = w := by
  rw [slt_zero_of_toInt w n h, select_zero]

/-- The one-column index array made from a flat column reads the column's entry. -/
theorem col_idx (e : Fin 131072) : idx_main_v6 (ix2 e 0) = ix1 e := by
  funext a
  match a with
  | ⟨0, _⟩ => rfl

/-! ## The index arrays of the scatters and gathers name nodes -/

section idx
variable (x1 : (⟨S131072x2, .i32⟩ : BufTy).Contents (Elt Ideal)) (hr : InRange x1) (e : Fin 131072)
include hr

theorem v6_toInt : (val_main_v6 (F := Ideal) x1 (ix2 e 0)).toInt = ((node x1 0 e).val : Int) := by
  rw [val_main_v6_apply, (show idx_main_v6 (ix2 e 0) = ix1 e from col_idx e), src_apply]; exact hr e 0

theorem v21_toInt : (val_main_v21 (F := Ideal) x1 (ix2 e 0)).toInt = ((node x1 0 e).val : Int) := by
  rw [val_main_v21_apply, (show idx_main_v21 (ix2 e 0) = ix1 e from col_idx e), src_apply]; exact hr e 0

theorem v35_toInt : (val_main_v35 (F := Ideal) x1 (ix2 e 0)).toInt = ((node x1 0 e).val : Int) := by
  rw [val_main_v35_apply, (show idx_main_v35 (ix2 e 0) = ix1 e from col_idx e), src_apply]; exact hr e 0

theorem v10_toInt : (val_main_v10 (F := Ideal) x1 (ix2 e 0)).toInt = ((node x1 1 e).val : Int) := by
  rw [val_main_v10_apply, (show idx_main_v10 (ix2 e 0) = ix1 e from col_idx e), dst_apply]; exact hr e 1

theorem v48_toInt : (val_main_v48 (F := Ideal) x1 (ix2 e 0)).toInt = ((node x1 1 e).val : Int) := by
  rw [val_main_v48_apply, (show idx_main_v48 (ix2 e 0) = ix1 e from col_idx e), dst_apply]; exact hr e 1

theorem v62_toInt : (val_main_v62 (F := Ideal) x1 (ix2 e 0)).toInt = ((node x1 1 e).val : Int) := by
  rw [val_main_v62_apply, (show idx_main_v62 (ix2 e 0) = ix1 e from col_idx e), dst_apply]; exact hr e 1

theorem v18_toInt : (val_main_v18 (F := Ideal) x1 (ix2 e 0)).toInt = ((node x1 1 e).val : Int) := by
  rw [val_main_v18_apply, (show idx_main_v18 (ix2 e 0) = ix1 e from col_idx e), val_main_v17_apply, val_main_v14_apply,
    val_main_v13_apply, val_main_c_apply, dst_apply, wrap_keeps _ _ _ (hr e 1)]
  exact hr e 1

theorem v32_toInt : (val_main_v32 (F := Ideal) x1 (ix2 e 0)).toInt = ((node x1 1 e).val : Int) := by
  rw [val_main_v32_apply, (show idx_main_v32 (ix2 e 0) = ix1 e from col_idx e), val_main_v31_apply, val_main_v28_apply,
    val_main_v27_apply, val_main_c_4_apply, dst_apply, wrap_keeps _ _ _ (hr e 1)]
  exact hr e 1

theorem v45_toInt : (val_main_v45 (F := Ideal) x1 (ix2 e 0)).toInt = ((node x1 0 e).val : Int) := by
  rw [val_main_v45_apply, (show idx_main_v45 (ix2 e 0) = ix1 e from col_idx e), val_main_v44_apply, val_main_v41_apply,
    val_main_v40_apply, val_main_c_7_apply, src_apply, wrap_keeps _ _ _ (hr e 0)]
  exact hr e 0

theorem v59_toInt : (val_main_v59 (F := Ideal) x1 (ix2 e 0)).toInt = ((node x1 0 e).val : Int) := by
  rw [val_main_v59_apply, (show idx_main_v59 (ix2 e 0) = ix1 e from col_idx e), val_main_v58_apply, val_main_v55_apply,
    val_main_v54_apply, val_main_c_10_apply, src_apply, wrap_keeps _ _ _ (hr e 0)]
  exact hr e 0

end idx

/-- Among entries whose word reads as the node `s e`, those whose word reads as i are those with `s e = i`. -/
theorem filter_node {w : Fin 131072 → BitVec 32} {s : Fin 131072 → Fin 8192}
    (h : ∀ e, (w e).toInt = ((s e).val : Int)) (i : Fin 8192) :
    Finset.univ.filter (fun e : Fin 131072 => (w e).toInt = (i.val : Int)) = Finset.univ.filter (fun e => s e = i) := by
  refine Finset.filter_congr fun e _ => ?_
  rw [h e, Int.natCast_inj, Fin.ext_iff]

/-! ## The degrees -/

/-- The out-degree array the reference computes: at node i, zero plus a one for every entry whose first word is i. -/
theorem deg1_apply (x1 : (⟨S131072x2, .i32⟩ : BufTy).Contents (Elt Ideal)) (hr : InRange x1) (i : Fin 8192) :
    val_main_v7 (F := Ideal) x1 (ix1 i)
      = Ideal.ofBits .f32 0x00000000#32
        + ∑ e ∈ Finset.univ.filter (fun e : Fin 131072 => node x1 0 e = i), Ideal.ofBits .f32 0x3F800000#32 := by
  have hd : scatter_S8192_S131072x1_S131072_n_0_0_1
      = Cert.IndexRead.dScalar Facts₀.scatter_S8192_S131072x1_S131072_n_0_0_1_wf := rfl
  unfold val_main_v7
  rw [Host.scatterAdd, Ideal.hostScatterAdd_def, hd, Cert.IndexRead.scatterAdd_scalar,
    filter_node (fun e => v6_toInt x1 hr e) i, val_main_v5_apply, val_main_cst_0_apply]
  rfl

/-- The in-degree array the reference computes: at node i, zero plus a one for every entry whose second word is i. -/
theorem deg2_apply (x1 : (⟨S131072x2, .i32⟩ : BufTy).Contents (Elt Ideal)) (hr : InRange x1) (i : Fin 8192) :
    val_main_v11 (F := Ideal) x1 (ix1 i)
      = Ideal.ofBits .f32 0x00000000#32
        + ∑ e ∈ Finset.univ.filter (fun e : Fin 131072 => node x1 1 e = i), Ideal.ofBits .f32 0x3F800000#32 := by
  have hd : scatter_S8192_S131072x1_S131072_n_0_0_1
      = Cert.IndexRead.dScalar Facts₀.scatter_S8192_S131072x1_S131072_n_0_0_1_wf := rfl
  unfold val_main_v11
  rw [Host.scatterAdd, Ideal.hostScatterAdd_def, hd, Cert.IndexRead.scatterAdd_scalar,
    filter_node (fun e => v10_toInt x1 hr e) i, val_main_v9_apply, val_main_cst_1_apply]
  rfl

/-! ## A segment sum of gathered rows is message passing -/

/-- Rows gathered by the words `d e` and summed into the rows the words `s e` name: the operand plus `prop s d`. -/
theorem segsum_gather {p : Nat}
    (hS : ScatterDims.WF (Cert.IndexRead.SNp p) Cert.IndexRead.SE1 (Cert.IndexRead.SEp p) [1] [0] [0] 1)
    (hG : GatherDims.WF (Cert.IndexRead.SNp p) Cert.IndexRead.SE1 (Cert.IndexRead.SEp p) [1] [0] [] [0] [] 1 ![1, p])
    (z V : (Cert.IndexRead.SNp p).Idx → EReal) (iS iG : IVec Cert.IndexRead.SE1 32) (s d : Fin 131072 → Fin 8192)
    (hs : ∀ e, (iS (ix2 e 0)).toInt = ((s e).val : Int)) (hd : ∀ e, (iG (ix2 e 0)).toInt = ((d e).val : Int))
    (i : Fin 8192) (k : Fin p) :
    Ideal.hostScatterAdd (Cert.IndexRead.dRows p hS) z iS (Host.gather (Cert.IndexRead.gRows p hG) V iG) (ix2 i k)
      = z (ix2 i k) + prop s d (toMat V) i k := by
  rw [Cert.IndexRead.scatterAdd_rows, filter_node hs i]
  unfold prop
  exact congrArg (z (ix2 i k) + ·)
    (Finset.sum_congr rfl fun e _ => Cert.IndexRead.gather_rows hG V iG e k (d e) (hd e))

/-! ## The layers as formulas -/

/-- One hidden layer: propagate, divide by a degree, apply the weights, clip at 0. -/
def hid (s d : Fin 131072 → Fin 8192) (D : Fin 8192 → EReal) (X : Mat 8192 1433) (W : Mat 1433 32) : Mat 8192 32 :=
  fun i h => max (mm (fun i k => Ideal.div (prop s d X i k) (D i)) W i h) 0

/-- One branch: a hidden layer, propagated again, divided by a degree, and the output weights applied. -/
def branch (s d : Fin 131072 → Fin 8192) (Dh Do : Fin 8192 → EReal) (X : Mat 8192 1433) (Wh : Mat 1433 32)
    (Wo : Mat 32 7) : Mat 8192 7 :=
  mm (fun i h => Ideal.div (prop s d (hid s d Dh X Wh) i h) (Do i)) Wo

/-- The reference formula is the mean of the two branches. -/
theorem refOut_eq (X : Mat 8192 1433) (s d : Fin 131072 → Fin 8192) (D1 D2 : Fin 8192 → EReal)
    (Wh1 : Mat 1433 32) (Wo1 : Mat 32 7) (Wh2 : Mat 1433 32) (Wo2 : Mat 32 7) (two : EReal) (i : Fin 8192) (c : Fin 7) :
    refOut X s d D1 D2 Wh1 Wo1 Wh2 Wo2 two i c
      = Ideal.div (branch s d D1 D1 X Wh1 Wo1 i c + branch d s D2 D1 X Wh2 Wo2 i c) two := rfl

/-! ## Index equations for the degree columns and the products -/

theorem degcol_1433 (i : Fin 8192) (k : Fin 1433) : idx_main_v8 (idx_main_v23 (ix2 i k)) = ix1 i := by
  funext a; match a with | ⟨0, _⟩ => rfl

theorem degcol_32 (i : Fin 8192) (k : Fin 32) : idx_main_v8 (idx_main_v37 (ix2 i k)) = ix1 i := by
  funext a; match a with | ⟨0, _⟩ => rfl

theorem lidx_h (i : Fin 8192) (h : Fin 32) (k : Fin 1433) : lidx_main_v25 (ix2 i h) k = ix2 i k := by
  funext a; match a with | ⟨0, _⟩ => rfl | ⟨1, _⟩ => rfl

theorem ridx_h (i : Fin 8192) (h : Fin 32) (k : Fin 1433) : ridx_main_v25 (ix2 i h) k = ix2 k h := by
  funext a; match a with | ⟨0, _⟩ => rfl | ⟨1, _⟩ => rfl

theorem lidx_o (i : Fin 8192) (c : Fin 7) (h : Fin 32) : lidx_main_v39 (ix2 i c) h = ix2 i h := by
  funext a; match a with | ⟨0, _⟩ => rfl | ⟨1, _⟩ => rfl

theorem ridx_o (i : Fin 8192) (c : Fin 7) (h : Fin 32) : ridx_main_v39 (ix2 i c) h = ix2 h c := by
  funext a; match a with | ⟨0, _⟩ => rfl | ⟨1, _⟩ => rfl

/-! ## The program's dimension numbers are the literal ones -/

theorem hS1433 : scatter_S8192x1433_S131072x1_S131072x1433_1_0_0_1
    = Cert.IndexRead.dRows 1433 Facts₀.scatter_S8192x1433_S131072x1_S131072x1433_1_0_0_1_wf := rfl
theorem hG1433 : gather_S8192x1433_S131072x1_S131072x1433_1_0_n_n_0_1_11433
    = Cert.IndexRead.gRows 1433 Facts₀.gather_S8192x1433_S131072x1_S131072x1433_1_0_n_n_0_1_11433_wf := rfl
theorem hS32 : scatter_S8192x32_S131072x1_S131072x32_1_0_0_1
    = Cert.IndexRead.dRows 32 Facts₀.scatter_S8192x32_S131072x1_S131072x32_1_0_0_1_wf := rfl
theorem hG32 : gather_S8192x32_S131072x1_S131072x32_1_0_n_n_0_1_132
    = Cert.IndexRead.gRows 32 Facts₀.gather_S8192x32_S131072x1_S131072x32_1_0_n_n_0_1_132_wf := rfl

/-! ## The first branch, stage by stage -/

section stages
variable (x0 : (⟨S8192x1433, .f32⟩ : BufTy).Contents (Elt Ideal)) (x1 : (⟨S131072x2, .i32⟩ : BufTy).Contents (Elt Ideal))
  (x3 : (⟨S1433x32, .f32⟩ : BufTy).Contents (Elt Ideal)) (x4 : (⟨S32x7, .f32⟩ : BufTy).Contents (Elt Ideal))
  (x5 : (⟨S1433x32, .f32⟩ : BufTy).Contents (Elt Ideal)) (x6 : (⟨S32x7, .f32⟩ : BufTy).Contents (Elt Ideal))
  (hr : InRange x1)
include hr

/-- The features propagated along the list. -/
theorem v22_apply (i : Fin 8192) (k : Fin 1433) :
    val_main_v22 (F := Ideal) x0 x1 (ix2 i k) = prop (node x1 0) (node x1 1) (toMat x0) i k := by
  unfold val_main_v22 val_main_v19
  rw [Host.scatterAdd, Ideal.hostScatterAdd_def, hS1433, hG1433,
    segsum_gather _ _ _ _ _ _ _ _ (fun e => v21_toInt x1 hr e) (fun e => v18_toInt x1 hr e),
    val_main_v20_apply, val_main_cst_3_apply, Ideal.ofBits_def, Ideal.ofBits_zero_f32, zero_add]

/-- … divided by the out-degree. -/
theorem v24_apply (i : Fin 8192) (k : Fin 1433) :
    val_main_v24 (F := Ideal) x0 x1 (ix2 i k)
      = Ideal.div (prop (node x1 0) (node x1 1) (toMat x0) i k) (val_main_v7 (F := Ideal) x1 (ix1 i)) := by
  rw [val_main_v24_apply, v22_apply x0 x1 hr, val_main_v23_apply, val_main_v8_apply, degcol_1433, Ideal.hostDivf_def]

/-- The hidden layer of the first branch. -/
theorem v26_apply (i : Fin 8192) (h : Fin 32) :
    val_main_v26 (F := Ideal) x0 x1 x3 (ix2 i h)
      = hid (node x1 0) (node x1 1) (fun i => val_main_v7 (F := Ideal) x1 (ix1 i)) (toMat x0) (toMat x3) i h := by
  rw [val_main_v26_apply, val_main_v25_apply, val_main_call0_v0_apply, val_main_call0_cst_apply, Ideal.maximumf_def,
    Ideal.ofBits_def, Ideal.ofBits_zero_f32]
  unfold hid mm
  refine congrArg (max · 0) (Finset.sum_congr rfl fun k _ => ?_)
  rw [lidx_h, ridx_h, v24_apply x0 x1 hr]

/-- The hidden layer propagated along the list. -/
theorem v36_apply (i : Fin 8192) (h : Fin 32) :
    val_main_v36 (F := Ideal) x0 x1 x3 (ix2 i h)
      = prop (node x1 0) (node x1 1)
          (hid (node x1 0) (node x1 1) (fun i => val_main_v7 (F := Ideal) x1 (ix1 i)) (toMat x0) (toMat x3)) i h := by
  have hH : toMat (val_main_v26 (F := Ideal) x0 x1 x3)
      = hid (node x1 0) (node x1 1) (fun i => val_main_v7 (F := Ideal) x1 (ix1 i)) (toMat x0) (toMat x3) :=
    funext fun i => funext fun h => v26_apply x0 x1 x3 hr i h
  unfold val_main_v36 val_main_v33
  rw [Host.scatterAdd, Ideal.hostScatterAdd_def, hS32, hG32,
    segsum_gather _ _ _ _ _ _ _ _ (fun e => v35_toInt x1 hr e) (fun e => v32_toInt x1 hr e),
    val_main_v34_apply, val_main_cst_6_apply, Ideal.ofBits_def, Ideal.ofBits_zero_f32, zero_add, hH]

/-- The first branch. -/
theorem v39_apply (i : Fin 8192) (c : Fin 7) :
    val_main_v39 (F := Ideal) x0 x1 x3 x4 (ix2 i c)
      = branch (node x1 0) (node x1 1) (fun i => val_main_v7 (F := Ideal) x1 (ix1 i))
          (fun i => val_main_v7 (F := Ideal) x1 (ix1 i)) (toMat x0) (toMat x3) (toMat x4) i c := by
  rw [val_main_v39_apply]
  unfold branch mm
  refine Finset.sum_congr rfl fun h _ => ?_
  rw [lidx_o, ridx_o, val_main_v38_apply, v36_apply x0 x1 x3 hr, val_main_v37_apply, val_main_v8_apply, degcol_32,
    Ideal.hostDivf_def]

end stages

/-! ## The second branch, stage by stage: the same against the list's direction -/

section stages2
variable (x0 : (⟨S8192x1433, .f32⟩ : BufTy).Contents (Elt Ideal)) (x1 : (⟨S131072x2, .i32⟩ : BufTy).Contents (Elt Ideal))
  (x3 : (⟨S1433x32, .f32⟩ : BufTy).Contents (Elt Ideal)) (x4 : (⟨S32x7, .f32⟩ : BufTy).Contents (Elt Ideal))
  (x5 : (⟨S1433x32, .f32⟩ : BufTy).Contents (Elt Ideal)) (x6 : (⟨S32x7, .f32⟩ : BufTy).Contents (Elt Ideal))
  (hr : InRange x1)
include hr

/-- The features propagated against the list. -/
theorem v49_apply (i : Fin 8192) (k : Fin 1433) :
    val_main_v49 (F := Ideal) x0 x1 (ix2 i k) = prop (node x1 1) (node x1 0) (toMat x0) i k := by
  unfold val_main_v49 val_main_v46
  rw [Host.scatterAdd, Ideal.hostScatterAdd_def, hS1433, hG1433,
    segsum_gather _ _ _ _ _ _ _ _ (fun e => v48_toInt x1 hr e) (fun e => v45_toInt x1 hr e),
    val_main_v47_apply, val_main_cst_9_apply, Ideal.ofBits_def, Ideal.ofBits_zero_f32, zero_add]

/-- … divided by the in-degree. -/
theorem v51_apply (i : Fin 8192) (k : Fin 1433) :
    val_main_v51 (F := Ideal) x0 x1 (ix2 i k)
      = Ideal.div (prop (node x1 1) (node x1 0) (toMat x0) i k) (val_main_v11 (F := Ideal) x1 (ix1 i)) := by
  rw [val_main_v51_apply, v49_apply x0 x1 hr, val_main_v50_apply, val_main_v12_apply,
    (show idx_main_v12 (idx_main_v50 (ix2 i k)) = ix1 i from degcol_1433 i k), Ideal.hostDivf_def]

/-- The hidden layer of the second branch. -/
theorem v53_apply (i : Fin 8192) (h : Fin 32) :
    val_main_v53 (F := Ideal) x0 x1 x5 (ix2 i h)
      = hid (node x1 1) (node x1 0) (fun i => val_main_v11 (F := Ideal) x1 (ix1 i)) (toMat x0) (toMat x5) i h := by
  rw [val_main_v53_apply, val_main_v52_apply, val_main_call1_v0_apply, val_main_call1_cst_apply, Ideal.maximumf_def,
    Ideal.ofBits_def, Ideal.ofBits_zero_f32]
  unfold hid mm
  refine congrArg (max · 0) (Finset.sum_congr rfl fun k _ => ?_)
  rw [(show lidx_main_v52 (ix2 i h) k = ix2 i k from lidx_h i h k),
    (show ridx_main_v52 (ix2 i h) k = ix2 k h from ridx_h i h k), v51_apply x0 x1 hr]

/-- The hidden layer propagated against the list. -/
theorem v63_apply (i : Fin 8192) (h : Fin 32) :
    val_main_v63 (F := Ideal) x0 x1 x5 (ix2 i h)
      = prop (node x1 1) (node x1 0)
          (hid (node x1 1) (node x1 0) (fun i => val_main_v11 (F := Ideal) x1 (ix1 i)) (toMat x0) (toMat x5)) i h := by
  have hH : toMat (val_main_v53 (F := Ideal) x0 x1 x5)
      = hid (node x1 1) (node x1 0) (fun i => val_main_v11 (F := Ideal) x1 (ix1 i)) (toMat x0) (toMat x5) :=
    funext fun i => funext fun h => v53_apply x0 x1 x5 hr i h
  unfold val_main_v63 val_main_v60
  rw [Host.scatterAdd, Ideal.hostScatterAdd_def, hS32, hG32,
    segsum_gather _ _ _ _ _ _ _ _ (fun e => v62_toInt x1 hr e) (fun e => v59_toInt x1 hr e),
    val_main_v61_apply, val_main_cst_12_apply, Ideal.ofBits_def, Ideal.ofBits_zero_f32, zero_add, hH]

/-- The second branch: its last division is by the out-degree, as the program has it. -/
theorem v66_apply (i : Fin 8192) (c : Fin 7) :
    val_main_v66 (F := Ideal) x0 x1 x5 x6 (ix2 i c)
      = branch (node x1 1) (node x1 0) (fun i => val_main_v11 (F := Ideal) x1 (ix1 i))
          (fun i => val_main_v7 (F := Ideal) x1 (ix1 i)) (toMat x0) (toMat x5) (toMat x6) i c := by
  rw [val_main_v66_apply]
  unfold branch mm
  refine Finset.sum_congr rfl fun h _ => ?_
  rw [(show lidx_main_v66 (ix2 i c) h = ix2 i h from lidx_o i c h),
    (show ridx_main_v66 (ix2 i c) h = ix2 h c from ridx_o i c h), val_main_v65_apply, v63_apply x0 x1 x5 hr,
    val_main_v64_apply, val_main_v8_apply, (show idx_main_v8 (idx_main_v64 (ix2 i h)) = ix1 i from degcol_32 i h),
    Ideal.hostDivf_def]

end stages2

/-! ## The result -/

/-- The reference's result, entry by entry, is the reference formula of the arguments, the degrees left as the
    two segment sums of ones the program computes. -/
theorem result (x0 : (⟨S8192x1433, .f32⟩ : BufTy).Contents (Elt Ideal)) (x1 : (⟨S131072x2, .i32⟩ : BufTy).Contents (Elt Ideal))
    (x3 : (⟨S1433x32, .f32⟩ : BufTy).Contents (Elt Ideal)) (x4 : (⟨S32x7, .f32⟩ : BufTy).Contents (Elt Ideal))
    (x5 : (⟨S1433x32, .f32⟩ : BufTy).Contents (Elt Ideal)) (x6 : (⟨S32x7, .f32⟩ : BufTy).Contents (Elt Ideal))
    (hr : InRange x1) (i : Fin 8192) (k : Fin 7) :
    val_main_v69 (F := Ideal) x0 x1 x3 x4 x5 x6 (ix2 i k)
      = refOut (toMat x0) (node x1 0) (node x1 1)
          (fun i => val_main_v7 (F := Ideal) x1 (ix1 i)) (fun i => val_main_v11 (F := Ideal) x1 (ix1 i))
          (toMat x3) (toMat x4) (toMat x5) (toMat x6) (Ideal.ofBits .f32 0x40000000#32) i k := by
  rw [refOut_eq, val_main_v69_apply, val_main_v67_apply, v39_apply x0 x1 x3 x4 hr, v66_apply x0 x1 x5 x6 hr,
    val_main_v68_apply, val_main_cst_13_apply, Ideal.hostDivf_def, Ideal.addf_def, Ideal.ofBits_def]

end Cert.ReferenceIdeal.RefValue

end
-- ==== Proof.PreFacts.lean ====
/-
  What the precondition says, as plain facts.

  The precondition is a conjunction of ten tests, each an "all" over an array: the five float arguments are
  finite; every word of the edge list is at least 0 and below 8192; the out-degree and the in-degree of every
  node (segment sums of ones) are positive; and the number of list entries naming a pair (i, j) — a scatter-add
  of ones into a matrix through the edge list itself — is at most one.  Each test is opened into the fact it
  states about the arguments; the counts become cardinalities of the sets of entries landing on an index.
-/
import proofs.«401971_j55422257988077_1_alg».proof.Pre_finite_inputs
import proofs.«401971_j55422257988077_1_alg».proof.Proof.Spec
import proofs.«401971_j55422257988077_1_alg».proof.Proof.IndexRead
import Idealize.ShloMosaic.Lib.ReduceAll
import Idealize.ShloMosaic.Lib.StableHlo.Predicate
import Idealize.ShloMosaic.Lib.Pipeline.Value
import Idealize.ShloMosaic.PureOps.Ideal.Laws

noncomputable section

namespace Cert.PreFacts

open Idealize.ShloMosaic Idealize.ShloMosaic.ValueIdx Cert.Pre_finite_inputs Cert.Spec

/-! ## The float words the tests compare against -/

/-- The word with all exponent bits set and no fraction bit denotes +∞. -/
theorem ofBits_inf : Ideal.ofBits .f32 0x7F800000#32 = (⊤ : EReal) := by
  simp [Ideal.ofBits, Ideal.ieee]

/-- The word of 1.0 denotes the real 1. -/
theorem ofBits_one : Ideal.ofBits .f32 0x3F800000#32 = ((1 : ℝ) : EReal) := by
  simp [Ideal.ofBits, Ideal.ieee, -EReal.coe_mul]; norm_num

/-! ## One element of each test -/

/-- An extended real whose absolute value max x (-x) lies strictly below +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  simp only [Ideal.cmp, StableHlo.Predicate.ofBool_eq_one_iff, decide_eq_true_eq] at h
  induction x using EReal.rec with
  | bot => simp at h
  | top => simp at h
  | coe r => exact ⟨r, rfl⟩

/-- A 32-bit word that, read signed, is at least 0 and below 8192 is its own residue mod 8192. -/
theorem toInt_eq_mod (w : BitVec 32) (h0 : (0#32 : BitVec 32).toInt ≤ w.toInt) (h1 : w.toInt < (8192#32 : BitVec 32).toInt) :
    w.toInt = ((w.toNat % 8192 : ℕ) : ℤ) := by
  have e0 : (0#32 : BitVec 32).toInt = 0 := by decide
  have e1 : (8192#32 : BitVec 32).toInt = 8192 := by decide
  rw [e0] at h0
  rw [e1] at h1
  have hw := w.isLt
  rw [BitVec.toInt_eq_toNat_cond] at h0 h1 ⊢
  split_ifs at h0 h1 ⊢ <;> omega

/-- Zero plus a one for every element of a finite set is the number of its elements. -/
theorem zero_add_sum_ones {ι : Type} (S : Finset ι) :
    Ideal.ofBits .f32 0x00000000#32 + ∑ _e ∈ S, Ideal.ofBits .f32 0x3F800000#32 = (((S.card : ℕ) : ℝ) : EReal) := by
  rw [Ideal.ofBits_zero_f32, zero_add, ofBits_one, Finset.sum_const, ← EReal.coe_nsmul, nsmul_eq_mul, mul_one]

/-! ## Reading the index arrays of the two degree scatters -/

/-- Column c of the edge list, cut out as a 131072 × 1 slice, flattened and set up again as a column, reads at
    row e the word (e, c) of the edge list. -/
theorem col_read (x1 : IVec S131072x2 32) (off : Fin 2 → ℕ) (c : Fin 2) (h0 : off 0 = 0) (h1 : off 1 = c.val)
    (hs : S131072x2.Slices off S131072x1) (hc : S131072x1.ShapeCasts S131072)
    (hb : S131072.BroadcastsInDim S131072x1 ![0]) (e : Fin 131072) :
    broadcastInDim S131072x1 ![0] hb (shapeCast S131072 (extractStridedSlice S131072x1 off x1 hs) hc) (ix2 e 0)
      = x1 (ix2 e c) := by
  refine (broadcastInDim_apply _ hb _ _ (ix1 e) ?_).trans ?_
  · intro a
    match a with
    | ⟨0, _⟩ => exact (if_neg (by decide : ¬ (131072 : ℕ) = 1)).symm
  refine (shapeCast_apply _ hc (ix1 e) (ix2 e 0) ?_).trans ?_
  · rw [Shape.rowMajor_val_two, Shape.rowMajor_val_one]
    show e.val * 1 + 0 = e.val
    omega
  refine extractStridedSlice_apply off x1 hs (ix2 e 0) (ix2 e c) ?_
  intro a
  match a with
  | ⟨0, _⟩ => show e.val = off 0 + e.val; omega
  | ⟨1, _⟩ => show c.val = off 1 + 0; omega

/-! ## The degree and pair tests at one index -/

/-- Under the range condition, "the word (e, c) read signed is i" says that entry e's node in column c is i. -/
theorem word_eq_iff (x1 : IVec S131072x2 32) (hr : InRange x1) (e : Fin 131072) (c : Fin 2) (i : Fin 8192) :
    (x1 (ix2 e c)).toInt = (i.val : ℤ) ↔ node x1 c e = i := by
  have h := hr e c
  constructor
  · intro hw
    rw [h] at hw
    exact Fin.ext (by omega)
  · intro hn
    rw [h, hn]

/-- A positive segment sum of ones at node i: some entry's word in column c is i. -/
theorem deg_pos_of (x1 : IVec S131072x2 32) (c : Fin 2) (hwf : ScatterDims.WF S8192 S131072x1 S131072 [] [0] [0] 1)
    (hb0 : S_.BroadcastsInDim S8192 ![]) (hb1 : S_.BroadcastsInDim S131072 ![]) (idx : IVec S131072x1 32) (i : Fin 8192)
    (h : cmpf (F := Ideal) .ogt (Host.scatterAdd (Cert.IndexRead.dScalar hwf)
        (broadcastInDim S8192 ![] hb0 (constant S_ .f32 0x00000000#32)) idx
        (broadcastInDim S131072 ![] hb1 (constant S_ .f32 0x3F800000#32)))
        (broadcastInDim S8192 ![] hb0 (constant S_ .f32 0x00000000#32)) (ix1 i) = 1#1)
    (hidx : ∀ e : Fin 131072, idx (ix2 e 0) = x1 (ix2 e c)) (hr : InRange x1) :
    0 < (Finset.univ.filter fun e : Fin 131072 => node x1 c e = i).card := by
  dsimp only [cmpf, Host.scatterAdd, broadcastInDim, constant] at h
  replace h : Ideal.cmp .ogt (Ideal.hostScatterAdd (Cert.IndexRead.dScalar hwf) (fun _ => Ideal.ofBits .f32 0x00000000#32) idx
      (fun _ => Ideal.ofBits .f32 0x3F800000#32) (ix1 i)) (Ideal.ofBits .f32 0x00000000#32) = 1#1 := h
  rw [Cert.IndexRead.scatterAdd_scalar, zero_add_sum_ones, Ideal.ofBits_zero_f32] at h
  simp only [Ideal.cmp, StableHlo.Predicate.ofBool_eq_one_iff, decide_eq_true_eq, EReal.coe_pos, Nat.cast_pos] at h
  have hf : (Finset.univ.filter fun e : Fin 131072 => (idx (ix2 e 0)).toInt = (i.val : ℤ))
      = Finset.univ.filter fun e : Fin 131072 => node x1 c e = i :=
    Finset.filter_congr fun e _ => by rw [hidx e]; exact word_eq_iff x1 hr e c i
  rwa [hf] at h

/-- A count of at most one at the pair (i, j): at most one entry names it. -/
theorem pair_le_of (x1 : IVec S131072x2 32) (hwf : ScatterDims.WF S8192x8192 S131072x2 S131072 [] [0, 1] [0, 1] 1)
    (hb0 : S_.BroadcastsInDim S8192x8192 ![]) (hb1 : S_.BroadcastsInDim S131072 ![]) (hr : InRange x1) (i j : Fin 8192)
    (h : cmpf (F := Ideal) .ole (Host.scatterAdd (Cert.IndexRead.dPair hwf)
        (broadcastInDim S8192x8192 ![] hb0 (constant S_ .f32 0x00000000#32)) x1
        (broadcastInDim S131072 ![] hb1 (constant S_ .f32 0x3F800000#32)))
        (broadcastInDim S8192x8192 ![] hb0 (constant S_ .f32 0x3F800000#32)) (ix2 i j) = 1#1) :
    (Finset.univ.filter fun e : Fin 131072 => node x1 0 e = i ∧ node x1 1 e = j).card ≤ 1 := by
  dsimp only [cmpf, Host.scatterAdd, broadcastInDim, constant] at h
  replace h : Ideal.cmp .ole (Ideal.hostScatterAdd (Cert.IndexRead.dPair hwf) (fun _ => Ideal.ofBits .f32 0x00000000#32) x1
      (fun _ => Ideal.ofBits .f32 0x3F800000#32) (ix2 i j)) (Ideal.ofBits .f32 0x3F800000#32) = 1#1 := h
  rw [Cert.IndexRead.scatterAdd_pair, zero_add_sum_ones, ofBits_one] at h
  simp only [Ideal.cmp, StableHlo.Predicate.ofBool_eq_one_iff, decide_eq_true_eq, EReal.coe_le_coe_iff, Nat.cast_le_one] at h
  have hf : (Finset.univ.filter fun e : Fin 131072 => (x1 (ix2 e 0)).toInt = (i.val : ℤ) ∧ (x1 (ix2 e 1)).toInt = (j.val : ℤ))
      = Finset.univ.filter fun e : Fin 131072 => node x1 0 e = i ∧ node x1 1 e = j :=
    Finset.filter_congr fun e _ => by rw [word_eq_iff x1 hr e 0 i, word_eq_iff x1 hr e 1 j]
  rwa [hf] at h

/-! ## The precondition, opened -/

/-- A shape of rank 0 has one index. -/
local instance : Subsingleton S_.Idx := ⟨fun _ _ => funext fun d => d.elim0⟩

variable [Cert.Pre_finite_inputs.Facts]
variable (x0 : FVec Ideal S8192x1433 .f32) (x1 : IVec S131072x2 32) (x2 : IVec S8192 32)
  (x3 : FVec Ideal S1433x32 .f32) (x4 : FVec Ideal S32x7 .f32) (x5 : FVec Ideal S1433x32 .f32) (x6 : FVec Ideal S32x7 .f32)

/-- The ten tests of the precondition, split once and each read at every index: the nine facts below together. -/
theorem opened (hpre : Cert.Pre_finite_inputs.fn (F := Ideal) x0 x1 x2 x3 x4 x5 x6 = fun _ => 1#1) :
    (∀ i : S8192x1433.Idx, ∃ r : ℝ, x0 i = (r : EReal)) ∧ (∀ i : S1433x32.Idx, ∃ r : ℝ, x3 i = (r : EReal))
    ∧ (∀ i : S32x7.Idx, ∃ r : ℝ, x4 i = (r : EReal)) ∧ (∀ i : S1433x32.Idx, ∃ r : ℝ, x5 i = (r : EReal))
    ∧ (∀ i : S32x7.Idx, ∃ r : ℝ, x6 i = (r : EReal)) ∧ InRange x1
    ∧ (∀ i : Fin 8192, 0 < (Finset.univ.filter fun e : Fin 131072 => node x1 0 e = i).card)
    ∧ (∀ i : Fin 8192, 0 < (Finset.univ.filter fun e : Fin 131072 => node x1 1 e = i).card)
    ∧ (∀ i j : Fin 8192, (Finset.univ.filter fun e : Fin 131072 => node x1 0 e = i ∧ node x1 1 e = j).card ≤ 1) := by
  have h := congrFun hpre ValueIdx.ix0
  dsimp only [fn, fn_part1, fn_part2, fn_part3, andi] at h
  simp only [IntOp.andi_eq_one] at h
  obtain ⟨⟨⟨⟨⟨⟨⟨⟨⟨h0, h3⟩, h4⟩, h5⟩, h6⟩, hge⟩, hlt⟩, hout⟩, hin⟩, hpair⟩ := h
  -- the two range tests together: every word is its own residue mod 8192
  have hr : InRange x1 := fun e c =>
    toInt_eq_mod _ (IntOp.cmpi_sge.1 (Host.reduce_andi_all _ _ _ _ _ hge (ix2 e c)))
      (IntOp.cmpi_slt.1 (Host.reduce_andi_all _ _ _ _ _ hlt (ix2 e c)))
  -- the index arrays of the two degree scatters are the two columns of the edge list
  have hcol0 := col_read x1 ![0, 0] 0 rfl rfl Facts.slices_S131072x2_S131072x1_0_0 Facts.shapeCasts_S131072x1_S131072
    Facts.bcast_S131072_S131072x1_0
  have hcol1 := col_read x1 ![0, 1] 1 rfl rfl Facts.slices_S131072x2_S131072x1_0_1 Facts.shapeCasts_S131072x1_S131072
    Facts.bcast_S131072_S131072x1_0
  exact ⟨fun i => real_of_abs_lt_inf _ (Host.reduce_andi_all _ _ _ _ _ h0 i),
    fun i => real_of_abs_lt_inf _ (Host.reduce_andi_all _ _ _ _ _ h3 i),
    fun i => real_of_abs_lt_inf _ (Host.reduce_andi_all _ _ _ _ _ h4 i),
    fun i => real_of_abs_lt_inf _ (Host.reduce_andi_all _ _ _ _ _ h5 i),
    fun i => real_of_abs_lt_inf _ (Host.reduce_andi_all _ _ _ _ _ h6 i),
    hr,
    fun i =>
      have t := Host.reduce_andi_all _ _ _ _ _ hout (ix1 i)
      deg_pos_of x1 0 Facts.scatter_S8192_S131072x1_S131072_n_0_0_1_wf _ _ _ i t hcol0 hr,
    fun i =>
      have t := Host.reduce_andi_all _ _ _ _ _ hin (ix1 i)
      deg_pos_of x1 1 Facts.scatter_S8192_S131072x1_S131072_n_0_0_1_wf _ _ _ i t hcol1 hr,
    fun i j =>
      have t := Host.reduce_andi_all _ _ _ _ _ hpair (ix2 i j)
      pair_le_of x1 Facts.scatter_S8192x8192_S131072x2_S131072_n_01_01_1_wf _ _ hr i j t⟩

theorem finite_x (hpre : Cert.Pre_finite_inputs.fn (F := Ideal) x0 x1 x2 x3 x4 x5 x6 = fun _ => 1#1) :
    ∀ i : S8192x1433.Idx, ∃ r : ℝ, x0 i = (r : EReal) :=
  (opened x0 x1 x2 x3 x4 x5 x6 hpre).1

theorem finite_wh1 (hpre : Cert.Pre_finite_inputs.fn (F := Ideal) x0 x1 x2 x3 x4 x5 x6 = fun _ => 1#1) :
    ∀ i : S1433x32.Idx, ∃ r : ℝ, x3 i = (r : EReal) :=
  (opened x0 x1 x2 x3 x4 x5 x6 hpre).2.1

theorem finite_wo1 (hpre : Cert.Pre_finite_inputs.fn (F := Ideal) x0 x1 x2 x3 x4 x5 x6 = fun _ => 1#1) :
    ∀ i : S32x7.Idx, ∃ r : ℝ, x4 i = (r : EReal) :=
  (opened x0 x1 x2 x3 x4 x5 x6 hpre).2.2.1

theorem finite_wh2 (hpre : Cert.Pre_finite_inputs.fn (F := Ideal) x0 x1 x2 x3 x4 x5 x6 = fun _ => 1#1) :
    ∀ i : S1433x32.Idx, ∃ r : ℝ, x5 i = (r : EReal) :=
  (opened x0 x1 x2 x3 x4 x5 x6 hpre).2.2.2.1

theorem finite_wo2 (hpre : Cert.Pre_finite_inputs.fn (F := Ideal) x0 x1 x2 x3 x4 x5 x6 = fun _ => 1#1) :
    ∀ i : S32x7.Idx, ∃ r : ℝ, x6 i = (r : EReal) :=
  (opened x0 x1 x2 x3 x4 x5 x6 hpre).2.2.2.2.1

/-- Every word of the edge list is a node number. -/
theorem inRange (hpre : Cert.Pre_finite_inputs.fn (F := Ideal) x0 x1 x2 x3 x4 x5 x6 = fun _ => 1#1) :
    InRange x1 :=
  (opened x0 x1 x2 x3 x4 x5 x6 hpre).2.2.2.2.2.1

/-- Every node is the first word of some entry. -/
theorem outdeg_pos (hpre : Cert.Pre_finite_inputs.fn (F := Ideal) x0 x1 x2 x3 x4 x5 x6 = fun _ => 1#1) :
    ∀ i : Fin 8192, 0 < (Finset.univ.filter fun e : Fin 131072 => node x1 0 e = i).card :=
  (opened x0 x1 x2 x3 x4 x5 x6 hpre).2.2.2.2.2.2.1

/-- Every node is the second word of some entry. -/
theorem indeg_pos (hpre : Cert.Pre_finite_inputs.fn (F := Ideal) x0 x1 x2 x3 x4 x5 x6 = fun _ => 1#1) :
    ∀ i : Fin 8192, 0 < (Finset.univ.filter fun e : Fin 131072 => node x1 1 e = i).card :=
  (opened x0 x1 x2 x3 x4 x5 x6 hpre).2.2.2.2.2.2.2.1

/-- No pair of nodes is named by two entries. -/
theorem pair_le_one (hpre : Cert.Pre_finite_inputs.fn (F := Ideal) x0 x1 x2 x3 x4 x5 x6 = fun _ => 1#1) :
    ∀ i j : Fin 8192, (Finset.univ.filter fun e : Fin 131072 => node x1 0 e = i ∧ node x1 1 e = j).card ≤ 1 :=
  (opened x0 x1 x2 x3 x4 x5 x6 hpre).2.2.2.2.2.2.2.2

end Cert.PreFacts

end
-- ==== Proof.Algebra.lean ====
/-
  The kernel's formula and the reference's formula are one function.

  With every entry of X and of the weights a real number, every out- and in-degree positive, and the edge
  list free of repeated pairs (so the adjacency count A i j is 0 or 1), message passing is the matrix
  product with A, the matrix products commute with the row scaling by 1 / degree, and
  (A · (X · W)) · r = ((A · X) · r) · W row by row: all sums are finite sums of reals, so the laws of ℝ apply.

  The proof has three parts.  First, the coercion ℝ → EReal commutes with finite sums, products, the
  maximum with 0 and the quotient by a nonzero real.  Second, real-valued twins of the two formulas are
  defined and shown equal in ℝ: collecting V (d e) over the list entries e with s e = i is the sum
  ∑ j, A i j · V j (group the entries by the value j = d e), and
  ∑ k, ((∑ l, a l · v l k) · r) · w k = (∑ l, a l · ∑ k, v l k · w k) · r.  Third, each formula over EReal
  is the coercion of its twin.  The identity holds for every multiplicity of the pairs, so the bound
  A i j ≤ 1 is not used.
-/
import proofs.«401971_j55422257988077_1_alg».proof.Proof.Spec
import Mathlib.Data.EReal.Basic
import Mathlib.Data.EReal.Inv
import Mathlib.Data.Finset.Filter
import Mathlib.Algebra.BigOperators.Group.Finset.Basic
import Mathlib.Algebra.BigOperators.Group.Finset.Sigma
import Mathlib.Algebra.BigOperators.Ring.Finset
import Mathlib.Tactic.Ring

noncomputable section

namespace Cert.Spec

open Idealize.ShloMosaic

/-! ### The coercion of reals commutes with the operations of the two formulas -/

/-- A finite sum of coerced reals is the coerced sum. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The maximum with 0 of a coerced real is the coerced maximum. -/
theorem coe_max_zero (x : ℝ) : max (x : EReal) 0 = ((max x 0 : ℝ) : EReal) := by
  rw [← EReal.coe_zero]
  exact (EReal.coe_strictMono.monotone.map_max).symm

/-- The quotient of a coerced real by a nonzero coerced real is the coerced product with the reciprocal. -/
theorem div_coe_coe {y : ℝ} (h : y ≠ 0) (x : ℝ) :
    Ideal.div (x : EReal) (y : EReal) = ((x * (1 / y) : ℝ) : EReal) := by
  rw [Ideal.div_coe h, ← EReal.coe_mul]

/-- The same for a family of nonzero divisors. -/
theorem div_coe_fun {ι : Type} {dd : ι → ℝ} (hd : ∀ i, dd i ≠ 0) (x : ℝ) (i : ι) :
    Ideal.div (x : EReal) (dd i : EReal) = ((x * (1 / dd i) : ℝ) : EReal) :=
  div_coe_coe (hd i) x

/-! ### The real-valued twins -/

/-- The real product a · b. -/
def rmm {n k p : Nat} (a : Fin n → Fin k → ℝ) (b : Fin k → Fin p → ℝ) : Fin n → Fin p → ℝ :=
  fun i c => ∑ l, a i l * b l c

/-- The real product aᵀ · b. -/
def rmmT {n k p : Nat} (a : Fin k → Fin n → ℝ) (b : Fin k → Fin p → ℝ) : Fin n → Fin p → ℝ :=
  fun i c => ∑ l, a l i * b l c

/-- Real message passing along an edge list. -/
def rprop {E N p : Nat} (s d : Fin E → Fin N) (v : Fin N → Fin p → ℝ) : Fin N → Fin p → ℝ :=
  fun i k => ∑ e ∈ Finset.univ.filter (fun e => s e = i), v (d e) k

/-- The adjacency counts of an edge list, as reals. -/
def adj {E N : Nat} (s d : Fin E → Fin N) : Fin N → Fin N → ℝ :=
  fun i j => ((Finset.univ.filter fun e => s e = i ∧ d e = j).card : ℝ)

/-- Grouping the entries e with s e = i by the value j = d e: the collected sum of v (d e) is
  ∑ j, (number of entries naming (i, j)) · v j. -/
theorem sum_filter_eq_sum_card {E N : Nat} (s d : Fin E → Fin N) (v : Fin N → ℝ) (i : Fin N) :
    ∑ e ∈ Finset.univ.filter (fun e => s e = i), v (d e)
      = ∑ j, ((Finset.univ.filter fun e => s e = i ∧ d e = j).card : ℝ) * v j := by
  rw [← Finset.sum_fiberwise' (Finset.univ.filter fun e => s e = i) d v]
  refine Finset.sum_congr rfl fun j _ => ?_
  rw [Finset.filter_filter, Finset.sum_const, nsmul_eq_mul]

/-- Message passing along the edges is the product with the adjacency counts. -/
theorem rprop_eq_rmm {E N p : Nat} (s d : Fin E → Fin N) (v : Fin N → Fin p → ℝ) :
    rprop s d v = rmm (adj s d) v := by
  funext i k
  exact sum_filter_eq_sum_card s d (fun j => v j k) i

/-- Message passing against the edges is the product with the transposed adjacency counts. -/
theorem rprop_swap_eq_rmmT {E N p : Nat} (s d : Fin E → Fin N) (v : Fin N → Fin p → ℝ) :
    rprop d s v = rmmT (adj s d) v := by
  funext i k
  refine (sum_filter_eq_sum_card d s (fun j => v j k) i).trans ?_
  refine Finset.sum_congr rfl fun j _ => ?_
  have : (Finset.univ.filter fun e => d e = i ∧ s e = j) = Finset.univ.filter fun e => s e = j ∧ d e = i :=
    Finset.filter_congr fun e _ => and_comm
  simp only [adj, this]

/-- Scaling a row after the first product or after the second is the same. -/
theorem sum_scale_mul {N K : Nat} (a : Fin N → ℝ) (v : Fin N → Fin K → ℝ) (w : Fin K → ℝ) (r : ℝ) :
    ∑ k, ((∑ l, a l * v l k) * r) * w k = (∑ l, a l * ∑ k, v l k * w k) * (1 * r) := by
  simp only [Finset.mul_sum, Finset.sum_mul]
  rw [Finset.sum_comm]
  refine Finset.sum_congr rfl fun l _ => Finset.sum_congr rfl fun k _ => ?_
  ring

theorem rmm_scale {N K P : Nat} (a : Fin N → Fin N → ℝ) (v : Fin N → Fin K → ℝ) (w : Fin K → Fin P → ℝ)
    (q : Fin N → ℝ) :
    rmm (fun i k => rmm a v i k * q i) w = fun i c => rmm a (rmm v w) i c * (1 * q i) := by
  funext i c
  exact sum_scale_mul (fun l => a i l) v (fun k => w k c) (q i)

theorem rmmT_scale {N K P : Nat} (a : Fin N → Fin N → ℝ) (v : Fin N → Fin K → ℝ) (w : Fin K → Fin P → ℝ)
    (q : Fin N → ℝ) :
    rmm (fun i k => rmmT a v i k * q i) w = fun i c => rmmT a (rmm v w) i c * (1 * q i) := by
  funext i c
  exact sum_scale_mul (fun l => a l i) v (fun k => w k c) (q i)

/-- The kernel's formula over ℝ. -/
def kernelR {N K H C : Nat} (x : Fin N → Fin K → ℝ) (a : Fin N → Fin N → ℝ) (d1 d2 : Fin N → ℝ)
    (wh1 : Fin K → Fin H → ℝ) (wo1 : Fin H → Fin C → ℝ) (wh2 : Fin K → Fin H → ℝ) (wo2 : Fin H → Fin C → ℝ) :
    Fin N → Fin C → ℝ :=
  let z1 : Fin N → Fin H → ℝ := fun i h => max (rmm a (rmm x wh1) i h * (1 * (1 / d1 i))) 0
  let z2 : Fin N → Fin H → ℝ := fun i h => max (rmmT a (rmm x wh2) i h * (1 * (1 / d2 i))) 0
  fun i c => (rmm a (rmm z1 wo1) i c * (1 * (1 / d1 i)) + rmmT a (rmm z2 wo2) i c * (1 * (1 / d1 i))) * (1 / 2)

/-- The reference's formula over ℝ. -/
def refR {N K H C E : Nat} (x : Fin N → Fin K → ℝ) (s d : Fin E → Fin N) (d1 d2 : Fin N → ℝ)
    (wh1 : Fin K → Fin H → ℝ) (wo1 : Fin H → Fin C → ℝ) (wh2 : Fin K → Fin H → ℝ) (wo2 : Fin H → Fin C → ℝ) :
    Fin N → Fin C → ℝ :=
  let h1 : Fin N → Fin H → ℝ := fun i h => max (rmm (fun i k => rprop s d x i k * (1 / d1 i)) wh1 i h) 0
  let x1 : Fin N → Fin C → ℝ := rmm (fun i h => rprop s d h1 i h * (1 / d1 i)) wo1
  let h2 : Fin N → Fin H → ℝ := fun i h => max (rmm (fun i k => rprop d s x i k * (1 / d2 i)) wh2 i h) 0
  let x2 : Fin N → Fin C → ℝ := rmm (fun i h => rprop d s h2 i h * (1 / d1 i)) wo2
  fun i c => (x1 i c + x2 i c) * (1 / 2)

/-- Over ℝ the two formulas agree, whatever the scaling factors are. -/
theorem kernelR_eq_refR {N K H C E : Nat} (x : Fin N → Fin K → ℝ) (s d : Fin E → Fin N) (d1 d2 : Fin N → ℝ)
    (wh1 : Fin K → Fin H → ℝ) (wo1 : Fin H → Fin C → ℝ) (wh2 : Fin K → Fin H → ℝ) (wo2 : Fin H → Fin C → ℝ) :
    kernelR x (adj s d) d1 d2 wh1 wo1 wh2 wo2 = refR x s d d1 d2 wh1 wo1 wh2 wo2 := by
  simp only [kernelR, refR, rprop_eq_rmm s d, rprop_swap_eq_rmmT s d, rmm_scale, rmmT_scale]

/-! ### Each formula over EReal is the coercion of its twin -/

theorem kernelOut_coe
    {X : Mat 8192 1433} {A : Mat 8192 8192} {D1 D2 : Fin 8192 → EReal}
    {Wh1 : Mat 1433 32} {Wo1 : Mat 32 7} {Wh2 : Mat 1433 32} {Wo2 : Mat 32 7}
    {x : Fin 8192 → Fin 1433 → ℝ} {a : Fin 8192 → Fin 8192 → ℝ} {d1 d2 : Fin 8192 → ℝ}
    {wh1 : Fin 1433 → Fin 32 → ℝ} {wo1 : Fin 32 → Fin 7 → ℝ} {wh2 : Fin 1433 → Fin 32 → ℝ} {wo2 : Fin 32 → Fin 7 → ℝ}
    (hX : ∀ i k, X i k = (x i k : EReal)) (hA : ∀ i j, A i j = (a i j : EReal))
    (hD1 : ∀ i, D1 i = (d1 i : EReal)) (hD2 : ∀ i, D2 i = (d2 i : EReal))
    (hWh1 : ∀ i k, Wh1 i k = (wh1 i k : EReal)) (hWo1 : ∀ i k, Wo1 i k = (wo1 i k : EReal))
    (hWh2 : ∀ i k, Wh2 i k = (wh2 i k : EReal)) (hWo2 : ∀ i k, Wo2 i k = (wo2 i k : EReal))
    (hd1 : ∀ i, d1 i ≠ 0) (hd2 : ∀ i, d2 i ≠ 0) (i : Fin 8192) (c : Fin 7) :
    kernelOut X A (fun i => Ideal.div ((1 : ℝ) : EReal) (D1 i)) (fun i => Ideal.div ((1 : ℝ) : EReal) (D2 i))
        Wh1 Wo1 Wh2 Wo2 ((1 / 2 : ℝ) : EReal) i c
      = ((kernelR x a d1 d2 wh1 wo1 wh2 wo2 i c : ℝ) : EReal) := by
  simp only [kernelOut, kernelR, mm, mmT, rmm, rmmT, hX, hA, hD1, hD2, hWh1, hWo1, hWh2, hWo2,
    div_coe_fun hd1, div_coe_fun hd2, ← EReal.coe_mul, ← coe_sum, coe_max_zero, ← EReal.coe_add]

theorem refOut_coe
    {X : Mat 8192 1433} {D1 D2 : Fin 8192 → EReal}
    {Wh1 : Mat 1433 32} {Wo1 : Mat 32 7} {Wh2 : Mat 1433 32} {Wo2 : Mat 32 7}
    {x : Fin 8192 → Fin 1433 → ℝ} {d1 d2 : Fin 8192 → ℝ}
    {wh1 : Fin 1433 → Fin 32 → ℝ} {wo1 : Fin 32 → Fin 7 → ℝ} {wh2 : Fin 1433 → Fin 32 → ℝ} {wo2 : Fin 32 → Fin 7 → ℝ}
    (s d : Fin 131072 → Fin 8192)
    (hX : ∀ i k, X i k = (x i k : EReal))
    (hD1 : ∀ i, D1 i = (d1 i : EReal)) (hD2 : ∀ i, D2 i = (d2 i : EReal))
    (hWh1 : ∀ i k, Wh1 i k = (wh1 i k : EReal)) (hWo1 : ∀ i k, Wo1 i k = (wo1 i k : EReal))
    (hWh2 : ∀ i k, Wh2 i k = (wh2 i k : EReal)) (hWo2 : ∀ i k, Wo2 i k = (wo2 i k : EReal))
    (hd1 : ∀ i, d1 i ≠ 0) (hd2 : ∀ i, d2 i ≠ 0) (i : Fin 8192) (c : Fin 7) :
    refOut X s d D1 D2 Wh1 Wo1 Wh2 Wo2 ((2 : ℝ) : EReal) i c
      = ((refR x s d d1 d2 wh1 wo1 wh2 wo2 i c : ℝ) : EReal) := by
  simp only [refOut, refR, mm, rmm, prop, rprop, hX, hD1, hD2, hWh1, hWo1, hWh2, hWo2,
    div_coe_fun hd1, div_coe_fun hd2, div_coe_coe (two_ne_zero' ℝ), ← EReal.coe_mul, ← coe_sum, coe_max_zero,
    ← EReal.coe_add]

theorem kernelOut_eq_refOut
    (X : Mat 8192 1433) (Wh1 : Mat 1433 32) (Wo1 : Mat 32 7) (Wh2 : Mat 1433 32) (Wo2 : Mat 32 7)
    (hX : ∀ i k, ∃ r : ℝ, X i k = (r : EReal))
    (hWh1 : ∀ i k, ∃ r : ℝ, Wh1 i k = (r : EReal)) (hWo1 : ∀ i k, ∃ r : ℝ, Wo1 i k = (r : EReal))
    (hWh2 : ∀ i k, ∃ r : ℝ, Wh2 i k = (r : EReal)) (hWo2 : ∀ i k, ∃ r : ℝ, Wo2 i k = (r : EReal))
    (s d : Fin 131072 → Fin 8192)
    (A : Mat 8192 8192)
    (hA : ∀ i j, A i j = (((Finset.univ.filter fun e => s e = i ∧ d e = j).card : ℝ) : EReal))
    (huniq : ∀ i j, (Finset.univ.filter fun e => s e = i ∧ d e = j).card ≤ 1)
    (D1 D2 : Fin 8192 → EReal)
    (hD1 : ∀ i, D1 i = (((Finset.univ.filter fun e => s e = i).card : ℝ) : EReal))
    (hD2 : ∀ i, D2 i = (((Finset.univ.filter fun e => d e = i).card : ℝ) : EReal))
    (hpos1 : ∀ i, 0 < (Finset.univ.filter fun e => s e = i).card)
    (hpos2 : ∀ i, 0 < (Finset.univ.filter fun e => d e = i).card)
    (one half two : EReal) (hone : one = ((1 : ℝ) : EReal)) (hhalf : half = ((1 / 2 : ℝ) : EReal))
    (htwo : two = ((2 : ℝ) : EReal)) :
    kernelOut X A (fun i => Ideal.div one (D1 i)) (fun i => Ideal.div one (D2 i)) Wh1 Wo1 Wh2 Wo2 half
      = refOut X s d D1 D2 Wh1 Wo1 Wh2 Wo2 two := by
  choose x hx using hX
  choose wh1 hwh1 using hWh1
  choose wo1 hwo1 using hWo1
  choose wh2 hwh2 using hWh2
  choose wo2 hwo2 using hWo2
  have hd1 : ∀ i : Fin 8192, ((Finset.univ.filter fun e => s e = i).card : ℝ) ≠ 0 :=
    fun i => Nat.cast_ne_zero.mpr (hpos1 i).ne'
  have hd2 : ∀ i : Fin 8192, ((Finset.univ.filter fun e => d e = i).card : ℝ) ≠ 0 :=
    fun i => Nat.cast_ne_zero.mpr (hpos2 i).ne'
  subst hone hhalf htwo
  funext i c
  rw [kernelOut_coe (a := adj s d) hx hA hD1 hD2 hwh1 hwo1 hwh2 hwo2 hd1 hd2 i c,
    refOut_coe s d hx hD1 hD2 hwh1 hwo1 hwh2 hwo2 hd1 hd2 i c, kernelR_eq_refR]

end Cert.Spec

end
-- ==== Proof.Bridge.lean ====
/-
  The two programs end with the same result.

  The reference's result is the reference formula of the arguments (Proof/RefValue.lean), the kernel program's is
  the kernel formula of the arguments, of the adjacency array and of the reciprocal-degree columns (Proof/KFold.lean,
  Proof/KHost.lean).  Under the precondition (Proof/PreFacts.lean) every word of the edge list is a node, the adjacency
  array is the 0/1 count of the entries naming a pair, both degree arrays are the positive counts of the entries
  leaving resp. entering a node, and every float argument is real: the hypotheses under which the two formulas are
  one function (Proof/Algebra.lean).
-/
import proofs.«401971_j55422257988077_1_alg».proof.Defs
import proofs.«401971_j55422257988077_1_alg».proof.Proof.Gen.Pre_finite_inputs
import proofs.«401971_j55422257988077_1_alg».proof.Proof.KernelIdealRun
import proofs.«401971_j55422257988077_1_alg».proof.Proof.KFold
import proofs.«401971_j55422257988077_1_alg».proof.Proof.KHost
import proofs.«401971_j55422257988077_1_alg».proof.Proof.RefValue
import proofs.«401971_j55422257988077_1_alg».proof.Proof.PreFacts
import proofs.«401971_j55422257988077_1_alg».proof.Proof.Algebra

set_option maxRecDepth 16384

noncomputable section

namespace Cert.Bridge

open Idealize.ShloMosaic Idealize.ShloMosaic.TcCoe Idealize.SL.Sem Idealize.ShloMosaic.ValueIdx Cert.Spec

/-- Zero plus a one for every element of a finite set is the set's cardinality. -/
theorem count_eq {ι : Type} (S : Finset ι) :
    Ideal.ofBits .f32 0x00000000#32 + ∑ _e ∈ S, Ideal.ofBits .f32 0x3F800000#32 = (((S.card : ℕ) : ℝ) : EReal) := by
  classical
  rw [Cert.Consts.ofBits_zero_f32, Cert.Consts.ofBits_one_f32]
  induction S using Finset.induction_on with
  | empty => simp
  | insert a S ha ih =>
    rw [Finset.sum_insert ha, Finset.card_insert_of_notMem ha, add_left_comm, ih]
    rw [← EReal.coe_add]; congr 1; push_cast; ring

/-- A 0/1 indicator of "some entry names (i, j)" is the count of such entries once no pair is named twice. -/
theorem indicator_eq_card {ι : Type} [Fintype ι] (P : ι → Prop) [DecidablePred P] [Decidable (∃ e, P e)]
    (hle : (Finset.univ.filter P).card ≤ 1) :
    (if ∃ e, P e then Ideal.ofBits .bf16 0x3F80#16 else Ideal.ofBits .bf16 0x0000#16)
      = ((((Finset.univ.filter P).card : ℕ) : ℝ) : EReal) := by
  by_cases h : ∃ e, P e
  · obtain ⟨e, he⟩ := h
    have hpos : 0 < (Finset.univ.filter P).card := Finset.card_pos.mpr ⟨e, by simp [he]⟩
    have h1 : (Finset.univ.filter P).card = 1 := by omega
    rw [if_pos ⟨e, he⟩, h1, Cert.Consts.ofBits_one_bf16]; simp
  · have h0 : (Finset.univ.filter P).card = 0 := by
      rw [Finset.card_eq_zero, Finset.filter_eq_empty_iff]; intro e _ he; exact h ⟨e, he⟩
    rw [if_neg h, h0, Cert.Consts.ofBits_zero_bf16]; simp

open Cert.KernelIdeal.Gen in
/-- From memories agreeing on the arguments, under the precondition, the reference's result term is the kernel
    program's result buffer after its run. -/
theorem result_eq [Cert.Pre_finite_inputs.Facts]
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v69 (F := Ideal) m' c
      = W9 (F := Ideal) m ρ c (Proc.devRef .tc Cert.KernelIdeal.main_v49) := by
  rw [Cert.ReferenceIdeal.Read.val_main_v69_eq, h0, h1, h3, h4, h5, h6]
  funext idx
  obtain ⟨i, k, rfl⟩ : ∃ (i : Fin 8192) (k : Fin 7), idx = ix2 i k := ⟨idx 0, idx 1, eq_ix2 idx⟩
  have hr := Cert.PreFacts.inRange _ _ _ _ _ _ _ hpre
  have hpair := Cert.PreFacts.pair_le_one _ _ _ _ _ _ _ hpre
  refine (Cert.ReferenceIdeal.RefValue.result _ _ _ _ _ _ hr i k).trans ?_
  refine Eq.trans ?_ (Cert.KernelIdeal.KVal.result m ρ c i k).symm
  have hinv1 : (fun i : Fin 8192 => (V1 (F := Ideal) m ρ c Cert.KernelIdeal.main_v14 : Cert.KernelIdeal.S8192x1.Idx → EReal) (ix2 i 0))
      = fun i => Ideal.div (Ideal.ofBits .f32 0x3F800000#32)
          (Cert.ReferenceIdeal.Read.val_main_v7 (F := Ideal) (m ((c.tc : Thread Cert.KernelIdeal.nD Cert.KernelIdeal.τ).loc Cert.KernelIdeal.main_arg1)) (ix1 i)) := by
    funext i
    rw [Cert.KernelIdeal.KVal.inv1_apply m ρ c hr i, Cert.ReferenceIdeal.RefValue.deg1_apply _ hr i]
  have hinv2 : (fun i : Fin 8192 => (V1 (F := Ideal) m ρ c Cert.KernelIdeal.main_v16 : Cert.KernelIdeal.S8192x1.Idx → EReal) (ix2 i 0))
      = fun i => Ideal.div (Ideal.ofBits .f32 0x3F800000#32)
          (Cert.ReferenceIdeal.Read.val_main_v11 (F := Ideal) (m ((c.tc : Thread Cert.KernelIdeal.nD Cert.KernelIdeal.τ).loc Cert.KernelIdeal.main_arg1)) (ix1 i)) := by
    funext i
    rw [Cert.KernelIdeal.KVal.inv2_apply m ρ c hr i, Cert.ReferenceIdeal.RefValue.deg2_apply _ hr i]
  rw [hinv1, hinv2]
  have hA : ∀ i j : Fin 8192, (toMat (V1 (F := Ideal) m ρ c Cert.KernelIdeal.main_v32 : Cert.KernelIdeal.S8192x8192.Idx → EReal)) i j
      = (((Finset.univ.filter fun e : Fin 131072 =>
          node (m ((c.tc : Thread Cert.KernelIdeal.nD Cert.KernelIdeal.τ).loc Cert.KernelIdeal.main_arg1)) 0 e = i
          ∧ node (m ((c.tc : Thread Cert.KernelIdeal.nD Cert.KernelIdeal.τ).loc Cert.KernelIdeal.main_arg1)) 1 e = j).card : ℝ) : EReal) := by
    intro i j
    show (V1 (F := Ideal) m ρ c Cert.KernelIdeal.main_v32 : Cert.KernelIdeal.S8192x8192.Idx → EReal) (ix2 i j) = _
    rw [Cert.KernelIdeal.KVal.adj_apply m ρ c hr i j]
    exact indicator_eq_card (fun e : Fin 131072 =>
      node (m ((c.tc : Thread Cert.KernelIdeal.nD Cert.KernelIdeal.τ).loc Cert.KernelIdeal.main_arg1)) 0 e = i
      ∧ node (m ((c.tc : Thread Cert.KernelIdeal.nD Cert.KernelIdeal.τ).loc Cert.KernelIdeal.main_arg1)) 1 e = j) (hpair i j)
  have hD1 : ∀ i : Fin 8192, Cert.ReferenceIdeal.Read.val_main_v7 (F := Ideal) (m ((c.tc : Thread Cert.KernelIdeal.nD Cert.KernelIdeal.τ).loc Cert.KernelIdeal.main_arg1)) (ix1 i)
      = (((Finset.univ.filter fun e : Fin 131072 =>
          node (m ((c.tc : Thread Cert.KernelIdeal.nD Cert.KernelIdeal.τ).loc Cert.KernelIdeal.main_arg1)) 0 e = i).card : ℝ) : EReal) := by
    intro i; rw [Cert.ReferenceIdeal.RefValue.deg1_apply _ hr i]; exact count_eq _
  have hD2 : ∀ i : Fin 8192, Cert.ReferenceIdeal.Read.val_main_v11 (F := Ideal) (m ((c.tc : Thread Cert.KernelIdeal.nD Cert.KernelIdeal.τ).loc Cert.KernelIdeal.main_arg1)) (ix1 i)
      = (((Finset.univ.filter fun e : Fin 131072 =>
          node (m ((c.tc : Thread Cert.KernelIdeal.nD Cert.KernelIdeal.τ).loc Cert.KernelIdeal.main_arg1)) 1 e = i).card : ℝ) : EReal) := by
    intro i; rw [Cert.ReferenceIdeal.RefValue.deg2_apply _ hr i]; exact count_eq _
  have key := kernelOut_eq_refOut
    (toMat (m ((c.tc : Thread Cert.KernelIdeal.nD Cert.KernelIdeal.τ).loc Cert.KernelIdeal.main_arg0)))
    (toMat (m ((c.tc : Thread Cert.KernelIdeal.nD Cert.KernelIdeal.τ).loc Cert.KernelIdeal.main_arg3)))
    (toMat (m ((c.tc : Thread Cert.KernelIdeal.nD Cert.KernelIdeal.τ).loc Cert.KernelIdeal.main_arg4)))
    (toMat (m ((c.tc : Thread Cert.KernelIdeal.nD Cert.KernelIdeal.τ).loc Cert.KernelIdeal.main_arg5)))
    (toMat (m ((c.tc : Thread Cert.KernelIdeal.nD Cert.KernelIdeal.τ).loc Cert.KernelIdeal.main_arg6)))
    (fun i k => Cert.PreFacts.finite_x _ _ _ _ _ _ _ hpre (ix2 i k))
    (fun i k => Cert.PreFacts.finite_wh1 _ _ _ _ _ _ _ hpre (ix2 i k))
    (fun i k => Cert.PreFacts.finite_wo1 _ _ _ _ _ _ _ hpre (ix2 i k))
    (fun i k => Cert.PreFacts.finite_wh2 _ _ _ _ _ _ _ hpre (ix2 i k))
    (fun i k => Cert.PreFacts.finite_wo2 _ _ _ _ _ _ _ hpre (ix2 i k))
    (node (m ((c.tc : Thread Cert.KernelIdeal.nD Cert.KernelIdeal.τ).loc Cert.KernelIdeal.main_arg1)) 0)
    (node (m ((c.tc : Thread Cert.KernelIdeal.nD Cert.KernelIdeal.τ).loc Cert.KernelIdeal.main_arg1)) 1)
    (toMat (V1 (F := Ideal) m ρ c Cert.KernelIdeal.main_v32 : Cert.KernelIdeal.S8192x8192.Idx → EReal)) hA hpair
    (fun i => Cert.ReferenceIdeal.Read.val_main_v7 (F := Ideal) (m ((c.tc : Thread Cert.KernelIdeal.nD Cert.KernelIdeal.τ).loc Cert.KernelIdeal.main_arg1)) (ix1 i))
    (fun i => Cert.ReferenceIdeal.Read.val_main_v11 (F := Ideal) (m ((c.tc : Thread Cert.KernelIdeal.nD Cert.KernelIdeal.τ).loc Cert.KernelIdeal.main_arg1)) (ix1 i))
    hD1 hD2
    (Cert.PreFacts.outdeg_pos _ _ _ _ _ _ _ hpre) (Cert.PreFacts.indeg_pos _ _ _ _ _ _ _ hpre)
    (Ideal.ofBits .f32 0x3F800000#32) (Ideal.ofBits .f32 0x3F000000#32) (Ideal.ofBits .f32 0x40000000#32)
    Cert.Consts.ofBits_one_f32 Cert.Consts.ofBits_half_f32 Cert.Consts.ofBits_two_f32
  exact (congrFun (congrFun key i) k).symm

end Cert.Bridge

end
-- ==== Proof.lean ====
/-
  The certificate: a graph network layer on 8192 nodes and 131072 edges, the kernel program against its reference.

  Both programs propagate node features along the edge list and against it, normalise by degrees, apply two dense
  layers per branch and average the branches.  The reference propagates the wide features by gather and segment sum
  and applies the weights afterwards; the kernel program applies the weights first and propagates the narrow result
  by a product with the dense 0/1 adjacency matrix it builds by setting ones at the listed pairs.  Where every word of
  the edge list is a node, no pair is listed twice and every node has an outgoing and an incoming edge, the adjacency
  matrix is the count of entries per pair, the degrees are positive reals, and linearity makes the two orders agree
  (Proof/Bridge.lean over Proof/Algebra.lean).  The frames of the two kernel programs are the generated ones; the
  reference's frame is its generated run with the result dropped.
-/
import proofs.«401971_j55422257988077_1_alg».proof.Defs
import proofs.«401971_j55422257988077_1_alg».proof.Proof.Gen.Kernel
import proofs.«401971_j55422257988077_1_alg».proof.Proof.KernelFrame
import proofs.«401971_j55422257988077_1_alg».proof.Proof.Gen.KernelIdeal
import proofs.«401971_j55422257988077_1_alg».proof.Proof.KernelIdealFrame
import proofs.«401971_j55422257988077_1_alg».proof.Proof.KernelIdealRun
import proofs.«401971_j55422257988077_1_alg».proof.Proof.Gen.ReferenceIdeal
import proofs.«401971_j55422257988077_1_alg».proof.Proof.Gen.ReferenceIdeal.Run
import proofs.«401971_j55422257988077_1_alg».proof.Proof.Gen.Pre_finite_inputs
import proofs.«401971_j55422257988077_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel program ends with its result buffer at the last boundary's contents and the
    reference with its composed term; from agreeing arguments under the precondition these are one array. -/
theorem algebraic : Cert.algebraic_KernelIdeal_ReferenceIdeal := by
  intro m ρ m' ρ' hpre hagree
  refine ⟨fun c => Cert.KernelIdeal.Gen.W9 (F := Ideal) m ρ c (Proc.devRef .tc Cert.KernelIdeal.main_v49),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, _, h3, h4, h5, h6⟩ := hagree c
  exact Cert.Bridge.result_eq m ρ m' c (hpre c) h0 h1 h3 h4 h5 h6

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
